-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x512 : Shape := ⟨3, ![32, 512, 512]⟩
abbrev S1024 : Shape := ⟨1, ![1024]⟩
abbrev S1536x1024 : Shape := ⟨2, ![1536, 1024]⟩
abbrev S1000x1024 : Shape := ⟨2, ![1000, 1024]⟩
abbrev S1000 : Shape := ⟨1, ![1000]⟩
abbrev S_ : Shape := ⟨0, ![]⟩

class Facts : Prop where
  bcast_S_S32x512x512 : S_.BroadcastsInDim S32x512x512 (![] : Fin 0 → Fin S32x512x512.rank)
  reducesTo_S32x512x512_S_d0_1_2 : S32x512x512.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1536x1024 : S_.BroadcastsInDim S1536x1024 (![] : Fin 0 → Fin S1536x1024.rank)
  reducesTo_S1536x1024_S_d0_1 : S1536x1024.ReducesTo [0, 1] S_
  bcast_S_S1000x1024 : S_.BroadcastsInDim S1000x1024 (![] : Fin 0 → Fin S1000x1024.rank)
  reducesTo_S1000x1024_S_d0_1 : S1000x1024.ReducesTo [0, 1] S_
  bcast_S_S1000 : S_.BroadcastsInDim S1000 (![] : Fin 0 → Fin S1000.rank)
  reducesTo_S1000_S_d0 : S1000.ReducesTo [0] S_

variable [Facts]

def fn_part2 {F : FTy → Type} [FloatOps F] (main_arg7 : FVec F S1000x1024 .f32) (main_arg8 : FVec F S1000 .f32) (main_v33 : IVec S_ 1) : IVec S_ 1 :=
  let main_v34 : FVec F S1000x1024 .f32 := Host.absf main_arg7
  let main_cst_12 : FVec F S_ .f32 := constant S_ .f32 0x7F800000#32
  let main_v35 : FVec F S1000x1024 .f32 := broadcastInDim S1000x1024 ![] bcast_S_S1000x1024 main_cst_12
  let main_v36 : IVec S1000x1024 1 := cmpf .olt main_v34 main_v35
  let main_c_13 : IVec S_ 1 := constantI S_ 1 1#1
  let main_v37 : IVec S_ 1 := (fun x v => Host.reduce IntOp.andi x v reducesTo_S1000x1024_S_d0_1 h_S_) main_v36 main_c_13
  let main_v38 : IVec S_ 1 := andi main_v33 main_v37
  let main_v39 : FVec F S1000 .f32 := Host.absf main_arg8
  let main_cst_14 : FVec F S_ .f32 := constant S_ .f32 0x7F800000#32
  let main_v40 : FVec F S1000 .f32 := broadcastInDim S1000 ![] bcast_S_S1000 main_cst_14
  let main_v41 : IVec S1000 1 := cmpf .olt main_v39 main_v40
  let main_c_15 : IVec S_ 1 := constantI S_ 1 1#1
  let main_v42 : IVec S_ 1 := (fun x v => Host.reduce IntOp.andi x v reducesTo_S1000_S_d0 h_S_) main_v41 main_c_15
  let main_v43 : IVec S_ 1 := andi main_v38 main_v42
  main_v43

def fn_part1 {F : FTy → Type} [FloatOps F] (main_arg4 : FVec F S1536x1024 .f32) (main_arg5 : FVec F S1536x1024 .f32) (main_arg6 : FVec F S1536x1024 .f32) (main_arg7 : FVec F S1000x1024 .f32) (main_arg8 : FVec F S1000 .f32) (main_v13 : IVec S_ 1) (main_v16 : IVec S1536x1024 1) : IVec S_ 1 :=
  let main_c_5 : IVec S_ 1 := constantI S_ 1 1#1
  let main_v17 : IVec S_ 1 := (fun x v => Host.reduce IntOp.andi x v reducesTo_S1536x1024_S_d0_1 h_S_) main_v16 main_c_5
  let main_v18 : IVec S_ 1 := andi main_v13 main_v17
  let main_v19 : FVec F S1536x1024 .f32 := Host.absf main_arg4
  let main_cst_6 : FVec F S_ .f32 := constant S_ .f32 0x7F800000#32
  let main_v20 : FVec F S1536x1024 .f32 := broadcastInDim S1536x1024 ![] bcast_S_S1536x1024 main_cst_6
  let main_v21 : IVec S1536x1024 1 := cmpf .olt main_v19 main_v20
  let main_c_7 : IVec S_ 1 := constantI S_ 1 1#1
  let main_v22 : IVec S_ 1 := (fun x v => Host.reduce IntOp.andi x v reducesTo_S1536x1024_S_d0_1 h_S_) main_v21 main_c_7
  let main_v23 : IVec S_ 1 := andi main_v18 main_v22
  let main_v24 : FVec F S1536x1024 .f32 := Host.absf main_arg5
  let main_cst_8 : FVec F S_ .f32 := constant S_ .f32 0x7F800000#32
  let main_v25 : FVec F S1536x1024 .f32 := broadcastInDim S1536x1024 ![] bcast_S_S1536x1024 main_cst_8
  let main_v26 : IVec S1536x1024 1 := cmpf .olt main_v24 main_v25
  let main_c_9 : IVec S_ 1 := constantI S_ 1 1#1
  let main_v27 : IVec S_ 1 := (fun x v => Host.reduce IntOp.andi x v reducesTo_S1536x1024_S_d0_1 h_S_) main_v26 main_c_9
  let main_v28 : IVec S_ 1 := andi main_v23 main_v27
  let main_v29 : FVec F S1536x1024 .f32 := Host.absf main_arg6
  let main_cst_10 : FVec F S_ .f32 := constant S_ .f32 0x7F800000#32
  let main_v30 : FVec F S1536x1024 .f32 := broadcastInDim S1536x1024 ![] bcast_S_S1536x1024 main_cst_10
  let main_v31 : IVec S1536x1024 1 := cmpf .olt main_v29 main_v30
  let main_c_11 : IVec S_ 1 := constantI S_ 1 1#1
  let main_v32 : IVec S_ 1 := (fun x v => Host.reduce IntOp.andi x v reducesTo_S1536x1024_S_d0_1 h_S_) main_v31 main_c_11
  let main_v33 : IVec S_ 1 := andi main_v28 main_v32
  fn_part2 (F := F) main_arg7 main_arg8 main_v33

def fn {F : FTy → Type} [FloatOps F] (main_arg0 : FVec F S32x512x512 .f32) (main_arg1 : FVec F S1024 .f32) (main_arg2 : FVec F S1024 .f32) (main_arg3 : FVec F S1536x1024 .f32) (main_arg4 : FVec F S1536x1024 .f32) (main_arg5 : FVec F S1536x1024 .f32) (main_arg6 : FVec F S1536x1024 .f32) (main_arg7 : FVec F S1000x1024 .f32) (main_arg8 : FVec F S1000 .f32) : IVec S_ 1 :=
  let main_v0 : FVec F S32x512x512 .f32 := Host.absf main_arg0
  let main_cst : FVec F S_ .f32 := constant S_ .f32 0x7F800000#32
  let main_v1 : FVec F S32x512x512 .f32 := broadcastInDim S32x512x512 ![] bcast_S_S32x512x512 main_cst
  let main_v2 : IVec S32x512x512 1 := cmpf .olt main_v0 main_v1
  let main_c : IVec S_ 1 := constantI S_ 1 1#1
  let main_v3 : IVec S_ 1 := (fun x v => Host.reduce IntOp.andi x v reducesTo_S32x512x512_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1536x1024 .f32 := Host.absf main_arg3
  let main_cst_4 : FVec F S_ .f32 := constant S_ .f32 0x7F800000#32
  let main_v15 : FVec F S1536x1024 .f32 := broadcastInDim S1536x1024 ![] bcast_S_S1536x1024 main_cst_4
  let main_v16 : IVec S1536x1024 1 := cmpf .olt main_v14 main_v15
  fn_part1 (F := F) main_arg4 main_arg5 main_arg6 main_arg7 main_arg8 main_v13 main_v16
-- ==== Kernel.lean ====
abbrev S32x512x512 : Shape := ⟨3, ![32, 512, 512]⟩
abbrev S1024 : Shape := ⟨1, ![1024]⟩
abbrev S1536x1024 : Shape := ⟨2, ![1536, 1024]⟩
abbrev S1000x1024 : Shape := ⟨2, ![1000, 1024]⟩
abbrev S1000 : Shape := ⟨1, ![1000]⟩
abbrev S32x1x512 : Shape := ⟨3, ![32, 1, 512]⟩
abbrev S32x512 : Shape := ⟨2, ![32, 512]⟩
abbrev S1x1024 : Shape := ⟨2, ![1, 1024]⟩
abbrev S32x1024 : Shape := ⟨2, ![32, 1024]⟩
abbrev S32x1536 : Shape := ⟨2, ![32, 1536]⟩
abbrev S1536x4096 : Shape := ⟨2, ![1536, 4096]⟩
abbrev S512x4096 : Shape := ⟨2, ![512, 4096]⟩
abbrev S32x4096 : Shape := ⟨2, ![32, 4096]⟩
abbrev S1x1000 : Shape := ⟨2, ![1, 1000]⟩
abbrev S32x1000 : Shape := ⟨2, ![32, 1000]⟩
abbrev S32 : Shape := ⟨1, ![32]⟩
abbrev S32x1 : Shape := ⟨2, ![32, 1]⟩

abbrev nBuf : Space → Nat
  | .hbm => 23
  | .vmem => 11
  | .smem => 0
  | _ => 0

abbrev bufTy : (tb : Table) → Fin (tcTables nBuf tb) → BufTy
  | .hbm, ⟨0, _⟩ => ⟨S32x512x512, .f32⟩
  | .hbm, ⟨1, _⟩ => ⟨S1024, .f32⟩
  | .hbm, ⟨2, _⟩ => ⟨S1024, .f32⟩
  | .hbm, ⟨3, _⟩ => ⟨S1536x1024, .f32⟩
  | .hbm, ⟨4, _⟩ => ⟨S1536x1024, .f32⟩
  | .hbm, ⟨5, _⟩ => ⟨S1536x1024, .f32⟩
  | .hbm, ⟨6, _⟩ => ⟨S1536x1024, .f32⟩
  | .hbm, ⟨7, _⟩ => ⟨S1000x1024, .f32⟩
  | .hbm, ⟨8, _⟩ => ⟨S1000, .f32⟩
  | .hbm, ⟨9, _⟩ => ⟨S32x1x512, .f32⟩
  | .hbm, ⟨10, _⟩ => ⟨S32x512, .f32⟩
  | .hbm, ⟨11, _⟩ => ⟨S1x1024, .f32⟩
  | .hbm, ⟨12, _⟩ => ⟨S32x1024, .f32⟩
  | .hbm, ⟨13, _⟩ => ⟨S32x1536, .f32⟩
  | .hbm, ⟨14, _⟩ => ⟨S1536x4096, .f32⟩
  | .hbm, ⟨15, _⟩ => ⟨S32x1536, .bf16⟩
  | .hbm, ⟨16, _⟩ => ⟨S1536x4096, .bf16⟩
  | .hbm, ⟨17, _⟩ => ⟨S1x1024, .f32⟩
  | .hbm, ⟨18, _⟩ => ⟨S32x1024, .f32⟩
  | .hbm, ⟨19, _⟩ => ⟨S32x1024, .bf16⟩
  | .hbm, ⟨20, _⟩ => ⟨S1000x1024, .bf16⟩
  | .hbm, ⟨21, _⟩ => ⟨S1x1000, .f32⟩
  | .hbm, ⟨22, _⟩ => ⟨S32x1000, .f32⟩
  | .local _ .vmem, ⟨0, _⟩ => ⟨S32x512, .bf16⟩
  | .local _ .vmem, ⟨1, _⟩ => ⟨S32x512, .bf16⟩
  | .local _ .vmem, ⟨2, _⟩ => ⟨S512x4096, .bf16⟩
  | .local _ .vmem, ⟨3, _⟩ => ⟨S512x4096, .bf16⟩
  | .local _ .vmem, ⟨4, _⟩ => ⟨S1x1024, .f32⟩
  | .local _ .vmem, ⟨5, _⟩ => ⟨S32x1024, .f32⟩
  | .local _ .vmem, ⟨6, _⟩ => ⟨S32x4096, .f32⟩
  | .local _ .vmem, ⟨7, _⟩ => ⟨S32x1024, .bf16⟩
  | .local _ .vmem, ⟨8, _⟩ => ⟨S1000x1024, .bf16⟩
  | .local _ .vmem, ⟨9, _⟩ => ⟨S1x1000, .f32⟩
  | .local _ .vmem, ⟨10, _⟩ => ⟨S32x1000, .f32⟩
  | _, _ => ⟨S32x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc1_sem0_0 : DmaSem sig := 6
abbrev cc1_sem1_0 : DmaSem sig := 7
abbrev cc1_sem2_0 : DmaSem sig := 8
abbrev cc1_sem3_0 : DmaSem sig := 9

abbrev nD : Nat := 1
abbrev τ : Topo := Topo.v7x

variable {F : FTy → Type} [FloatOps F]

abbrev grid0 : Pipeline.Grid := ⟨1, ![3], ![false]⟩

def k0_cond2 (i : grid0.Coords) : BitVec 1 :=
  let arg0 : BitVec 32 := BitVec.ofNat 32 (i 0).val
  let c2_i32 : BitVec 32 := 2#32
  let v13 : BitVec 1 := Scalar.cmpi .eq arg0 c2_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S32x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S32x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1000x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1000 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x1000 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

class Facts₀ : Prop where
  slices_S32x512x512_S32x1x512_0_511_0 : S32x512x512.Slices ![0, 511, 0] S32x1x512
  shapeCasts_S32x1x512_S32x512 : S32x1x512.ShapeCasts S32x512
  bcast_S1024_S1x1024_1 : S1024.BroadcastsInDim S1x1024 (![1] : Fin 1 → Fin S1x1024.rank)
  bcast_S1x1024_S32x1024_0_1 : S1x1024.BroadcastsInDim S32x1024 (![0, 1] : Fin 2 → Fin S32x1024.rank)
  concatenates_S32x1024_S32x512_S32x1536_d1 : Shape.Concatenates [S32x1024, S32x512] S32x1536 1
  concatenates_S1536x1024_S1536x1024_S1536x1024_S1536x1024_S1536x4096_d1 : Shape.Concatenates [S1536x1024, S1536x1024, S1536x1024, S1536x1024] S1536x4096 1
  bitsLt_bf16_f32 : FTy.bits .bf16 < FTy.bits .f32
  inb_S32x4096_S32x4096_0_0 : ∀ a, (![0, 0] : Fin 2 → Nat) a + S32x4096.size a ≤ S32x4096.size a
  h_S32x4096 : 0 < S32x4096.numel
  shapeCasts_S32x4096_S32x4096 : S32x4096.ShapeCasts S32x4096
  inb_S32x512_S32x512_0_0 : ∀ a, (![0, 0] : Fin 2 → Nat) a + S32x512.size a ≤ S32x512.size a
  h_S32x512 : 0 < S32x512.numel
  shapeCasts_S32x512_S32x512 : S32x512.ShapeCasts S32x512
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  slices_S32x4096_o0_0_S32x1024 : S32x4096.Slices ![0, 0] S32x1024
  slices_S32x4096_o0_1024_S32x1024 : S32x4096.Slices ![0, 1024] S32x1024
  slices_S32x4096_o0_2048_S32x1024 : S32x4096.Slices ![0, 2048] S32x1024
  slices_S32x4096_o0_3072_S32x1024 : S32x4096.Slices ![0, 3072] S32x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S32x1024 : S1x1024.Broadcasts S32x1024
  inb_S32x1024_S32x1024_0_0 : ∀ a, (![0, 0] : Fin 2 → Nat) a + S32x1024.size a ≤ S32x1024.size a
  h_S32x1024 : 0 < S32x1024.numel
  bcast_S1000_S1x1000_1 : S1000.BroadcastsInDim S1x1000 (![1] : Fin 1 → Fin S1x1000.rank)
  shapeCasts_S32x1024_S32x1024 : S32x1024.ShapeCasts S32x1024
  inb_S1000x1024_S1000x1024_0_0 : ∀ a, (![0, 0] : Fin 2 → Nat) a + S1000x1024.size a ≤ S1000x1024.size a
  h_S1000x1024 : 0 < S1000x1024.numel
  shapeCasts_S1000x1024_S1000x1024 : S1000x1024.ShapeCasts S1000x1024
  inb_S1x1000_S1x1000_0_0 : ∀ a, (![0, 0] : Fin 2 → Nat) a + S1x1000.size a ≤ S1x1000.size a
  h_S1x1000 : 0 < S1x1000.numel
  shapeCasts_S1x1000_S1x1000 : S1x1000.ShapeCasts S1x1000
  broadcasts_S1x1000_S32x1000 : S1x1000.Broadcasts S32x1000
  reduces_S32x1000_S32 : S32x1000.Reduces [1] S32
  shapeCasts_S32_S32x1 : S32.ShapeCasts S32x1
  broadcasts_S32x1_S32x1000 : S32x1.Broadcasts S32x1000
  inb_S32x1000_S32x1000_0_0 : ∀ a, (![0, 0] : Fin 2 → Nat) a + S32x1000.size a ≤ S32x1000.size a
  h_S32x1000 : 0 < S32x1000.numel
  dot_S32x512_S512x4096_S32x4096_1_0_0_1_n_n_wf : DotDims.WF S32x512 S512x4096 S32x4096 [1] [0] [0] [1] [] []
  dot_S32x1024_S1000x1024_S32x1000_1_1_0_0_n_n_wf : DotDims.WF S32x1024 S1000x1024 S32x1000 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x512.size a ≤ S32x1536.size a
  hwx0_0 : ∀ i : grid0.Coords, EltTy.bits .bf16 = 32 ∨ (Rect.block (s := S32x1536) S32x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S1536x4096.size a
  hwx0_1 : ∀ i : grid0.Coords, EltTy.bits .bf16 = 32 ∨ (Rect.block (s := S1536x4096) S512x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x1024.size a ≤ S32x1024.size a
  hwx0_3 : ∀ i : grid0.Coords, EltTy.bits .f32 = 32 ∨ (Rect.block (s := S32x1024) S32x1024.size (cc0_transform_3 i) (hinb0_3 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S32x1024.size a ≤ S32x1024.size a
  hwx1_0 : ∀ i : grid1.Coords, EltTy.bits .bf16 = 32 ∨ (Rect.block (s := S32x1024) S32x1024.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1000x1024.size a ≤ S1000x1024.size a
  hwx1_1 : ∀ i : grid1.Coords, EltTy.bits .bf16 = 32 ∨ (Rect.block (s := S1000x1024) S1000x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1000.size a ≤ S1x1000.size a
  hwx1_2 : ∀ i : grid1.Coords, EltTy.bits .f32 = 32 ∨ (Rect.block (s := S1x1000) S1x1000.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x1000.size a ≤ S32x1000.size a
  hwx1_3 : ∀ i : grid1.Coords, EltTy.bits .f32 = 32 ∨ (Rect.block (s := S32x1000) S32x1000.size (cc1_transform_3 i) (hinb1_3 i)).WholeWords (EltTy.packing .f32)

variable [Facts₀]

def dot_S32x512_S512x4096_S32x4096_1_0_0_1_n_n : DotDims S32x512 S512x4096 S32x4096 where
  lhsContracting := [1]
  rhsContracting := [0]
  lhsNonContracting := [0]
  rhsNonContracting := [1]
  lhsBatch := []
  rhsBatch := []
  wf := dot_S32x512_S512x4096_S32x4096_1_0_0_1_n_n_wf
def dot_S32x1024_S1000x1024_S32x1000_1_1_0_0_n_n : DotDims S32x1024 S1000x1024 S32x1000 where
  lhsContracting := [1]
  rhsContracting := [1]
  lhsNonContracting := [0]
  rhsNonContracting := [0]
  lhsBatch := []
  rhsBatch := []
  wf := dot_S32x1024_S1000x1024_S32x1000_1_1_0_0_n_n_wf

abbrev win0_0 : Pipeline.Window sig grid0 :=
  Pipeline.Window.ofSpec (Memref.whole main_v6) S32x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S32x1024.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v10) S32x1024.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v11) S1000x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v12) S1x1000.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v13) S32x1000.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S32x512x512 : Shape := ⟨3, ![32, 512, 512]⟩
abbrev S1024 : Shape := ⟨1, ![1024]⟩
abbrev S1536x1024 : Shape := ⟨2, ![1536, 1024]⟩
abbrev S1000x1024 : Shape := ⟨2, ![1000, 1024]⟩
abbrev S1000 : Shape := ⟨1, ![1000]⟩
abbrev S32x512x1024 : Shape := ⟨3, ![32, 512, 1024]⟩
abbrev S32x512x1536 : Shape := ⟨3, ![32, 512, 1536]⟩
abbrev S1536x4096 : Shape := ⟨2, ![1536, 4096]⟩
abbrev S32x512x4096 : Shape := ⟨3, ![32, 512, 4096]⟩
abbrev S_ : Shape := ⟨0, ![]⟩
abbrev S1x1x1024 : Shape := ⟨3, ![1, 1, 1024]⟩
abbrev S32x1x1024 : Shape := ⟨3, ![32, 1, 1024]⟩
abbrev S32x1024 : Shape := ⟨2, ![32, 1024]⟩
abbrev S1024x1000 : Shape := ⟨2, ![1024, 1000]⟩
abbrev S32x1000 : Shape := ⟨2, ![32, 1000]⟩
abbrev S1x1000 : Shape := ⟨2, ![1, 1000]⟩
abbrev S32 : Shape := ⟨1, ![32]⟩
abbrev S32x1 : Shape := ⟨2, ![32, 1]⟩

abbrev nBuf : Space → Nat
  | .hbm => 74
  | .vmem => 0
  | .smem => 0
  | _ => 0

abbrev bufTy : (tb : Table) → Fin (tcTables nBuf tb) → BufTy
  | .hbm, ⟨0, _⟩ => ⟨S32x512x512, .f32⟩
  | .hbm, ⟨1, _⟩ => ⟨S1024, .f32⟩
  | .hbm, ⟨2, _⟩ => ⟨S1024, .f32⟩
  | .hbm, ⟨3, _⟩ => ⟨S1536x1024, .f32⟩
  | .hbm, ⟨4, _⟩ => ⟨S1536x1024, .f32⟩
  | .hbm, ⟨5, _⟩ => ⟨S1536x1024, .f32⟩
  | .hbm, ⟨6, _⟩ => ⟨S1536x1024, .f32⟩
  | .hbm, ⟨7, _⟩ => ⟨S1000x1024, .f32⟩
  | .hbm, ⟨8, _⟩ => ⟨S1000, .f32⟩
  | .hbm, ⟨9, _⟩ => ⟨S32x512x1024, .f32⟩
  | .hbm, ⟨10, _⟩ => ⟨S32x512x1536, .f32⟩
  | .hbm, ⟨11, _⟩ => ⟨S1536x4096, .f32⟩
  | .hbm, ⟨12, _⟩ => ⟨S32x512x4096, .f32⟩
  | .hbm, ⟨13, _⟩ => ⟨S32x512x1024, .f32⟩
  | .hbm, ⟨14, _⟩ => ⟨S32x512x1024, .f32⟩
  | .hbm, ⟨15, _⟩ => ⟨S32x512x1024, .f32⟩
  | .hbm, ⟨16, _⟩ => ⟨S32x512x1024, .f32⟩
  | .hbm, ⟨17, _⟩ => ⟨S32x512x1024, .f32⟩
  | .hbm, ⟨18, _⟩ => ⟨S32x512x1024, .f32⟩
  | .hbm, ⟨19, _⟩ => ⟨S_, .f32⟩
  | .hbm, ⟨20, _⟩ => ⟨S32x512x1024, .f32⟩
  | .hbm, ⟨21, _⟩ => ⟨S32x512x1024, .f32⟩
  | .hbm, ⟨22, _⟩ => ⟨S_, .f32⟩
  | .hbm, ⟨23, _⟩ => ⟨S32x512x1024, .f32⟩
  | .hbm, ⟨24, _⟩ => ⟨S32x512x1024, .f32⟩
  | .hbm, ⟨25, _⟩ => ⟨S32x512x1024, .f32⟩
  | .hbm, ⟨26, _⟩ => ⟨S32x512x1024, .f32⟩
  | .hbm, ⟨27, _⟩ => ⟨S_, .f32⟩
  | .hbm, ⟨28, _⟩ => ⟨S32x512x1024, .f32⟩
  | .hbm, ⟨29, _⟩ => ⟨S32x512x1024, .f32⟩
  | .hbm, ⟨30, _⟩ => ⟨S_, .f32⟩
  | .hbm, ⟨31, _⟩ => ⟨S32x512x1024, .f32⟩
  | .hbm, ⟨32, _⟩ => ⟨S32x512x1024, .f32⟩
  | .hbm, ⟨33, _⟩ => ⟨S32x512x1024, .f32⟩
  | .hbm, ⟨34, _⟩ => ⟨S32x512x1024, .f32⟩
  | .hbm, ⟨35, _⟩ => ⟨S32x512x1024, .f32⟩
  | .hbm, ⟨36, _⟩ => ⟨S_, .f32⟩
  | .hbm, ⟨37, _⟩ => ⟨S32x512x1024, .f32⟩
  | .hbm, ⟨38, _⟩ => ⟨S32x512x1024, .f32⟩
  | .hbm, ⟨39, _⟩ => ⟨S_, .f32⟩
  | .hbm, ⟨40, _⟩ => ⟨S32x512x1024, .f32⟩
  | .hbm, ⟨41, _⟩ => ⟨S32x512x1024, .f32⟩
  | .hbm, ⟨42, _⟩ => ⟨S1x1x1024, .f32⟩
  | .hbm, ⟨43, _⟩ => ⟨S32x512x1024, .f32⟩
  | .hbm, ⟨44, _⟩ => ⟨S32x512x1024, .f32⟩
  | .hbm, ⟨45, _⟩ => ⟨S32x512x1024, .f32⟩
  | .hbm, ⟨46, _⟩ => ⟨S32x512x1024, .f32⟩
  | .hbm, ⟨47, _⟩ => ⟨S32x512x1024, .f32⟩
  | .hbm, ⟨48, _⟩ => ⟨S32x512x1024, .f32⟩
  | .hbm, ⟨49, _⟩ => ⟨S32x1x1024, .f32⟩
  | .hbm, ⟨50, _⟩ => ⟨S32x1024, .f32⟩
  | .hbm, ⟨51, _⟩ => ⟨S1024x1000, .f32⟩
  | .hbm, ⟨52, _⟩ => ⟨S32x1000, .f32⟩
  | .hbm, ⟨53, _⟩ => ⟨S1x1000, .f32⟩
  | .hbm, ⟨54, _⟩ => ⟨S32x1000, .f32⟩
  | .hbm, ⟨55, _⟩ => ⟨S32x1000, .f32⟩
  | .hbm, ⟨56, _⟩ => ⟨S_, .f32⟩
  | .hbm, ⟨57, _⟩ => ⟨S32x1000, .f32⟩
  | .hbm, ⟨58, _⟩ => ⟨S32x1000, .f32⟩
  | .hbm, ⟨59, _⟩ => ⟨S_, .f32⟩
  | .hbm, ⟨60, _⟩ => ⟨S32, .f32⟩
  | .hbm, ⟨61, _⟩ => ⟨S_, .f32⟩
  | .hbm, ⟨62, _⟩ => ⟨S32, .f32⟩
  | .hbm, ⟨63, _⟩ => ⟨S32, .f32⟩
  | .hbm, ⟨64, _⟩ => ⟨S32x1, .f32⟩
  | .hbm, ⟨65, _⟩ => ⟨S32x1000, .f32⟩
  | .hbm, ⟨66, _⟩ => ⟨S32x1000, .f32⟩
  | .hbm, ⟨67, _⟩ => ⟨S32x1000, .f32⟩
  | .hbm, ⟨68, _⟩ => ⟨S_, .f32⟩
  | .hbm, ⟨69, _⟩ => ⟨S32, .f32⟩
  | .hbm, ⟨70, _⟩ => ⟨S32x1, .f32⟩
  | .hbm, ⟨71, _⟩ => ⟨S32x1, .f32⟩
  | .hbm, ⟨72, _⟩ => ⟨S32x1000, .f32⟩
  | .hbm, ⟨73, _⟩ => ⟨S32x1000, .f32⟩
  | _, _ => ⟨S32x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_call0_cst : Ref sig .tc := ⟨.hbm, 56, rfl⟩
abbrev main_call0_v0 : Ref sig .tc := ⟨.hbm, 57, rfl⟩
abbrev main_v41 : Ref sig .tc := ⟨.hbm, 58, rfl⟩
abbrev main_call1_cst : Ref sig .tc := ⟨.hbm, 59, rfl⟩
abbrev main_call1_v0 : Ref sig .tc := ⟨.hbm, 60, rfl⟩
abbrev main_call1_cst_0 : Ref sig .tc := ⟨.hbm, 61, rfl⟩
abbrev main_call1_v1 : Ref sig .tc := ⟨.hbm, 62, rfl⟩
abbrev main_call1_v2 : Ref sig .tc := ⟨.hbm, 63, rfl⟩
abbrev main_call1_v3 : Ref sig .tc := ⟨.hbm, 64, rfl⟩
abbrev main_call1_v4 : Ref sig .tc := ⟨.hbm, 65, rfl⟩
abbrev main_call1_v5 : Ref sig .tc := ⟨.hbm, 66, rfl⟩
abbrev main_call1_v6 : Ref sig .tc := ⟨.hbm, 67, rfl⟩
abbrev main_call1_cst_1 : Ref sig .tc := ⟨.hbm, 68, rfl⟩
abbrev main_call1_v7 : Ref sig .tc := ⟨.hbm, 69, rfl⟩
abbrev main_call1_v8 : Ref sig .tc := ⟨.hbm, 70, rfl⟩
abbrev main_call1_v9 : Ref sig .tc := ⟨.hbm, 71, rfl⟩
abbrev main_call1_v10 : Ref sig .tc := ⟨.hbm, 72, rfl⟩
abbrev main_v42 : Ref sig .tc := ⟨.hbm, 73, rfl⟩

abbrev nD : Nat := 1
abbrev τ : Topo := Topo.v7x

variable {F : FTy → Type} [FloatOps F]

class Facts₀ : Prop where
  bcast_S1024_S32x512x1024_2 : S1024.BroadcastsInDim S32x512x1024 (![2] : Fin 1 → Fin S32x512x1024.rank)
  concatenates_S32x512x1024_S32x512x512_S32x512x1536_d2 : Shape.Concatenates [S32x512x1024, S32x512x512] S32x512x1536 2
  concatenates_S1536x1024_S1536x1024_S1536x1024_S1536x1024_S1536x4096_d1 : Shape.Concatenates [S1536x1024, S1536x1024, S1536x1024, S1536x1024] S1536x4096 1
  slices_S32x512x4096_S32x512x1024_0_0_0 : S32x512x4096.Slices ![0, 0, 0] S32x512x1024
  slices_S32x512x4096_S32x512x1024_0_0_1024 : S32x512x4096.Slices ![0, 0, 1024] S32x512x1024
  slices_S32x512x4096_S32x512x1024_0_0_2048 : S32x512x4096.Slices ![0, 0, 2048] S32x512x1024
  slices_S32x512x4096_S32x512x1024_0_0_3072 : S32x512x4096.Slices ![0, 0, 3072] S32x512x1024
  bcast_S_S32x512x1024 : S_.BroadcastsInDim S32x512x1024 (![] : Fin 0 → Fin S32x512x1024.rank)
  bcast_S1024_S1x1x1024_2 : S1024.BroadcastsInDim S1x1x1024 (![2] : Fin 1 → Fin S1x1x1024.rank)
  bcast_S1x1x1024_S32x512x1024_0_1_2 : S1x1x1024.BroadcastsInDim S32x512x1024 (![0, 1, 2] : Fin 3 → Fin S32x512x1024.rank)
  slices_S32x512x1024_S32x1x1024_0_511_0 : S32x512x1024.Slices ![0, 511, 0] S32x1x1024
  shapeCasts_S32x1x1024_S32x1024 : S32x1x1024.ShapeCasts S32x1024
  transposes_S1000x1024_S1024x1000_1_0 : S1000x1024.Transposes [1, 0] S1024x1000
  bcast_S1000_S1x1000_1 : S1000.BroadcastsInDim S1x1000 (![1] : Fin 1 → Fin S1x1000.rank)
  bcast_S1x1000_S32x1000_0_1 : S1x1000.BroadcastsInDim S32x1000 (![0, 1] : Fin 2 → Fin S32x1000.rank)
  bcast_S_S32x1000 : S_.BroadcastsInDim S32x1000 (![] : Fin 0 → Fin S32x1000.rank)
  reducesTo_S32x1000_S32_d1 : S32x1000.ReducesTo [1] S32
  h_S_ : 0 < S_.numel
  bcast_S_S32 : S_.BroadcastsInDim S32 (![] : Fin 0 → Fin S32.rank)
  bcast_S32_S32x1_0 : S32.BroadcastsInDim S32x1 (![0] : Fin 1 → Fin S32x1.rank)
  bcast_S32x1_S32x1000_0_1 : S32x1.BroadcastsInDim S32x1000 (![0, 1] : Fin 2 → Fin S32x1000.rank)
  dot_S32x512x1536_S1536x4096_S32x512x4096_2_0_01_1_n_n_wf : DotDims.WF S32x512x1536 S1536x4096 S32x512x4096 [2] [0] [0, 1] [1] [] []
  dot_S32x1024_S1024x1000_S32x1000_1_0_0_1_n_n_wf : DotDims.WF S32x1024 S1024x1000 S32x1000 [1] [0] [0] [1] [] []

variable [Facts₀]

def dot_S32x512x1536_S1536x4096_S32x512x4096_2_0_01_1_n_n : DotDims S32x512x1536 S1536x4096 S32x512x4096 where
  lhsContracting := [2]
  rhsContracting := [0]
  lhsNonContracting := [0, 1]
  rhsNonContracting := [1]
  lhsBatch := []
  rhsBatch := []
  wf := dot_S32x512x1536_S1536x4096_S32x512x4096_2_0_01_1_n_n_wf
def dot_S32x1024_S1024x1000_S32x1000_1_0_0_1_n_n : DotDims S32x1024 S1024x1000 S32x1000 where
  lhsContracting := [1]
  rhsContracting := [0]
  lhsNonContracting := [0]
  rhsNonContracting := [1]
  lhsBatch := []
  rhsBatch := []
  wf := dot_S32x1024_S1024x1000_S32x1000_1_0_0_1_n_n_wf

class Facts : Prop extends Facts₀ where

variable [Facts]
-- ==== Proof.KB.FcDefs.lean ====
/-
  The second kernel region (the fully connected layer followed by relu and log-softmax) as proof data.
  The region has one grid point and every window's block is its whole array: the three inputs are staged once,
  the body reads them whole and stores the whole result once. What the output's staging buffer holds after the
  body is therefore one function `fcOut` of the three input blocks.
-/
import proofs.«157235_j5179730559367_1_alg».proof.Proof.Gen.Kernel.Launch
import proofs.«157235_j5179730559367_1_alg».proof.Proof.Gen.Kernel.Skeleton
import proofs.«157235_j5179730559367_1_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t` of the second region, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole-buffer rectangles the body loads and stores through. -/
abbrev rh : Rect S32x1024 := Rect.unit (s := S32x1024) ![0, 0] S32x1024.size inb_S32x1024_S32x1024_0_0
abbrev rw1 : Rect S1000x1024 := Rect.unit (s := S1000x1024) ![0, 0] S1000x1024.size inb_S1000x1024_S1000x1024_0_0
abbrev rb : Rect S1x1000 := Rect.unit (s := S1x1000) ![0, 0] S1x1000.size inb_S1x1000_S1x1000_0_0
abbrev ro : Rect S32x1000 := Rect.unit (s := S32x1000) ![0, 0] S32x1000.size inb_S32x1000_S32x1000_0_0

/-- What the body leaves in the output's staging buffer: its one whole store, of the payload at the loaded inputs. -/
def fcOut (x0 : Vec F S32x1024 .bf16) (x1 : Vec F S1000x1024 .bf16) (x2 : Vec F S1x1000 .f32) : Vec F S32x1000 .f32 :=
  View.canon [⟨ro, k1_pay1 (View.ld x0 rh) (View.ld x1 rw1) (View.ld x2 rb)⟩]

/-- The proof data of the second region on core `c`: the arrays as the region finds them; after the body each
    input's buffer still at its block, the output's at `fcOut` of the input blocks; the invariant is the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => fcOut (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = fcOut (iblk1 V c 0 t) (iblk1 V c 1 t) (iblk1 V c 2 t) := by dsimp only [dat1]

end Cert.Kernel.Hand

end
-- ==== Proof.KB.GateDefs.lean ====
/-
  The first kernel region (the fused gate product and the cell update) as proof data.
  The grid has three points, one per block of 512 along the contracted axis. The body keeps the running sum of the
  partial products in a scratch buffer of its own: the first point clears it and adds the first partial product,
  the next points add theirs, and the last point, after adding, reads the whole sum back, applies the gate
  nonlinearities and the cell update and stores the new hidden state into the output's buffer. The output window
  is idle at the first two points and written back at the last.
-/
import proofs.«157235_j5179730559367_1_alg».proof.Proof.Gen.Kernel.Launch
import proofs.«157235_j5179730559367_1_alg».proof.Proof.Gen.Kernel.Skeleton
import proofs.«157235_j5179730559367_1_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t` of the first region, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-buffer rectangles the body loads and stores through. -/
abbrev rz : Rect S32x512 := Rect.unit (s := S32x512) ![0, 0] S32x512.size inb_S32x512_S32x512_0_0
abbrev rwt : Rect S512x4096 := Rect.unit (s := S512x4096) ![0, 0] S512x4096.size inb_S512x4096_S512x4096_0_0
abbrev rc : Rect S1x1024 := Rect.unit (s := S1x1024) ![0, 0] S1x1024.size inb_S1x1024_S1x1024_0_0
abbrev rs : Rect S32x4096 := Rect.unit (s := S32x4096) ![0, 0] S32x4096.size inb_S32x4096_S32x4096_0_0
abbrev rg : Rect S32x1024 := Rect.unit (s := S32x1024) ![0, 0] S32x1024.size inb_S32x1024_S32x1024_0_0

/-- The scratch accumulator, a whole scoped buffer of the kernel's own. -/
abbrev scM : Memref sig .tc .vmem S32x4096 .f32 := Memref.whole cc0_scratch0

/-- The scratch after the first point: cleared, then the first partial product added. -/
def accA (x0 : Vec F S32x512 .bf16) (x1 : Vec F S512x4096 .bf16) : Vec F S32x4096 .f32 :=
  k0_pay2 (k0_pay1 (F := F)) x0 x1
/-- The scratch after a later point: the point's partial product added to what the point before left. -/
def accB (xs : Vec F S32x4096 .f32) (x0 : Vec F S32x512 .bf16) (x1 : Vec F S512x4096 .bf16) : Vec F S32x4096 .f32 :=
  k0_pay2 xs x0 x1
/-- The output's staging buffer after the last point: the gates and the cell update of the whole sum `xs`. -/
def gateOut (xs : Vec F S32x4096 .f32) (x2 : Vec F S1x1024 .f32) : Vec F S32x1024 .f32 :=
  k0_pay3 xs x2

/-- What the scratch holds after the body at position `n`. -/
def accAt (c : Dev nD) : (n : ℕ) → n < cfg0.N → Vec F S32x4096 .f32
  | 0, hn => accA (iblk0 V c 0 ⟨0, hn⟩) (iblk0 V c 1 ⟨0, hn⟩)
  | n + 1, hn => accB (accAt c n (Nat.lt_of_succ_lt hn)) (iblk0 V c 0 ⟨n + 1, hn⟩) (iblk0 V c 1 ⟨n + 1, hn⟩)

theorem accAt_zero (c : Dev nD) (hn : 0 < cfg0.N) :
    accAt V c 0 hn = accA (iblk0 V c 0 ⟨0, hn⟩) (iblk0 V c 1 ⟨0, hn⟩) := rfl
theorem accAt_succ (c : Dev nD) (n : ℕ) (hn : n + 1 < cfg0.N) :
    accAt V c (n + 1) hn = accB (accAt V c n (Nat.lt_of_succ_lt hn)) (iblk0 V c 0 ⟨n + 1, hn⟩) (iblk0 V c 1 ⟨n + 1, hn⟩) := rfl

/-- The second region's staging buffers, which the first region's body never touches: each whole at some contents. -/
def restStg (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f))

/-- The region invariant before position `n`: before the first point every scoped buffer that is no staging buffer of
    this region at anything; afterwards the scratch at the running sum the point before left, the other region's
    staging buffers at anything; the generator register at some state throughout. -/
def PhiS (c : Dev nD) : (n : ℕ) → n ≤ cfg0.N → sProp 𝕄
  | 0, _ => Pipeline.ΦA spec0 c
  | n + 1, hn => iprop(owns (c : Thread nD τ) scM fullShare (accAt V c n hn) ∗ restStg (F := F) c ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(owns (c : Thread nD τ) scM fullShare (accAt V c n hn) ∗ restStg (F := F) c ∗ (∃ r, prngReg c r)) := rfl
theorem PhiS_pos (c : Dev nD) (n : ℕ) (h : n ≤ cfg0.N) (hz : n ≠ 0) :
    PhiS V c n h = iprop(owns (c : Thread nD τ) scM fullShare (accAt V c (n - 1) (by omega)) ∗ restStg (F := F) c ∗ (∃ r, prngReg c r)) := by
  cases n with
  | zero => exact absurd rfl hz
  | succ n => rfl

/-- The proof data of the first region on core `c`: the arrays as the region finds them; after the body at point `t`
    each input's buffer still at its block, the output's at the gates of the running sum (read only at the last point,
    the one that writes it back: elsewhere the window is idle); the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => gateOut (accAt V c t.val t.isLt) (iblk0 V c 2 t)
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = gateOut (accAt V c t.val t.isLt) (iblk0 V c 2 t) := by dsimp only [dat0]

end Cert.Kernel.Hand

end
-- ==== Proof.KB.RunDefs.lean ====
/-
  The contents of every unscoped buffer of a core at each boundary of the program's four items: the launch memory,
  then the first stretch of host operations folded over it, then the first region's arrays at what its write-backs
  leave (every other buffer as entered), then the second stretch of host operations, then the second region's arrays
  at what its write-backs leave.
-/
import proofs.«157235_j5179730559367_1_alg».proof.Proof.Gen.Kernel.Launch
import proofs.«157235_j5179730559367_1_alg».proof.Proof.Gen.Kernel.Skeleton
import proofs.«157235_j5179730559367_1_alg».proof.Proof.Gen.Kernel.Points
import proofs.«157235_j5179730559367_1_alg».proof.Proof.KB.FcDefs
import proofs.«157235_j5179730559367_1_alg».proof.Proof.KB.GateDefs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- Core `c`'s buffers at launch. -/
abbrev W0 : Dev nD → Valuation τ sig (Elt F) := fun c b => m ((c : Dev nD), b)
/-- After the first stretch of host operations (the first region's entry). -/
abbrev W1 : Dev nD → Valuation τ sig (Elt F) := fun c => StableHlo.after hostOps0 (W0 m c)
/-- The same read at the core's references (what the first region's proof data take). -/
abbrev V1 : (c : Dev nD) → (b : Ref sig .tc) → Buf (Elt F) ((c : Thread nD τ).loc b) := fun c b => W1 m c b
/-- At the first region's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second stretch of host operations (the second region's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the second region's exit: its arrays at what the pipeline leaves, every other buffer as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

end Cert.Kernel.Hand

end
-- ==== Proof.KB.FcObl.lean ====
/-
  The body obligation of the second kernel region (the fully connected layer followed by relu and log-softmax).
  The region has one grid point and every window's block is its whole array. Each input's staging buffer holds
  its block when the body is called; the body reads the three inputs whole, reads the output's buffer without
  using what it read, and stores the payload of the three inputs over the whole output buffer. So after the body
  the inputs' buffers are as they were and the output's buffer is the payload of the input blocks.
-/
import proofs.«157235_j5179730559367_1_alg».proof.Proof.Gen.Kernel.Launch
import proofs.«157235_j5179730559367_1_alg».proof.Proof.Gen.Kernel.Skeleton
import proofs.«157235_j5179730559367_1_alg».proof.Proof.Gen.Kernel.Points
import proofs.«157235_j5179730559367_1_alg».proof.Proof.KB.FcDefs

import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The inputs' staging buffers hold their blocks -/

/-- An input window is uncut, never idle, and the body leaves its block in place; so at every point its current
    staging buffer holds what a fetch there puts in it, which is its block. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)

/-! ## The whole-buffer rectangles -/

/-- The offsets of the whole-buffer rectangles are zero on both axes. -/
theorem zero_off : (![0, 0] : Fin 2 → Nat) = fun _ => 0 := funext fun a => by fin_cases a <;> rfl

/-- The one stored piece covers the output's buffer: every index lies in the whole-buffer rectangle. -/
theorem cover_ro (p : Vec F S32x1000 .f32) (y : S32x1000.Idx) :
    ∃ pc ∈ ([⟨ro, p⟩] : List (View.Piece (Elt F) S32x1000 .f32)), y ∈ pc.1.set :=
  ⟨_, List.mem_singleton_self _, View.mem_set_unit_zero (S := S32x1000) zero_off inb_S32x1000_S32x1000_0_0 y⟩

/-- The whole-rectangle loads read the blocks and the one whole store leaves its payload: what the output's
    buffer holds after the body is the payload of the three inputs. -/
theorem fcOut_eq (x0 : Vec F S32x1024 .bf16) (x1 : Vec F S1000x1024 .bf16) (x2 : Vec F S1x1000 .f32) :
    fcOut x0 x1 x2 = k1_pay1 x0 x1 x2 := by
  unfold fcOut
  rw [View.canon_unit_zero (S := S32x1000) zero_off]
  rw [View.ld_unit_zero (S := S32x1024) zero_off, View.ld_unit_zero (S := S1000x1024) zero_off,
    View.ld_unit_zero (S := S1x1000) zero_off]

/-! ## The body's triple -/

set_option maxHeartbeats 1000000 in
/-- The kernel function on whole staging memrefs, the inputs' at read contents `x0 x1 x2` and the output's at
    anything, runs to the continuation holding the inputs' as they were and the output's at `fcOut` of the inputs:
    three whole loads, one load of the output that is not used, one whole store of the payload. -/
theorem sound_fc (c : Dev nD) (E : Set ℕ) (i : grid1.Coords)
    (arg1 : Memref sig .tc .vmem S32x1024 .bf16) (harg1 : arg1.IsWhole)
    (arg2 : Memref sig .tc .vmem S1000x1024 .bf16) (harg2 : arg2.IsWhole)
    (arg3 : Memref sig .tc .vmem S1x1000 .f32) (harg3 : arg3.IsWhole)
    (arg4 : Memref sig .tc .vmem S32x1000 .f32) (harg4 : arg4.IsWhole)
    (x0 : Vec F S32x1024 .bf16) (x1 : Vec F S1000x1024 .bf16) (x2 : Vec F S1x1000 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (fcOut x0 x1 x2)) -∗ K ⟨⟩))
      ⊢ wp frame (wpE (defs₀ (F := F)) Variants.none c none) E (cc1__fc_kernel i arg1 harg1 arg2 harg2 arg3 harg3 arg4 harg4) K := by
  simp only [cc1__fc_kernel_eq_skeleton]; unfold cc1__fc_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_ro _)

/-! ## The body obligation -/

/-- What the body is called with at point `t`: the invariant, the core's debts, and each window's current staging
    buffer at what it holds before the body, -/
def fcPre (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns: the same invariant and debts, and each buffer at what the proof data says the body leaves. -/
def fcPost (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the kernel function's triple applies; the
    invariant and the debts pass through untouched. -/
theorem sound_fcBody (c : Dev nD) (t : Fin cfg1.N) :
    fcPre V c t ⊢ wp frame (wpE (defs₀ (F := F)) Variants.none c none) Set.univ (bodyAt1 t) (fun _ => fcPost V c t) := by
  unfold fcPre fcPost bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_fc c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) :
    BodyObligation (dat1 (F := F) V c) (defs₀ (F := F)) Variants.none () Set.univ := fun t => by
  rw [bigSep_W1, bigSep_W1]
  exact sound_fcBody V c t

end Cert.Kernel.Hand

end
-- ==== Proof.KB.GateObl.lean ====
/-
  The body of the first kernel region (the fused gate product and the cell update), point by point.
  The grid has three points. At the first the body clears its scratch accumulator, reads the cleared value back and
  stores it plus the product of the two input blocks; at each later point it stores what the scratch held plus the
  point's product; at the last point it then reads the whole sum back, applies the gate nonlinearities and the cell
  update, and stores the new hidden state into the output's buffer. So after the body at point n the scratch holds the
  sum of the first n + 1 partial products, grouped from the left, and the output's buffer, which no point before the
  last one touches, holds the gates of the whole sum after the last. Each of the three runs is stated on arbitrary whole
  memrefs with its result in closed form; the obligation at a point is the run its coordinate selects.
-/
import proofs.«157235_j5179730559367_1_alg».proof.Proof.KB.GateDefs
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Both offsets of a whole-buffer rectangle are zero. -/
theorem gateOff0 : (![0, 0] : Fin 2 → Nat) = fun _ => 0 := funext fun a => by fin_cases a <;> rfl

/-- The first conditional of the body: the grid coordinate is zero. -/
abbrev gateFirst (i : grid0.Coords) : Prop := (Scalar.cmpi .ne (Scalar.extui (Scalar.cmpi .eq (BitVec.ofNat 32 (i 0).val) 0#32)) 0#32) = 1#1
/-- The second conditional of the body: the grid coordinate is the last one. -/
abbrev gateLast (i : grid0.Coords) : Prop := k0_cond2 i = 1#1

set_option maxHeartbeats 1000000 in
/-- The body at the first point, on any whole memrefs: the scratch, found at anything, is cleared, read back, and left at
    the cleared value plus the product of the two input blocks; every other buffer is left as found. -/
theorem gateRunA (c : Dev nD) (i : grid0.Coords)
    (a1 : Memref sig .tc .vmem S32x512 .bf16) (h1 : a1.IsWhole) (a2 : Memref sig .tc .vmem S512x4096 .bf16) (h2 : a2.IsWhole)
    (a3 : Memref sig .tc .vmem S1x1024 .f32) (h3 : a3.IsWhole) (a4 : Memref sig .tc .vmem S32x1024 .f32) (h4 : a4.IsWhole)
    (a5 : Memref sig .tc .vmem S32x4096 .f32) (h5 : a5.IsWhole) (hc0 : gateFirst i) (hc2 : ¬gateLast i)
    (x0 : Vec F S32x512 .bf16) (x1 : Vec F S512x4096 .bf16) (x2 : Vec F S1x1024 .f32) (xo : Vec F S32x1024 .f32)
    (E : Set ℕ) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare xo ∗ (∃ d, owns (c : Thread nD τ) a5 fullShare d)
        ∗ (iprop(owns (c : Thread nD τ) a1 fullShare x0 ∗ owns (c : Thread nD τ) a2 fullShare x1 ∗ owns (c : Thread nD τ) a3 fullShare x2
            ∗ owns (c : Thread nD τ) a4 fullShare xo ∗ owns (c : Thread nD τ) a5 fullShare (accA x0 x1)) -∗ K ⟨⟩))
      ⊢ wp frame (wpE (defs₀ (F := F)) Variants.none c none) E (cc0__gate_kernel i a1 h1 a2 h2 a3 h3 a4 h4 a5 h5) K := by
  simp only [cc0__gate_kernel_eq_skeleton]; unfold cc0__gate_kernel_skel
  unfold owns
  iintro ⟨⟨%f1, %hf1, H1⟩, ⟨%f2, %hf2, H2⟩, ⟨%f3, %hf3, H3⟩, ⟨%f4, %hf4, H4⟩, ⟨%d5, %f5, -, H5⟩, Hk⟩
  obtain rfl := h1.eq_unread hf1; obtain rfl := h2.eq_unread hf2; obtain rfl := h3.eq_unread hf3; obtain rfl := h4.eq_unread hf4
  sl_exec (disch := first | exact hc0 | exact hc2)
  sl_step
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  iexists _; isplitr
  swap; · iexact H5
  ipureintro
  sl_unfold_words
  rw [View.read_writes_eq_canon _ _ _ (fun y => ⟨_, List.mem_cons_self, View.mem_set_unit_zero gateOff0 inb_S32x4096_S32x4096_0_0 y⟩)]
  rw [View.canon_cons_unit_zero gateOff0]
  simp only [View.readAt_eq_ld, h1.read_unread, h2.read_unread, View.ld_unit_zero (S := S32x512) gateOff0,
    View.ld_unit_zero (S := S512x4096) gateOff0, View.readCov_unit_zero (S := S32x4096) _ gateOff0]
  rfl

set_option maxHeartbeats 1000000 in
/-- The body at a middle point: the scratch, found at the running sum, is left at that sum plus the product of the two
    input blocks; every other buffer is left as found. -/
theorem gateRunB (c : Dev nD) (i : grid0.Coords)
    (a1 : Memref sig .tc .vmem S32x512 .bf16) (h1 : a1.IsWhole) (a2 : Memref sig .tc .vmem S512x4096 .bf16) (h2 : a2.IsWhole)
    (a3 : Memref sig .tc .vmem S1x1024 .f32) (h3 : a3.IsWhole) (a4 : Memref sig .tc .vmem S32x1024 .f32) (h4 : a4.IsWhole)
    (a5 : Memref sig .tc .vmem S32x4096 .f32) (h5 : a5.IsWhole) (hc0 : ¬gateFirst i) (hc2 : ¬gateLast i)
    (xs : Vec F S32x4096 .f32)
    (x0 : Vec F S32x512 .bf16) (x1 : Vec F S512x4096 .bf16) (x2 : Vec F S1x1024 .f32) (xo : Vec F S32x1024 .f32)
    (E : Set ℕ) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare xo ∗ owns (c : Thread nD τ) a5 fullShare xs
        ∗ (iprop(owns (c : Thread nD τ) a1 fullShare x0 ∗ owns (c : Thread nD τ) a2 fullShare x1 ∗ owns (c : Thread nD τ) a3 fullShare x2
            ∗ owns (c : Thread nD τ) a4 fullShare xo ∗ owns (c : Thread nD τ) a5 fullShare (accB xs x0 x1)) -∗ K ⟨⟩))
      ⊢ wp frame (wpE (defs₀ (F := F)) Variants.none c none) E (cc0__gate_kernel i a1 h1 a2 h2 a3 h3 a4 h4 a5 h5) K := by
  simp only [cc0__gate_kernel_eq_skeleton]; unfold cc0__gate_kernel_skel
  unfold owns
  iintro ⟨⟨%f1, %hf1, H1⟩, ⟨%f2, %hf2, H2⟩, ⟨%f3, %hf3, H3⟩, ⟨%f4, %hf4, H4⟩, ⟨%f5, %hf5, H5⟩, Hk⟩
  obtain rfl := h1.eq_unread hf1; obtain rfl := h2.eq_unread hf2; obtain rfl := h3.eq_unread hf3; obtain rfl := h4.eq_unread hf4
  obtain rfl := h5.eq_unread hf5
  sl_exec (disch := first | exact hc0 | exact hc2)
  sl_step
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  iexists _; isplitr
  swap; · iexact H5
  ipureintro
  sl_unfold_words
  rw [View.read_writes_eq_canon _ _ _ (fun y => ⟨_, List.mem_cons_self, View.mem_set_unit_zero gateOff0 inb_S32x4096_S32x4096_0_0 y⟩)]
  rw [View.canon_cons_unit_zero gateOff0]
  simp only [View.readAt_eq_ld, h1.read_unread, h2.read_unread, h5.read_unread, View.ld_unit_zero (S := S32x512) gateOff0,
    View.ld_unit_zero (S := S512x4096) gateOff0, View.ld_unit_zero (S := S32x4096) gateOff0]
  rfl

set_option maxHeartbeats 1000000 in
/-- The body at the last point: the scratch, found at the running sum, is left at the whole sum; the whole sum is read
    back and the output's buffer, found at anything, is left at the gates of it; the inputs' buffers are left as found. -/
theorem gateRunC (c : Dev nD) (i : grid0.Coords)
    (a1 : Memref sig .tc .vmem S32x512 .bf16) (h1 : a1.IsWhole) (a2 : Memref sig .tc .vmem S512x4096 .bf16) (h2 : a2.IsWhole)
    (a3 : Memref sig .tc .vmem S1x1024 .f32) (h3 : a3.IsWhole) (a4 : Memref sig .tc .vmem S32x1024 .f32) (h4 : a4.IsWhole)
    (a5 : Memref sig .tc .vmem S32x4096 .f32) (h5 : a5.IsWhole) (hc0 : ¬gateFirst i) (hc2 : gateLast i)
    (xs : Vec F S32x4096 .f32)
    (x0 : Vec F S32x512 .bf16) (x1 : Vec F S512x4096 .bf16) (x2 : Vec F S1x1024 .f32) (xo : Vec F S32x1024 .f32)
    (E : Set ℕ) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare xo ∗ owns (c : Thread nD τ) a5 fullShare xs
        ∗ (iprop(owns (c : Thread nD τ) a1 fullShare x0 ∗ owns (c : Thread nD τ) a2 fullShare x1 ∗ owns (c : Thread nD τ) a3 fullShare x2
            ∗ owns (c : Thread nD τ) a4 fullShare (gateOut (accB xs x0 x1) x2) ∗ owns (c : Thread nD τ) a5 fullShare (accB xs x0 x1)) -∗ K ⟨⟩))
      ⊢ wp frame (wpE (defs₀ (F := F)) Variants.none c none) E (cc0__gate_kernel i a1 h1 a2 h2 a3 h3 a4 h4 a5 h5) K := by
  simp only [cc0__gate_kernel_eq_skeleton]; unfold cc0__gate_kernel_skel
  unfold owns
  iintro ⟨⟨%f1, %hf1, H1⟩, ⟨%f2, %hf2, H2⟩, ⟨%f3, %hf3, H3⟩, ⟨%f4, %hf4, H4⟩, ⟨%f5, %hf5, H5⟩, Hk⟩
  obtain rfl := h1.eq_unread hf1; obtain rfl := h2.eq_unread hf2; obtain rfl := h3.eq_unread hf3; obtain rfl := h4.eq_unread hf4
  obtain rfl := h5.eq_unread hf5
  sl_exec (disch := first | exact hc0 | exact hc2)
  sl_step
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr
    swap; · iexact H4
    ipureintro
    sl_unfold_words
    rw [View.read_writes_eq_canon _ _ _ (fun y => ⟨_, List.mem_cons_self, View.mem_set_unit_zero gateOff0 inb_S32x1024_S32x1024_0_0 y⟩)]
    rw [View.canon_cons_unit_zero gateOff0]
    simp only [View.readAt_eq_ld, h1.read_unread, h2.read_unread, h3.read_unread, h5.read_unread, View.ld_unit_zero (S := S32x512) gateOff0,
      View.ld_unit_zero (S := S512x4096) gateOff0, View.ld_unit_zero (S := S32x4096) gateOff0, View.ld_unit_zero (S := S1x1024) gateOff0,
      View.readCov_unit_zero (S := S32x4096) _ gateOff0]
    rfl
  iexists _; isplitr
  swap; · iexact H5
  ipureintro
  sl_unfold_words
  rw [View.read_writes_eq_canon _ _ _ (fun y => ⟨_, List.mem_cons_self, View.mem_set_unit_zero gateOff0 inb_S32x4096_S32x4096_0_0 y⟩)]
  rw [View.canon_cons_unit_zero gateOff0]
  simp only [View.readAt_eq_ld, h1.read_unread, h2.read_unread, h5.read_unread, View.ld_unit_zero (S := S32x512) gateOff0,
    View.ld_unit_zero (S := S512x4096) gateOff0, View.ld_unit_zero (S := S32x4096) gateOff0]
  rfl

/-! ## The schedule, decided over the three points -/

/-- The first conditional holds at the first point only. -/
theorem gateFirst_iff : ∀ t : Fin cfg0.N, gateFirst (grid0.coords t) ↔ t.val = 0 :=
  (by decide +kernel : ∀ t : Fin grid0.N, gateFirst (grid0.coords t) ↔ t.val = 0)
/-- The second conditional holds at the last point only. -/
theorem gateLast_iff : ∀ t : Fin cfg0.N, gateLast (grid0.coords t) ↔ t.val = 2 :=
  (by decide +kernel : ∀ t : Fin grid0.N, gateLast (grid0.coords t) ↔ t.val = 2)
/-- Before the last point the output window is idle, -/
theorem idle0_3_early : ∀ t : Fin cfg0.N, ¬gateLast (grid0.coords t) → cfg0.idle 3 (grid0.coords t) = true := by decide +kernel
/-- and its block is not written back there; -/
theorem noflush0_3_early : ∀ t : Fin cfg0.N, ¬gateLast (grid0.coords t) → (cfg0.win 3).flush t = false := by decide +kernel
/-- at the last point it is live. -/
theorem live0_3_last : ∀ t : Fin cfg0.N, gateLast (grid0.coords t) → cfg0.idle 3 (grid0.coords t) = false := by decide +kernel
/-- The three input windows are never idle. -/
theorem live0_0 (t : Fin cfg0.N) : cfg0.idle 0 (grid0.coords t) = false := rfl
theorem live0_1 (t : Fin cfg0.N) : cfg0.idle 1 (grid0.coords t) = false := rfl
theorem live0_2 (t : Fin cfg0.N) : cfg0.idle 2 (grid0.coords t) = false := rfl

/-! ## What the body finds in the inputs' buffers -/

/-- An input's buffer holds the window's block at every point, fetched there or not: where it is not fetched the block
    index has not moved and the body left the block in place. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)

/-! ## The running sum, point by point -/

theorem accAt_first (c : Dev nD) (t : Fin cfg0.N) (h : t.val = 0) :
    accAt V c t.val t.isLt = accA (iblk0 V c 0 t) (iblk0 V c 1 t) := by
  obtain ⟨n, hn⟩ := t
  cases n with
  | zero => rfl
  | succ n => exact absurd h (Nat.succ_ne_zero n)

theorem accAt_later (c : Dev nD) (t : Fin cfg0.N) (h : t.val ≠ 0) :
    accAt V c t.val t.isLt
      = accB (accAt V c (t.val - 1) (Nat.lt_of_le_of_lt (Nat.sub_le _ _) t.isLt)) (iblk0 V c 0 t) (iblk0 V c 1 t) := by
  obtain ⟨n, hn⟩ := t
  cases n with
  | zero => exact absurd rfl h
  | succ n => rfl

/-! ## The invariant the launch hands over -/

/-- The scoped buffers the region does not stage are the scratch and the other region's four staging buffers. -/
theorem PhiA0_eq (c : Dev nD) :
    (Pipeline.ΦA spec0 c : sProp 𝕄)
      = iprop(((∃ d, owns (c : Thread nD τ) scM fullShare d) ∗ restStg (F := F) c) ∗ (∃ r, prngReg c r)) := by
  unfold Pipeline.ΦA restStg; rw [scopedRest0_eq]; simp only [scM, owns_whole]; try rfl

/-! ## The body obligation -/

/-- Each window's current staging memref at a point, at its literal type. -/
abbrev gst0 (t : Fin cfg0.N) : Memref sig .tc .vmem S32x512 .bf16 := win0_0.stage (cfg0.slots t 0)
abbrev gst1 (t : Fin cfg0.N) : Memref sig .tc .vmem S512x4096 .bf16 := win0_1.stage (cfg0.slots t 1)
abbrev gst2 (t : Fin cfg0.N) : Memref sig .tc .vmem S1x1024 .f32 := win0_2.stage (cfg0.slots t 2)
abbrev gst3 (t : Fin cfg0.N) : Memref sig .tc .vmem S32x1024 .f32 := win0_3.stage (cfg0.slots t 3)

/-- What the body is called with at a point, the windows one by one, -/
def bodyPre0 (c : Dev nD) (t : Fin cfg0.N) : sProp 𝕄 :=
  iprop((dat0 V c).Φ t.castSucc ∗ (dat0 V c).owesAt () t.castSucc
    ∗ (∃ d, owns (c : Thread nD τ) (gst0 t) fullShare ((dat0 V c).before 0 t d))
    ∗ (∃ d, owns (c : Thread nD τ) (gst1 t) fullShare ((dat0 V c).before 1 t d))
    ∗ (∃ d, owns (c : Thread nD τ) (gst2 t) fullShare ((dat0 V c).before 2 t d))
    ∗ (∃ d, owns (c : Thread nD τ) (gst3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t ∗ (dat0 V c).leavesExact 3 t)

set_option maxHeartbeats 4000000 in
/-- The body at any point. The inputs' buffers hold their blocks. At the first point the scratch is handed over at
    anything and comes back at the first partial product; at a later point it is handed over at the running sum and
    comes back with the point's product added. The output's buffer is handed back untouched before the last point,
    where the window is idle, and at the gates of the whole sum at the last. The core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (gst0 t) fullShare ((dat0 V c).after 0 t) from by
    unfold Dat.leavesExact; rw [live0_0 t], after0_0]
  rw [show (dat0 V c).leavesExact 1 t = owns (c : Thread nD τ) (gst1 t) fullShare ((dat0 V c).after 1 t) from by
    unfold Dat.leavesExact; rw [live0_1 t], after0_1]
  rw [show (dat0 V c).leavesExact 2 t = owns (c : Thread nD τ) (gst2 t) fullShare ((dat0 V c).after 2 t) from by
    unfold Dat.leavesExact; rw [live0_2 t], after0_2]
  have hN : t.val < 3 := lt_of_lt_of_eq t.isLt (show cfg0.N = 3 from N_0)
  by_cases hz : t.val = 0
  · have hc0 : gateFirst (grid0.coords t) := (gateFirst_iff t).mpr hz
    have hc2 : ¬gateLast (grid0.coords t) := fun h => by have := (gateLast_iff t).mp h; omega
    rw [Dat.leavesExact_idle (dat0 V c) 3 t (idle0_3_early t hc2) (noflush0_3_early t hc2)]
    rw [accAt_first V c t hz]
    rw [PhiS_castSucc V c t, PhiS_zero V c _ _ hz, PhiA0_eq]
    iintro ⟨⟨⟨HS, Hr⟩, Hg⟩, Ho, ⟨%d0, H0⟩, ⟨%d1, H1⟩, ⟨%d2, H2⟩, ⟨%d3, H3⟩⟩
    iapply (gateRunA c (grid0.coords t) _ _ _ _ _ _ _ _ _ _ hc0 hc2 (iblk0 V c 0 t) (iblk0 V c 1 t) (iblk0 V c 2 t)
      ((dat0 V c).before 3 t d3) Set.univ _)
    isplitl [H0]; · iexact H0
    isplitl [H1]; · iexact H1
    isplitl [H2]; · iexact H2
    isplitl [H3]; · iexact H3
    isplitl [HS]; · iexact HS
    iintro ⟨H0, H1, H2, H3, HS⟩
    isplitl [HS Hr Hg]
    · isplitl [HS]; · iexact HS
      isplitl [Hr]; · iexact Hr
      iexact Hg
    isplitl [Ho]; · iexact Ho
    isplitl [H0]; · iexact H0
    isplitl [H1]; · iexact H1
    isplitl [H2]; · iexact H2
    iexists _; iexact H3
  · have hc0 : ¬gateFirst (grid0.coords t) := fun h => hz ((gateFirst_iff t).mp h)
    rw [accAt_later V c t hz]
    rw [PhiS_castSucc V c t, PhiS_pos V c _ _ hz]
    by_cases hl : t.val = 2
    · have hc2 : gateLast (grid0.coords t) := (gateLast_iff t).mpr hl
      rw [show (dat0 V c).leavesExact 3 t = owns (c : Thread nD τ) (gst3 t) fullShare ((dat0 V c).after 3 t) from by
        unfold Dat.leavesExact; rw [live0_3_last t hc2], after0_3, accAt_later V c t hz]
      iintro ⟨⟨HS, Hr, Hg⟩, Ho, ⟨%d0, H0⟩, ⟨%d1, H1⟩, ⟨%d2, H2⟩, ⟨%d3, H3⟩⟩
      iapply (gateRunC c (grid0.coords t) _ _ _ _ _ _ _ _ _ _ hc0 hc2 (accAt V c (t.val - 1) (Nat.lt_of_le_of_lt (Nat.sub_le _ _) t.isLt))
        (iblk0 V c 0 t) (iblk0 V c 1 t) (iblk0 V c 2 t) ((dat0 V c).before 3 t d3) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      iexact H3
    · have hc2 : ¬gateLast (grid0.coords t) := fun h => hl ((gateLast_iff t).mp h)
      rw [Dat.leavesExact_idle (dat0 V c) 3 t (idle0_3_early t hc2) (noflush0_3_early t hc2)]
      iintro ⟨⟨HS, Hr, Hg⟩, Ho, ⟨%d0, H0⟩, ⟨%d1, H1⟩, ⟨%d2, H2⟩, ⟨%d3, H3⟩⟩
      iapply (gateRunB c (grid0.coords t) _ _ _ _ _ _ _ _ _ _ hc0 hc2 (accAt V c (t.val - 1) (Nat.lt_of_le_of_lt (Nat.sub_le _ _) t.isLt))
        (iblk0 V c 0 t) (iblk0 V c 1 t) (iblk0 V c 2 t) ((dat0 V c).before 3 t d3) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]

/-- After the last point the invariant gives the launch's back: the scratch's named contents are forgotten. -/
theorem hout0 (c : Dev nD) : (dat0 V c).Φ (Fin.last cfg0.N) ⊢ Pipeline.ΦA spec0 c := by
  have hN : (Fin.last cfg0.N).val ≠ 0 := by rw [Fin.val_last]; have : cfg0.N = 3 := N_0; omega
  rw [show (dat0 V c).Φ (Fin.last cfg0.N) = PhiS V c (Fin.last cfg0.N).val (Nat.le_of_lt_succ (Fin.last cfg0.N).isLt) from rfl,
    PhiS_pos V c _ _ hN, PhiA0_eq]
  iintro ⟨HS, Hr, Hg⟩
  isplitl [HS Hr]
  · isplitl [HS]; · iexists _; iexact HS
    iexact Hr
  iexact Hg

end Cert.Kernel.Hand

end
-- ==== Proof.KB.Run.lean ====
/-
  The run of the whole program: two stretches of host operations and two kernel regions, in the order
  stretch, region, stretch, region. Between two items a core holds every unscoped buffer whole at the contents
  the fold of RunDefs names (W0, W1, W2, W3, W4), beside its generator register at some state and nothing owed.
  Each stretch moves the buffers from one valuation to the next by the operations' own semantics; each region
  takes its arrays out of the buffers, runs its pipeline under the region's proof data, and puts the arrays back
  at what the write-backs leave. The launch then reads every unscoped buffer of the final memory: it is W4.
  From that one reading follow the frame claim (no item writes an argument array, so W4 at an argument walks
  back to the launch memory) and the value of the result's buffer (W4 at the result).
-/
import proofs.«157235_j5179730559367_1_alg».proof.Proof.Gen.Kernel.Launch
import proofs.«157235_j5179730559367_1_alg».proof.Proof.Gen.Kernel.Skeleton
import proofs.«157235_j5179730559367_1_alg».proof.Proof.Gen.Kernel.Points
import proofs.«157235_j5179730559367_1_alg».proof.Proof.Gen.Kernel.Regions
import proofs.«157235_j5179730559367_1_alg».proof.Proof.KB.FcDefs
import proofs.«157235_j5179730559367_1_alg».proof.Proof.KB.GateDefs
import proofs.«157235_j5179730559367_1_alg».proof.Proof.KB.RunDefs
import proofs.«157235_j5179730559367_1_alg».proof.Proof.KB.FcObl
import proofs.«157235_j5179730559367_1_alg».proof.Proof.KB.GateObl
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arguments end as launched

A buffer that is an array of neither region and that neither stretch writes holds at the end what the launch
memory held: the fold is read backwards through its four steps. -/

namespace Run

/-- The fold at a reference no item changes is the launch memory there. -/
theorem W4_of_untouched (c : Dev nD) (b : Ref sig .tc)
    (hr1 : ∀ w, Pipeline.arrRef spec1 w ≠ b) (hs1 : b ∉ hostOps1_W)
    (hr0 : ∀ w, Pipeline.arrRef spec0 w ≠ b) (hs0 : b ∉ hostOps0_W) :
    W4 m c (Proc.devRef .tc b) = m ((c : Thread nD τ).loc b) := by
  rw [W4_of_ne m c b hr1]
  rw [show W3 m c (Proc.devRef .tc b) = W2 m c (Proc.devRef .tc b) from
    StableHlo.after_of_writes_sub hostOps1 _ hostOps1_writes hs1]
  rw [W2_of_ne m c b hr0]
  exact StableHlo.after_of_writes_sub hostOps0 _ hostOps0_writes hs0

end Run

theorem W4_main_arg0 (c : Dev nD) : W4 m c (Proc.devRef .tc main_arg0) = m ((c : Thread nD τ).loc main_arg0) :=
  Run.W4_of_untouched m c main_arg0 (by decide) (by decide) (by decide) (by decide)
theorem W4_main_arg1 (c : Dev nD) : W4 m c (Proc.devRef .tc main_arg1) = m ((c : Thread nD τ).loc main_arg1) :=
  Run.W4_of_untouched m c main_arg1 (by decide) (by decide) (by decide) (by decide)
theorem W4_main_arg2 (c : Dev nD) : W4 m c (Proc.devRef .tc main_arg2) = m ((c : Thread nD τ).loc main_arg2) :=
  Run.W4_of_untouched m c main_arg2 (by decide) (by decide) (by decide) (by decide)
theorem W4_main_arg3 (c : Dev nD) : W4 m c (Proc.devRef .tc main_arg3) = m ((c : Thread nD τ).loc main_arg3) :=
  Run.W4_of_untouched m c main_arg3 (by decide) (by decide) (by decide) (by decide)
theorem W4_main_arg4 (c : Dev nD) : W4 m c (Proc.devRef .tc main_arg4) = m ((c : Thread nD τ).loc main_arg4) :=
  Run.W4_of_untouched m c main_arg4 (by decide) (by decide) (by decide) (by decide)
theorem W4_main_arg5 (c : Dev nD) : W4 m c (Proc.devRef .tc main_arg5) = m ((c : Thread nD τ).loc main_arg5) :=
  Run.W4_of_untouched m c main_arg5 (by decide) (by decide) (by decide) (by decide)
theorem W4_main_arg6 (c : Dev nD) : W4 m c (Proc.devRef .tc main_arg6) = m ((c : Thread nD τ).loc main_arg6) :=
  Run.W4_of_untouched m c main_arg6 (by decide) (by decide) (by decide) (by decide)
theorem W4_main_arg7 (c : Dev nD) : W4 m c (Proc.devRef .tc main_arg7) = m ((c : Thread nD τ).loc main_arg7) :=
  Run.W4_of_untouched m c main_arg7 (by decide) (by decide) (by decide) (by decide)
theorem W4_main_arg8 (c : Dev nD) : W4 m c (Proc.devRef .tc main_arg8) = m ((c : Thread nD τ).loc main_arg8) :=
  Run.W4_of_untouched m c main_arg8 (by decide) (by decide) (by decide) (by decide)

namespace Run

/-! ## The proof data of the two pipelines and the state a core holds between items -/

/-- Each pipeline's proof data at the contents its region is entered from: the first region's at W1, the second's at W3. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c

/-- No variant of a kernel is selected. -/
abbrev 𝒱₀ : Variants := Variants.none
/-- No semaphore carries a level: no core ever owes another anything. -/
abbrev L : GSem nD τ sig → Finset Unit := fun _ => ∅
abbrev lv : GSem nD τ sig → Unit → ℕ := fun _ _ => 0

/-- What a core holds beside its buffers between two items: its generator register at some state, and nothing owed. -/
abbrev R (c : Dev nD) : sProp 𝕄 :=
  iprop((∃ r, prngReg c r) ∗ ∃ W, owes (c : Thread nD τ) (0 : CellTallies nD τ sig Unit) W)

/-- Every unscoped buffer of core c whole at the valuation Wc, beside R: the state between two items. -/
abbrev between (Wc : Dev nD → Valuation τ sig (Elt F)) (c : Dev nD) : sProp 𝕄 :=
  iprop(StableHlo.held (c : Thread nD τ) (Pipeline.ucRefs τ sig) (Wc c) ∗ R c)

/-- A stretch of host operations as a segment: from the unscoped buffers at Wc to the same buffers at the
    operations' fold over Wc, R untouched. -/
abbrev stretch (ops : List (HloOp τ sig (Elt F))) (hsub : ops.Forall fun op => op.bufs ⊆ StableHlo.tcRefs τ sig)
    (hfresh : ops.Forall fun op => op.fresh = ∅) (Wc : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) Wc R

/-- A reference of the core that is not scoped is one of the buffers held between items. -/
theorem mem_uc (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

/-- The last state without what is owed: every unscoped buffer at W4, the generator register at some state. -/
abbrev Tlast (c : Dev nD) : sProp 𝕄 :=
  iprop(StableHlo.held (c : Thread nD τ) (Pipeline.ucRefs τ sig) (W4 m c) ∗ ∃ r, prngReg c r)

/-! ## The regions as segments

Entering a region, its four arrays are taken out of the unscoped buffers (they hold what the proof data call
the arrays' entry contents, since those are read off the same valuation); the generator register goes into the
region's invariant together with the scoped buffers no window stages. Leaving it, the invariant gives them back,
and the arrays, at what the write-backs leave, rejoin the other buffers: the valuation is then the next of the fold. -/

/-- The generator register and the scoped buffers no window of the first region stages make that region's class invariant. -/
theorem toΦA0 (c : Dev nD) :
    iprop((∃ r, prngReg c r) ∗ Pipeline.prefHeld (pcfgs (F := F) 0).pre c (fun _ => fullShare) (adm (F := F) 0).1
      ∗ Pipeline.scopedRest (Pipeline.pin (pcfgs (F := F)) adm 0).spec c) ⊢ (Pipeline.ΦA spec0 c : sProp 𝕄) := by
  unfold Pipeline.ΦA
  iintro ⟨Hg, -, Hs⟩
  isplitl [Hs]
  · iexact Hs
  · iexact Hg

set_option backward.isDefEq.respectTransparency.types false in
/-- The first region: entered from the buffers at W1, left at W2. Its invariant is the running sum's, so the class
    invariant is turned into it at the first point (hin0) and recovered from it after the last (hout0). -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre := between (W1 m)
  post := between (W2 m)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    have htake := Pipeline.arrays_of_unscopedBufs (p := 0) (pcfgs (F := F)) adm (pdats m) launch0.win launch0.arr_whole c
      ((pdats m 0 c).share_full fun _ => rfl) (V1 m c) fun _ => rfl
    rw [Pipeline.unscopedBufs_held] at htake
    rw [Pipeline.ownSems0_none]
    iintro ⟨⟨Hbufs, Hgen, Howe⟩, -, -⟩
    ihave Hsplit := htake $$ Hbufs
    icases Hsplit with ⟨Harr, Hother⟩
    imodintro
    isplitl [Harr]
    · iexact Harr
    isplitr
    · unfold Pipeline.prefHeld
      rw [show (Finset.univ : Finset (Fin 0)) = ∅ from rfl, BI.bigSep_empty]
      iempintro
    isplitl [Howe]
    · unfold Pipeline.Dat.owesAt Pipeline.owesWithin
      icases Howe with ⟨%Wd, Howe⟩
      iexists Wd
      isplitr
      · ipureintro; exact fun _ _ => Or.inl trivial
      · iexact Howe
    isplitl [Hgen]
    · iexact Hgen
    · iexact Hother
  hin c := (toΦA0 c).trans (hin0 (V1 m) c)
  hout c := (hout0 (V1 m) c).trans (by
    rw [Pipeline.ownSems0_none]
    unfold Pipeline.ΦA
    iintro ⟨Hs, Hg⟩
    isplitl [Hg]
    · iexact Hg
    isplitr
    · iempintro
    · iexact Hs)
  hexit c := by
    have hput := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hput
    iintro ⟨Harr, Howe, Hgen, Hother⟩
    imodintro
    isplitl [Harr Hother]
    · iapply hput
      isplitl [Harr]
      · iexact Harr
      · iexact Hother
    isplitl [Hgen]
    · iexact Hgen
    unfold Pipeline.Dat.owesAt Pipeline.owesWithin
    icases Howe with ⟨%Wd, -, Howe⟩
    iexists Wd
    iexact Howe

/-- The generator register and the scoped buffers no window of the second region stages make that region's class invariant. -/
theorem toΦA1 (c : Dev nD) :
    iprop((∃ r, prngReg c r) ∗ Pipeline.prefHeld (pcfgs (F := F) 1).pre c (fun _ => fullShare) (adm (F := F) 1).1
      ∗ Pipeline.scopedRest (Pipeline.pin (pcfgs (F := F)) adm 1).spec c) ⊢ (Pipeline.ΦA spec1 c : sProp 𝕄) := by
  unfold Pipeline.ΦA
  iintro ⟨Hg, -, Hs⟩
  isplitl [Hs]
  · iexact Hs
  · iexact Hg

set_option backward.isDefEq.respectTransparency.types false in
/-- The second region: entered from the buffers at W3, left at W4. Its invariant is the class invariant throughout. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre := between (W3 m)
  post c := iprop(Tlast m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    have htake := Pipeline.arrays_of_unscopedBufs (p := 1) (pcfgs (F := F)) adm (pdats m) launch1.win launch1.arr_whole c
      ((pdats m 1 c).share_full fun _ => rfl) (V3 m c) fun _ => rfl
    rw [Pipeline.unscopedBufs_held] at htake
    rw [Pipeline.ownSems0_none]
    iintro ⟨⟨Hbufs, Hgen, Howe⟩, -, -⟩
    ihave Hsplit := htake $$ Hbufs
    icases Hsplit with ⟨Harr, Hother⟩
    imodintro
    isplitl [Harr]
    · iexact Harr
    isplitr
    · unfold Pipeline.prefHeld
      rw [show (Finset.univ : Finset (Fin 0)) = ∅ from rfl, BI.bigSep_empty]
      iempintro
    isplitl [Howe]
    · unfold Pipeline.Dat.owesAt Pipeline.owesWithin
      icases Howe with ⟨%Wd, Howe⟩
      iexists Wd
      isplitr
      · ipureintro; exact fun _ _ => Or.inl trivial
      · iexact Howe
    isplitl [Hgen]
    · iexact Hgen
    · iexact Hother
  hin c := toΦA1 c
  hout c := by
    rw [Pipeline.ownSems0_none, show (pdats m 1 c).Φ (Fin.last _) = Pipeline.ΦA spec1 c from rfl]
    unfold Pipeline.ΦA
    iintro ⟨Hs, Hg⟩
    isplitl [Hg]
    · iexact Hg
    isplitr
    · iempintro
    · iexact Hs
  hexit c := by
    have hput := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hput
    iintro ⟨Harr, Howe, Hgen, Hother⟩
    imodintro
    isplitl [Harr Hother Hgen]
    · isplitl [Harr Hother]
      · iapply hput
        isplitl [Harr]
        · iexact Harr
        · iexact Hother
      · iexact Hgen
    unfold Pipeline.Dat.owesAt Pipeline.owesWithin
    icases Howe with ⟨%Wd, -, Howe⟩
    iexists Wd
    iexact Howe

/-! ## The program as its four segments, and the launch -/

/-- The program's items in order: stretch, region, stretch, region, each entered from the valuation the one before leaves. -/
abbrev segs : List (Pipeline.Seg (pcfgs (F := F)) adm (pdats m) () defs₀ 𝒱₀ L lv) :=
  [ .host (stretch hostOps0 hostOps0_sub hostOps0_fresh (W0 m)),
    .region (reg0 m),
    .host (stretch hostOps1 hostOps1_sub hostOps1_fresh (W2 m)),
    .region (reg1 m) ]

/-- The program is the run of those segments. -/
theorem main_run (c : Dev nD) : main (F := F) c = Pipeline.Seg.run (segs m) := (main_chain c).trans (by chain_rfl)

end Run

set_option backward.isDefEq.respectTransparency.types false in
/-- From any memory with zero counters every weakly fair execution of the program on the cores terminates without
    fault, and in every final memory each unscoped buffer of each core holds W4 there. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W4 m c b) :=
  Pipeline.θ_run_regions_kit (pcfgs (F := F)) adm (Run.pdats m) () cellOf_inj emb₁ defs₀ Run.𝒱₀ Run.L Run.lv m ρ main (Run.segs m)
    (fun c Q => by rw [Run.main_run m c])
    (by simp only [Run.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu
      imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      · iapply (show (BI.emp : sProp 𝕄) ⊢ bigSep Finset.univ (fun _ : Dev nD => (BI.emp : sProp 𝕄)) from by
          rw [BI.bigSep_emp_const])
        iempintro)
    (T₀ := Run.between (W0 m)) (Tₙ := Run.Tlast m)
    (hch := ⟨fun _ => .rfl, fun _ => .rfl, fun _ => .rfl, fun _ => .rfl, fun _ => .rfl⟩)
    (hinit := by
      refine Pipeline.initEach Run.L Run.lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hbufs, -, Howe, -, Hgen, -⟩, -⟩
      imodintro
      isplitl [Hbufs]
      · iexact Hbufs
      isplitl [Hgen]
      · iexists _; iexact Hgen
      · iexists ∅; iexact Howe)
    (QY := fun c s => ∀ b ∈ Pipeline.ucRefs τ sig, s.mem (((c : Thread nD τ)).1, b) = W4 m c b)
    (hfin := fun c s' => by
      iintro ⟨⟨Hbufs, -⟩, Hst⟩
      unfold StableHlo.held
      imodintro
      iapply (pointsTo_read_all (Pipeline.ucRefs τ sig) (fun b => (((c : Thread nD τ)).1, b)) (W4 m c) s')
      isplitl [Hbufs]
      · iexact Hbufs
      · iexact Hst)
    (hQ := fun s h => h)

/-! ## The two readings of the run -/

namespace Run

/-- The final memory at an argument array, given that every unscoped buffer ends at W4. -/
theorem arg_end {s : MemSt nD τ sig (Elt F)} (c : Dev nD)
    (h : ∀ b ∈ Pipeline.ucRefs τ sig, s.mem (((c : Thread nD τ)).1, b) = W4 m c b) :
    s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8) :=
  ⟨(h _ (mem_uc main_arg0 (by decide))).trans (W4_main_arg0 m c),
   (h _ (mem_uc main_arg1 (by decide))).trans (W4_main_arg1 m c),
   (h _ (mem_uc main_arg2 (by decide))).trans (W4_main_arg2 m c),
   (h _ (mem_uc main_arg3 (by decide))).trans (W4_main_arg3 m c),
   (h _ (mem_uc main_arg4 (by decide))).trans (W4_main_arg4 m c),
   (h _ (mem_uc main_arg5 (by decide))).trans (W4_main_arg5 m c),
   (h _ (mem_uc main_arg6 (by decide))).trans (W4_main_arg6 m c),
   (h _ (mem_uc main_arg7 (by decide))).trans (W4_main_arg7 m c),
   (h _ (mem_uc main_arg8 (by decide))).trans (W4_main_arg8 m c)⟩

end Run

/-- The frame claim: the program runs and every argument array ends holding what the launch memory held. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => Run.arg_end m c (h c)) (run_all m ρ)

/-- The result's value: the program runs, the result's buffer ends at W4 there, and the arguments end as launched. -/
theorem result : θ_run defs (onTc (τ := τ) (main (F := F))) ⟨m, fun _ => 0, ρ⟩ (fun r => ∀ c : Dev nD,
      r.2.mem ((c.tc : Thread nD τ).loc main_v13) = W4 m c (Proc.devRef .tc main_v13)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨h c _ (Run.mem_uc main_v13 (by decide)), Run.arg_end m c (h c)⟩) (run_all m ρ)

end Cert.Kernel.Hand

end
-- ==== Proof.KI.FcDefs.lean ====
/-
  The second kernel region (the fully connected layer followed by relu and log-softmax) as proof data.
  The region has one grid point and every window's block is its whole array: the three inputs are staged once,
  the body reads them whole and stores the whole result once. What the output's staging buffer holds after the
  body is therefore one function `fcOut` of the three input blocks.
-/
import proofs.«157235_j5179730559367_1_alg».proof.Proof.Gen.KernelIdeal.Launch
import proofs.«157235_j5179730559367_1_alg».proof.Proof.Gen.KernelIdeal.Skeleton
import proofs.«157235_j5179730559367_1_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t` of the second region, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole-buffer rectangles the body loads and stores through. -/
abbrev rh : Rect S32x1024 := Rect.unit (s := S32x1024) ![0, 0] S32x1024.size inb_S32x1024_S32x1024_0_0
abbrev rw1 : Rect S1000x1024 := Rect.unit (s := S1000x1024) ![0, 0] S1000x1024.size inb_S1000x1024_S1000x1024_0_0
abbrev rb : Rect S1x1000 := Rect.unit (s := S1x1000) ![0, 0] S1x1000.size inb_S1x1000_S1x1000_0_0
abbrev ro : Rect S32x1000 := Rect.unit (s := S32x1000) ![0, 0] S32x1000.size inb_S32x1000_S32x1000_0_0

/-- What the body leaves in the output's staging buffer: its one whole store, of the payload at the loaded inputs. -/
def fcOut (x0 : Vec F S32x1024 .bf16) (x1 : Vec F S1000x1024 .bf16) (x2 : Vec F S1x1000 .f32) : Vec F S32x1000 .f32 :=
  View.canon [⟨ro, k1_pay1 (View.ld x0 rh) (View.ld x1 rw1) (View.ld x2 rb)⟩]

/-- The proof data of the second region on core `c`: the arrays as the region finds them; after the body each
    input's buffer still at its block, the output's at `fcOut` of the input blocks; the invariant is the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => fcOut (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = fcOut (iblk1 V c 0 t) (iblk1 V c 1 t) (iblk1 V c 2 t) := by dsimp only [dat1]

end Cert.KernelIdeal.Hand

end
-- ==== Proof.KI.GateDefs.lean ====
/-
  The first kernel region (the fused gate product and the cell update) as proof data.
  The grid has three points, one per block of 512 along the contracted axis. The body keeps the running sum of the
  partial products in a scratch buffer of its own: the first point clears it and adds the first partial product,
  the next points add theirs, and the last point, after adding, reads the whole sum back, applies the gate
  nonlinearities and the cell update and stores the new hidden state into the output's buffer. The output window
  is idle at the first two points and written back at the last.
-/
import proofs.«157235_j5179730559367_1_alg».proof.Proof.Gen.KernelIdeal.Launch
import proofs.«157235_j5179730559367_1_alg».proof.Proof.Gen.KernelIdeal.Skeleton
import proofs.«157235_j5179730559367_1_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t` of the first region, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-buffer rectangles the body loads and stores through. -/
abbrev rz : Rect S32x512 := Rect.unit (s := S32x512) ![0, 0] S32x512.size inb_S32x512_S32x512_0_0
abbrev rwt : Rect S512x4096 := Rect.unit (s := S512x4096) ![0, 0] S512x4096.size inb_S512x4096_S512x4096_0_0
abbrev rc : Rect S1x1024 := Rect.unit (s := S1x1024) ![0, 0] S1x1024.size inb_S1x1024_S1x1024_0_0
abbrev rs : Rect S32x4096 := Rect.unit (s := S32x4096) ![0, 0] S32x4096.size inb_S32x4096_S32x4096_0_0
abbrev rg : Rect S32x1024 := Rect.unit (s := S32x1024) ![0, 0] S32x1024.size inb_S32x1024_S32x1024_0_0

/-- The scratch accumulator, a whole scoped buffer of the kernel's own. -/
abbrev scM : Memref sig .tc .vmem S32x4096 .f32 := Memref.whole cc0_scratch0

/-- The scratch after the first point: cleared, then the first partial product added. -/
def accA (x0 : Vec F S32x512 .bf16) (x1 : Vec F S512x4096 .bf16) : Vec F S32x4096 .f32 :=
  k0_pay2 (k0_pay1 (F := F)) x0 x1
/-- The scratch after a later point: the point's partial product added to what the point before left. -/
def accB (xs : Vec F S32x4096 .f32) (x0 : Vec F S32x512 .bf16) (x1 : Vec F S512x4096 .bf16) : Vec F S32x4096 .f32 :=
  k0_pay2 xs x0 x1
/-- The output's staging buffer after the last point: the gates and the cell update of the whole sum `xs`. -/
def gateOut (xs : Vec F S32x4096 .f32) (x2 : Vec F S1x1024 .f32) : Vec F S32x1024 .f32 :=
  k0_pay3 xs x2

/-- What the scratch holds after the body at position `n`. -/
def accAt (c : Dev nD) : (n : ℕ) → n < cfg0.N → Vec F S32x4096 .f32
  | 0, hn => accA (iblk0 V c 0 ⟨0, hn⟩) (iblk0 V c 1 ⟨0, hn⟩)
  | n + 1, hn => accB (accAt c n (Nat.lt_of_succ_lt hn)) (iblk0 V c 0 ⟨n + 1, hn⟩) (iblk0 V c 1 ⟨n + 1, hn⟩)

theorem accAt_zero (c : Dev nD) (hn : 0 < cfg0.N) :
    accAt V c 0 hn = accA (iblk0 V c 0 ⟨0, hn⟩) (iblk0 V c 1 ⟨0, hn⟩) := rfl
theorem accAt_succ (c : Dev nD) (n : ℕ) (hn : n + 1 < cfg0.N) :
    accAt V c (n + 1) hn = accB (accAt V c n (Nat.lt_of_succ_lt hn)) (iblk0 V c 0 ⟨n + 1, hn⟩) (iblk0 V c 1 ⟨n + 1, hn⟩) := rfl

/-- The second region's staging buffers, which the first region's body never touches: each whole at some contents. -/
def restStg (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f))

/-- The region invariant before position `n`: before the first point every scoped buffer that is no staging buffer of
    this region at anything; afterwards the scratch at the running sum the point before left, the other region's
    staging buffers at anything; the generator register at some state throughout. -/
def PhiS (c : Dev nD) : (n : ℕ) → n ≤ cfg0.N → sProp 𝕄
  | 0, _ => Pipeline.ΦA spec0 c
  | n + 1, hn => iprop(owns (c : Thread nD τ) scM fullShare (accAt V c n hn) ∗ restStg (F := F) c ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(owns (c : Thread nD τ) scM fullShare (accAt V c n hn) ∗ restStg (F := F) c ∗ (∃ r, prngReg c r)) := rfl
theorem PhiS_pos (c : Dev nD) (n : ℕ) (h : n ≤ cfg0.N) (hz : n ≠ 0) :
    PhiS V c n h = iprop(owns (c : Thread nD τ) scM fullShare (accAt V c (n - 1) (by omega)) ∗ restStg (F := F) c ∗ (∃ r, prngReg c r)) := by
  cases n with
  | zero => exact absurd rfl hz
  | succ n => rfl

/-- The proof data of the first region on core `c`: the arrays as the region finds them; after the body at point `t`
    each input's buffer still at its block, the output's at the gates of the running sum (read only at the last point,
    the one that writes it back: elsewhere the window is idle); the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => gateOut (accAt V c t.val t.isLt) (iblk0 V c 2 t)
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = gateOut (accAt V c t.val t.isLt) (iblk0 V c 2 t) := by dsimp only [dat0]

end Cert.KernelIdeal.Hand

end
-- ==== Proof.KI.RunDefs.lean ====
/-
  The contents of every unscoped buffer of a core at each boundary of the program's four items: the launch memory,
  then the first stretch of host operations folded over it, then the first region's arrays at what its write-backs
  leave (every other buffer as entered), then the second stretch of host operations, then the second region's arrays
  at what its write-backs leave.
-/
import proofs.«157235_j5179730559367_1_alg».proof.Proof.Gen.KernelIdeal.Launch
import proofs.«157235_j5179730559367_1_alg».proof.Proof.Gen.KernelIdeal.Skeleton
import proofs.«157235_j5179730559367_1_alg».proof.Proof.Gen.KernelIdeal.Points
import proofs.«157235_j5179730559367_1_alg».proof.Proof.KI.FcDefs
import proofs.«157235_j5179730559367_1_alg».proof.Proof.KI.GateDefs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- Core `c`'s buffers at launch. -/
abbrev W0 : Dev nD → Valuation τ sig (Elt F) := fun c b => m ((c : Dev nD), b)
/-- After the first stretch of host operations (the first region's entry). -/
abbrev W1 : Dev nD → Valuation τ sig (Elt F) := fun c => StableHlo.after hostOps0 (W0 m c)
/-- The same read at the core's references (what the first region's proof data take). -/
abbrev V1 : (c : Dev nD) → (b : Ref sig .tc) → Buf (Elt F) ((c : Thread nD τ).loc b) := fun c b => W1 m c b
/-- At the first region's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second stretch of host operations (the second region's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the second region's exit: its arrays at what the pipeline leaves, every other buffer as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

end Cert.KernelIdeal.Hand

end
-- ==== Proof.KI.FcObl.lean ====
/-
  The body obligation of the second kernel region (the fully connected layer followed by relu and log-softmax).
  The region has one grid point and every window's block is its whole array. Each input's staging buffer holds
  its block when the body is called; the body reads the three inputs whole, reads the output's buffer without
  using what it read, and stores the payload of the three inputs over the whole output buffer. So after the body
  the inputs' buffers are as they were and the output's buffer is the payload of the input blocks.
-/
import proofs.«157235_j5179730559367_1_alg».proof.Proof.Gen.KernelIdeal.Launch
import proofs.«157235_j5179730559367_1_alg».proof.Proof.Gen.KernelIdeal.Skeleton
import proofs.«157235_j5179730559367_1_alg».proof.Proof.Gen.KernelIdeal.Points
import proofs.«157235_j5179730559367_1_alg».proof.Proof.KI.FcDefs

import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The inputs' staging buffers hold their blocks -/

/-- An input window is uncut, never idle, and the body leaves its block in place; so at every point its current
    staging buffer holds what a fetch there puts in it, which is its block. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)

/-! ## The whole-buffer rectangles -/

/-- The offsets of the whole-buffer rectangles are zero on both axes. -/
theorem zero_off : (![0, 0] : Fin 2 → Nat) = fun _ => 0 := funext fun a => by fin_cases a <;> rfl

/-- The one stored piece covers the output's buffer: every index lies in the whole-buffer rectangle. -/
theorem cover_ro (p : Vec F S32x1000 .f32) (y : S32x1000.Idx) :
    ∃ pc ∈ ([⟨ro, p⟩] : List (View.Piece (Elt F) S32x1000 .f32)), y ∈ pc.1.set :=
  ⟨_, List.mem_singleton_self _, View.mem_set_unit_zero (S := S32x1000) zero_off inb_S32x1000_S32x1000_0_0 y⟩

/-- The whole-rectangle loads read the blocks and the one whole store leaves its payload: what the output's
    buffer holds after the body is the payload of the three inputs. -/
theorem fcOut_eq (x0 : Vec F S32x1024 .bf16) (x1 : Vec F S1000x1024 .bf16) (x2 : Vec F S1x1000 .f32) :
    fcOut x0 x1 x2 = k1_pay1 x0 x1 x2 := by
  unfold fcOut
  rw [View.canon_unit_zero (S := S32x1000) zero_off]
  rw [View.ld_unit_zero (S := S32x1024) zero_off, View.ld_unit_zero (S := S1000x1024) zero_off,
    View.ld_unit_zero (S := S1x1000) zero_off]

/-! ## The body's triple -/

set_option maxHeartbeats 1000000 in
/-- The kernel function on whole staging memrefs, the inputs' at read contents `x0 x1 x2` and the output's at
    anything, runs to the continuation holding the inputs' as they were and the output's at `fcOut` of the inputs:
    three whole loads, one load of the output that is not used, one whole store of the payload. -/
theorem sound_fc (c : Dev nD) (E : Set ℕ) (i : grid1.Coords)
    (arg1 : Memref sig .tc .vmem S32x1024 .bf16) (harg1 : arg1.IsWhole)
    (arg2 : Memref sig .tc .vmem S1000x1024 .bf16) (harg2 : arg2.IsWhole)
    (arg3 : Memref sig .tc .vmem S1x1000 .f32) (harg3 : arg3.IsWhole)
    (arg4 : Memref sig .tc .vmem S32x1000 .f32) (harg4 : arg4.IsWhole)
    (x0 : Vec F S32x1024 .bf16) (x1 : Vec F S1000x1024 .bf16) (x2 : Vec F S1x1000 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (fcOut x0 x1 x2)) -∗ K ⟨⟩))
      ⊢ wp frame (wpE (defs₀ (F := F)) Variants.none c none) E (cc1__fc_kernel i arg1 harg1 arg2 harg2 arg3 harg3 arg4 harg4) K := by
  simp only [cc1__fc_kernel_eq_skeleton]; unfold cc1__fc_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_ro _)

/-! ## The body obligation -/

/-- What the body is called with at point `t`: the invariant, the core's debts, and each window's current staging
    buffer at what it holds before the body, -/
def fcPre (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns: the same invariant and debts, and each buffer at what the proof data says the body leaves. -/
def fcPost (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the kernel function's triple applies; the
    invariant and the debts pass through untouched. -/
theorem sound_fcBody (c : Dev nD) (t : Fin cfg1.N) :
    fcPre V c t ⊢ wp frame (wpE (defs₀ (F := F)) Variants.none c none) Set.univ (bodyAt1 t) (fun _ => fcPost V c t) := by
  unfold fcPre fcPost bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_fc c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) :
    BodyObligation (dat1 (F := F) V c) (defs₀ (F := F)) Variants.none () Set.univ := fun t => by
  rw [bigSep_W1, bigSep_W1]
  exact sound_fcBody V c t

end Cert.KernelIdeal.Hand

end
-- ==== Proof.KI.GateObl.lean ====
/-
  The body of the first kernel region (the fused gate product and the cell update), point by point.
  The grid has three points. At the first the body clears its scratch accumulator, reads the cleared value back and
  stores it plus the product of the two input blocks; at each later point it stores what the scratch held plus the
  point's product; at the last point it then reads the whole sum back, applies the gate nonlinearities and the cell
  update, and stores the new hidden state into the output's buffer. So after the body at point n the scratch holds the
  sum of the first n + 1 partial products, grouped from the left, and the output's buffer, which no point before the
  last one touches, holds the gates of the whole sum after the last. Each of the three runs is stated on arbitrary whole
  memrefs with its result in closed form; the obligation at a point is the run its coordinate selects.
-/
import proofs.«157235_j5179730559367_1_alg».proof.Proof.KI.GateDefs
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Both offsets of a whole-buffer rectangle are zero. -/
theorem gateOff0 : (![0, 0] : Fin 2 → Nat) = fun _ => 0 := funext fun a => by fin_cases a <;> rfl

/-- The first conditional of the body: the grid coordinate is zero. -/
abbrev gateFirst (i : grid0.Coords) : Prop := (Scalar.cmpi .ne (Scalar.extui (Scalar.cmpi .eq (BitVec.ofNat 32 (i 0).val) 0#32)) 0#32) = 1#1
/-- The second conditional of the body: the grid coordinate is the last one. -/
abbrev gateLast (i : grid0.Coords) : Prop := k0_cond2 i = 1#1

set_option maxHeartbeats 1000000 in
/-- The body at the first point, on any whole memrefs: the scratch, found at anything, is cleared, read back, and left at
    the cleared value plus the product of the two input blocks; every other buffer is left as found. -/
theorem gateRunA (c : Dev nD) (i : grid0.Coords)
    (a1 : Memref sig .tc .vmem S32x512 .bf16) (h1 : a1.IsWhole) (a2 : Memref sig .tc .vmem S512x4096 .bf16) (h2 : a2.IsWhole)
    (a3 : Memref sig .tc .vmem S1x1024 .f32) (h3 : a3.IsWhole) (a4 : Memref sig .tc .vmem S32x1024 .f32) (h4 : a4.IsWhole)
    (a5 : Memref sig .tc .vmem S32x4096 .f32) (h5 : a5.IsWhole) (hc0 : gateFirst i) (hc2 : ¬gateLast i)
    (x0 : Vec F S32x512 .bf16) (x1 : Vec F S512x4096 .bf16) (x2 : Vec F S1x1024 .f32) (xo : Vec F S32x1024 .f32)
    (E : Set ℕ) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare xo ∗ (∃ d, owns (c : Thread nD τ) a5 fullShare d)
        ∗ (iprop(owns (c : Thread nD τ) a1 fullShare x0 ∗ owns (c : Thread nD τ) a2 fullShare x1 ∗ owns (c : Thread nD τ) a3 fullShare x2
            ∗ owns (c : Thread nD τ) a4 fullShare xo ∗ owns (c : Thread nD τ) a5 fullShare (accA x0 x1)) -∗ K ⟨⟩))
      ⊢ wp frame (wpE (defs₀ (F := F)) Variants.none c none) E (cc0__gate_kernel i a1 h1 a2 h2 a3 h3 a4 h4 a5 h5) K := by
  simp only [cc0__gate_kernel_eq_skeleton]; unfold cc0__gate_kernel_skel
  unfold owns
  iintro ⟨⟨%f1, %hf1, H1⟩, ⟨%f2, %hf2, H2⟩, ⟨%f3, %hf3, H3⟩, ⟨%f4, %hf4, H4⟩, ⟨%d5, %f5, -, H5⟩, Hk⟩
  obtain rfl := h1.eq_unread hf1; obtain rfl := h2.eq_unread hf2; obtain rfl := h3.eq_unread hf3; obtain rfl := h4.eq_unread hf4
  sl_exec (disch := first | exact hc0 | exact hc2)
  sl_step
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  iexists _; isplitr
  swap; · iexact H5
  ipureintro
  sl_unfold_words
  rw [View.read_writes_eq_canon _ _ _ (fun y => ⟨_, List.mem_cons_self, View.mem_set_unit_zero gateOff0 inb_S32x4096_S32x4096_0_0 y⟩)]
  rw [View.canon_cons_unit_zero gateOff0]
  simp only [View.readAt_eq_ld, h1.read_unread, h2.read_unread, View.ld_unit_zero (S := S32x512) gateOff0,
    View.ld_unit_zero (S := S512x4096) gateOff0, View.readCov_unit_zero (S := S32x4096) _ gateOff0]
  rfl

set_option maxHeartbeats 1000000 in
/-- The body at a middle point: the scratch, found at the running sum, is left at that sum plus the product of the two
    input blocks; every other buffer is left as found. -/
theorem gateRunB (c : Dev nD) (i : grid0.Coords)
    (a1 : Memref sig .tc .vmem S32x512 .bf16) (h1 : a1.IsWhole) (a2 : Memref sig .tc .vmem S512x4096 .bf16) (h2 : a2.IsWhole)
    (a3 : Memref sig .tc .vmem S1x1024 .f32) (h3 : a3.IsWhole) (a4 : Memref sig .tc .vmem S32x1024 .f32) (h4 : a4.IsWhole)
    (a5 : Memref sig .tc .vmem S32x4096 .f32) (h5 : a5.IsWhole) (hc0 : ¬gateFirst i) (hc2 : ¬gateLast i)
    (xs : Vec F S32x4096 .f32)
    (x0 : Vec F S32x512 .bf16) (x1 : Vec F S512x4096 .bf16) (x2 : Vec F S1x1024 .f32) (xo : Vec F S32x1024 .f32)
    (E : Set ℕ) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare xo ∗ owns (c : Thread nD τ) a5 fullShare xs
        ∗ (iprop(owns (c : Thread nD τ) a1 fullShare x0 ∗ owns (c : Thread nD τ) a2 fullShare x1 ∗ owns (c : Thread nD τ) a3 fullShare x2
            ∗ owns (c : Thread nD τ) a4 fullShare xo ∗ owns (c : Thread nD τ) a5 fullShare (accB xs x0 x1)) -∗ K ⟨⟩))
      ⊢ wp frame (wpE (defs₀ (F := F)) Variants.none c none) E (cc0__gate_kernel i a1 h1 a2 h2 a3 h3 a4 h4 a5 h5) K := by
  simp only [cc0__gate_kernel_eq_skeleton]; unfold cc0__gate_kernel_skel
  unfold owns
  iintro ⟨⟨%f1, %hf1, H1⟩, ⟨%f2, %hf2, H2⟩, ⟨%f3, %hf3, H3⟩, ⟨%f4, %hf4, H4⟩, ⟨%f5, %hf5, H5⟩, Hk⟩
  obtain rfl := h1.eq_unread hf1; obtain rfl := h2.eq_unread hf2; obtain rfl := h3.eq_unread hf3; obtain rfl := h4.eq_unread hf4
  obtain rfl := h5.eq_unread hf5
  sl_exec (disch := first | exact hc0 | exact hc2)
  sl_step
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  iexists _; isplitr
  swap; · iexact H5
  ipureintro
  sl_unfold_words
  rw [View.read_writes_eq_canon _ _ _ (fun y => ⟨_, List.mem_cons_self, View.mem_set_unit_zero gateOff0 inb_S32x4096_S32x4096_0_0 y⟩)]
  rw [View.canon_cons_unit_zero gateOff0]
  simp only [View.readAt_eq_ld, h1.read_unread, h2.read_unread, h5.read_unread, View.ld_unit_zero (S := S32x512) gateOff0,
    View.ld_unit_zero (S := S512x4096) gateOff0, View.ld_unit_zero (S := S32x4096) gateOff0]
  rfl

set_option maxHeartbeats 1000000 in
/-- The body at the last point: the scratch, found at the running sum, is left at the whole sum; the whole sum is read
    back and the output's buffer, found at anything, is left at the gates of it; the inputs' buffers are left as found. -/
theorem gateRunC (c : Dev nD) (i : grid0.Coords)
    (a1 : Memref sig .tc .vmem S32x512 .bf16) (h1 : a1.IsWhole) (a2 : Memref sig .tc .vmem S512x4096 .bf16) (h2 : a2.IsWhole)
    (a3 : Memref sig .tc .vmem S1x1024 .f32) (h3 : a3.IsWhole) (a4 : Memref sig .tc .vmem S32x1024 .f32) (h4 : a4.IsWhole)
    (a5 : Memref sig .tc .vmem S32x4096 .f32) (h5 : a5.IsWhole) (hc0 : ¬gateFirst i) (hc2 : gateLast i)
    (xs : Vec F S32x4096 .f32)
    (x0 : Vec F S32x512 .bf16) (x1 : Vec F S512x4096 .bf16) (x2 : Vec F S1x1024 .f32) (xo : Vec F S32x1024 .f32)
    (E : Set ℕ) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare xo ∗ owns (c : Thread nD τ) a5 fullShare xs
        ∗ (iprop(owns (c : Thread nD τ) a1 fullShare x0 ∗ owns (c : Thread nD τ) a2 fullShare x1 ∗ owns (c : Thread nD τ) a3 fullShare x2
            ∗ owns (c : Thread nD τ) a4 fullShare (gateOut (accB xs x0 x1) x2) ∗ owns (c : Thread nD τ) a5 fullShare (accB xs x0 x1)) -∗ K ⟨⟩))
      ⊢ wp frame (wpE (defs₀ (F := F)) Variants.none c none) E (cc0__gate_kernel i a1 h1 a2 h2 a3 h3 a4 h4 a5 h5) K := by
  simp only [cc0__gate_kernel_eq_skeleton]; unfold cc0__gate_kernel_skel
  unfold owns
  iintro ⟨⟨%f1, %hf1, H1⟩, ⟨%f2, %hf2, H2⟩, ⟨%f3, %hf3, H3⟩, ⟨%f4, %hf4, H4⟩, ⟨%f5, %hf5, H5⟩, Hk⟩
  obtain rfl := h1.eq_unread hf1; obtain rfl := h2.eq_unread hf2; obtain rfl := h3.eq_unread hf3; obtain rfl := h4.eq_unread hf4
  obtain rfl := h5.eq_unread hf5
  sl_exec (disch := first | exact hc0 | exact hc2)
  sl_step
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr
    swap; · iexact H4
    ipureintro
    sl_unfold_words
    rw [View.read_writes_eq_canon _ _ _ (fun y => ⟨_, List.mem_cons_self, View.mem_set_unit_zero gateOff0 inb_S32x1024_S32x1024_0_0 y⟩)]
    rw [View.canon_cons_unit_zero gateOff0]
    simp only [View.readAt_eq_ld, h1.read_unread, h2.read_unread, h3.read_unread, h5.read_unread, View.ld_unit_zero (S := S32x512) gateOff0,
      View.ld_unit_zero (S := S512x4096) gateOff0, View.ld_unit_zero (S := S32x4096) gateOff0, View.ld_unit_zero (S := S1x1024) gateOff0,
      View.readCov_unit_zero (S := S32x4096) _ gateOff0]
    rfl
  iexists _; isplitr
  swap; · iexact H5
  ipureintro
  sl_unfold_words
  rw [View.read_writes_eq_canon _ _ _ (fun y => ⟨_, List.mem_cons_self, View.mem_set_unit_zero gateOff0 inb_S32x4096_S32x4096_0_0 y⟩)]
  rw [View.canon_cons_unit_zero gateOff0]
  simp only [View.readAt_eq_ld, h1.read_unread, h2.read_unread, h5.read_unread, View.ld_unit_zero (S := S32x512) gateOff0,
    View.ld_unit_zero (S := S512x4096) gateOff0, View.ld_unit_zero (S := S32x4096) gateOff0]
  rfl

/-! ## The schedule, decided over the three points -/

/-- The first conditional holds at the first point only. -/
theorem gateFirst_iff : ∀ t : Fin cfg0.N, gateFirst (grid0.coords t) ↔ t.val = 0 :=
  (by decide +kernel : ∀ t : Fin grid0.N, gateFirst (grid0.coords t) ↔ t.val = 0)
/-- The second conditional holds at the last point only. -/
theorem gateLast_iff : ∀ t : Fin cfg0.N, gateLast (grid0.coords t) ↔ t.val = 2 :=
  (by decide +kernel : ∀ t : Fin grid0.N, gateLast (grid0.coords t) ↔ t.val = 2)
/-- Before the last point the output window is idle, -/
theorem idle0_3_early : ∀ t : Fin cfg0.N, ¬gateLast (grid0.coords t) → cfg0.idle 3 (grid0.coords t) = true := by decide +kernel
/-- and its block is not written back there; -/
theorem noflush0_3_early : ∀ t : Fin cfg0.N, ¬gateLast (grid0.coords t) → (cfg0.win 3).flush t = false := by decide +kernel
/-- at the last point it is live. -/
theorem live0_3_last : ∀ t : Fin cfg0.N, gateLast (grid0.coords t) → cfg0.idle 3 (grid0.coords t) = false := by decide +kernel
/-- The three input windows are never idle. -/
theorem live0_0 (t : Fin cfg0.N) : cfg0.idle 0 (grid0.coords t) = false := rfl
theorem live0_1 (t : Fin cfg0.N) : cfg0.idle 1 (grid0.coords t) = false := rfl
theorem live0_2 (t : Fin cfg0.N) : cfg0.idle 2 (grid0.coords t) = false := rfl

/-! ## What the body finds in the inputs' buffers -/

/-- An input's buffer holds the window's block at every point, fetched there or not: where it is not fetched the block
    index has not moved and the body left the block in place. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)

/-! ## The running sum, point by point -/

theorem accAt_first (c : Dev nD) (t : Fin cfg0.N) (h : t.val = 0) :
    accAt V c t.val t.isLt = accA (iblk0 V c 0 t) (iblk0 V c 1 t) := by
  obtain ⟨n, hn⟩ := t
  cases n with
  | zero => rfl
  | succ n => exact absurd h (Nat.succ_ne_zero n)

theorem accAt_later (c : Dev nD) (t : Fin cfg0.N) (h : t.val ≠ 0) :
    accAt V c t.val t.isLt
      = accB (accAt V c (t.val - 1) (Nat.lt_of_le_of_lt (Nat.sub_le _ _) t.isLt)) (iblk0 V c 0 t) (iblk0 V c 1 t) := by
  obtain ⟨n, hn⟩ := t
  cases n with
  | zero => exact absurd rfl h
  | succ n => rfl

/-! ## The invariant the launch hands over -/

/-- The scoped buffers the region does not stage are the scratch and the other region's four staging buffers. -/
theorem PhiA0_eq (c : Dev nD) :
    (Pipeline.ΦA spec0 c : sProp 𝕄)
      = iprop(((∃ d, owns (c : Thread nD τ) scM fullShare d) ∗ restStg (F := F) c) ∗ (∃ r, prngReg c r)) := by
  unfold Pipeline.ΦA restStg; rw [scopedRest0_eq]; simp only [scM, owns_whole]; try rfl

/-! ## The body obligation -/

/-- Each window's current staging memref at a point, at its literal type. -/
abbrev gst0 (t : Fin cfg0.N) : Memref sig .tc .vmem S32x512 .bf16 := win0_0.stage (cfg0.slots t 0)
abbrev gst1 (t : Fin cfg0.N) : Memref sig .tc .vmem S512x4096 .bf16 := win0_1.stage (cfg0.slots t 1)
abbrev gst2 (t : Fin cfg0.N) : Memref sig .tc .vmem S1x1024 .f32 := win0_2.stage (cfg0.slots t 2)
abbrev gst3 (t : Fin cfg0.N) : Memref sig .tc .vmem S32x1024 .f32 := win0_3.stage (cfg0.slots t 3)

/-- What the body is called with at a point, the windows one by one, -/
def bodyPre0 (c : Dev nD) (t : Fin cfg0.N) : sProp 𝕄 :=
  iprop((dat0 V c).Φ t.castSucc ∗ (dat0 V c).owesAt () t.castSucc
    ∗ (∃ d, owns (c : Thread nD τ) (gst0 t) fullShare ((dat0 V c).before 0 t d))
    ∗ (∃ d, owns (c : Thread nD τ) (gst1 t) fullShare ((dat0 V c).before 1 t d))
    ∗ (∃ d, owns (c : Thread nD τ) (gst2 t) fullShare ((dat0 V c).before 2 t d))
    ∗ (∃ d, owns (c : Thread nD τ) (gst3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t ∗ (dat0 V c).leavesExact 3 t)

set_option maxHeartbeats 4000000 in
/-- The body at any point. The inputs' buffers hold their blocks. At the first point the scratch is handed over at
    anything and comes back at the first partial product; at a later point it is handed over at the running sum and
    comes back with the point's product added. The output's buffer is handed back untouched before the last point,
    where the window is idle, and at the gates of the whole sum at the last. The core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (gst0 t) fullShare ((dat0 V c).after 0 t) from by
    unfold Dat.leavesExact; rw [live0_0 t], after0_0]
  rw [show (dat0 V c).leavesExact 1 t = owns (c : Thread nD τ) (gst1 t) fullShare ((dat0 V c).after 1 t) from by
    unfold Dat.leavesExact; rw [live0_1 t], after0_1]
  rw [show (dat0 V c).leavesExact 2 t = owns (c : Thread nD τ) (gst2 t) fullShare ((dat0 V c).after 2 t) from by
    unfold Dat.leavesExact; rw [live0_2 t], after0_2]
  have hN : t.val < 3 := lt_of_lt_of_eq t.isLt (show cfg0.N = 3 from N_0)
  by_cases hz : t.val = 0
  · have hc0 : gateFirst (grid0.coords t) := (gateFirst_iff t).mpr hz
    have hc2 : ¬gateLast (grid0.coords t) := fun h => by have := (gateLast_iff t).mp h; omega
    rw [Dat.leavesExact_idle (dat0 V c) 3 t (idle0_3_early t hc2) (noflush0_3_early t hc2)]
    rw [accAt_first V c t hz]
    rw [PhiS_castSucc V c t, PhiS_zero V c _ _ hz, PhiA0_eq]
    iintro ⟨⟨⟨HS, Hr⟩, Hg⟩, Ho, ⟨%d0, H0⟩, ⟨%d1, H1⟩, ⟨%d2, H2⟩, ⟨%d3, H3⟩⟩
    iapply (gateRunA c (grid0.coords t) _ _ _ _ _ _ _ _ _ _ hc0 hc2 (iblk0 V c 0 t) (iblk0 V c 1 t) (iblk0 V c 2 t)
      ((dat0 V c).before 3 t d3) Set.univ _)
    isplitl [H0]; · iexact H0
    isplitl [H1]; · iexact H1
    isplitl [H2]; · iexact H2
    isplitl [H3]; · iexact H3
    isplitl [HS]; · iexact HS
    iintro ⟨H0, H1, H2, H3, HS⟩
    isplitl [HS Hr Hg]
    · isplitl [HS]; · iexact HS
      isplitl [Hr]; · iexact Hr
      iexact Hg
    isplitl [Ho]; · iexact Ho
    isplitl [H0]; · iexact H0
    isplitl [H1]; · iexact H1
    isplitl [H2]; · iexact H2
    iexists _; iexact H3
  · have hc0 : ¬gateFirst (grid0.coords t) := fun h => hz ((gateFirst_iff t).mp h)
    rw [accAt_later V c t hz]
    rw [PhiS_castSucc V c t, PhiS_pos V c _ _ hz]
    by_cases hl : t.val = 2
    · have hc2 : gateLast (grid0.coords t) := (gateLast_iff t).mpr hl
      rw [show (dat0 V c).leavesExact 3 t = owns (c : Thread nD τ) (gst3 t) fullShare ((dat0 V c).after 3 t) from by
        unfold Dat.leavesExact; rw [live0_3_last t hc2], after0_3, accAt_later V c t hz]
      iintro ⟨⟨HS, Hr, Hg⟩, Ho, ⟨%d0, H0⟩, ⟨%d1, H1⟩, ⟨%d2, H2⟩, ⟨%d3, H3⟩⟩
      iapply (gateRunC c (grid0.coords t) _ _ _ _ _ _ _ _ _ _ hc0 hc2 (accAt V c (t.val - 1) (Nat.lt_of_le_of_lt (Nat.sub_le _ _) t.isLt))
        (iblk0 V c 0 t) (iblk0 V c 1 t) (iblk0 V c 2 t) ((dat0 V c).before 3 t d3) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      iexact H3
    · have hc2 : ¬gateLast (grid0.coords t) := fun h => hl ((gateLast_iff t).mp h)
      rw [Dat.leavesExact_idle (dat0 V c) 3 t (idle0_3_early t hc2) (noflush0_3_early t hc2)]
      iintro ⟨⟨HS, Hr, Hg⟩, Ho, ⟨%d0, H0⟩, ⟨%d1, H1⟩, ⟨%d2, H2⟩, ⟨%d3, H3⟩⟩
      iapply (gateRunB c (grid0.coords t) _ _ _ _ _ _ _ _ _ _ hc0 hc2 (accAt V c (t.val - 1) (Nat.lt_of_le_of_lt (Nat.sub_le _ _) t.isLt))
        (iblk0 V c 0 t) (iblk0 V c 1 t) (iblk0 V c 2 t) ((dat0 V c).before 3 t d3) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]

/-- After the last point the invariant gives the launch's back: the scratch's named contents are forgotten. -/
theorem hout0 (c : Dev nD) : (dat0 V c).Φ (Fin.last cfg0.N) ⊢ Pipeline.ΦA spec0 c := by
  have hN : (Fin.last cfg0.N).val ≠ 0 := by rw [Fin.val_last]; have : cfg0.N = 3 := N_0; omega
  rw [show (dat0 V c).Φ (Fin.last cfg0.N) = PhiS V c (Fin.last cfg0.N).val (Nat.le_of_lt_succ (Fin.last cfg0.N).isLt) from rfl,
    PhiS_pos V c _ _ hN, PhiA0_eq]
  iintro ⟨HS, Hr, Hg⟩
  isplitl [HS Hr]
  · isplitl [HS]; · iexists _; iexact HS
    iexact Hr
  iexact Hg

end Cert.KernelIdeal.Hand

end
-- ==== Proof.KI.Run.lean ====
/-
  The run of the whole program: two stretches of host operations and two kernel regions, in the order
  stretch, region, stretch, region. Between two items a core holds every unscoped buffer whole at the contents
  the fold of RunDefs names (W0, W1, W2, W3, W4), beside its generator register at some state and nothing owed.
  Each stretch moves the buffers from one valuation to the next by the operations' own semantics; each region
  takes its arrays out of the buffers, runs its pipeline under the region's proof data, and puts the arrays back
  at what the write-backs leave. The launch then reads every unscoped buffer of the final memory: it is W4.
  From that one reading follow the frame claim (no item writes an argument array, so W4 at an argument walks
  back to the launch memory) and the value of the result's buffer (W4 at the result).
-/
import proofs.«157235_j5179730559367_1_alg».proof.Proof.Gen.KernelIdeal.Launch
import proofs.«157235_j5179730559367_1_alg».proof.Proof.Gen.KernelIdeal.Skeleton
import proofs.«157235_j5179730559367_1_alg».proof.Proof.Gen.KernelIdeal.Points
import proofs.«157235_j5179730559367_1_alg».proof.Proof.Gen.KernelIdeal.Regions
import proofs.«157235_j5179730559367_1_alg».proof.Proof.KI.FcDefs
import proofs.«157235_j5179730559367_1_alg».proof.Proof.KI.GateDefs
import proofs.«157235_j5179730559367_1_alg».proof.Proof.KI.RunDefs
import proofs.«157235_j5179730559367_1_alg».proof.Proof.KI.FcObl
import proofs.«157235_j5179730559367_1_alg».proof.Proof.KI.GateObl
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arguments end as launched

A buffer that is an array of neither region and that neither stretch writes holds at the end what the launch
memory held: the fold is read backwards through its four steps. -/

namespace Run

/-- The fold at a reference no item changes is the launch memory there. -/
theorem W4_of_untouched (c : Dev nD) (b : Ref sig .tc)
    (hr1 : ∀ w, Pipeline.arrRef spec1 w ≠ b) (hs1 : b ∉ hostOps1_W)
    (hr0 : ∀ w, Pipeline.arrRef spec0 w ≠ b) (hs0 : b ∉ hostOps0_W) :
    W4 m c (Proc.devRef .tc b) = m ((c : Thread nD τ).loc b) := by
  rw [W4_of_ne m c b hr1]
  rw [show W3 m c (Proc.devRef .tc b) = W2 m c (Proc.devRef .tc b) from
    StableHlo.after_of_writes_sub hostOps1 _ hostOps1_writes hs1]
  rw [W2_of_ne m c b hr0]
  exact StableHlo.after_of_writes_sub hostOps0 _ hostOps0_writes hs0

end Run

theorem W4_main_arg0 (c : Dev nD) : W4 m c (Proc.devRef .tc main_arg0) = m ((c : Thread nD τ).loc main_arg0) :=
  Run.W4_of_untouched m c main_arg0 (by decide) (by decide) (by decide) (by decide)
theorem W4_main_arg1 (c : Dev nD) : W4 m c (Proc.devRef .tc main_arg1) = m ((c : Thread nD τ).loc main_arg1) :=
  Run.W4_of_untouched m c main_arg1 (by decide) (by decide) (by decide) (by decide)
theorem W4_main_arg2 (c : Dev nD) : W4 m c (Proc.devRef .tc main_arg2) = m ((c : Thread nD τ).loc main_arg2) :=
  Run.W4_of_untouched m c main_arg2 (by decide) (by decide) (by decide) (by decide)
theorem W4_main_arg3 (c : Dev nD) : W4 m c (Proc.devRef .tc main_arg3) = m ((c : Thread nD τ).loc main_arg3) :=
  Run.W4_of_untouched m c main_arg3 (by decide) (by decide) (by decide) (by decide)
theorem W4_main_arg4 (c : Dev nD) : W4 m c (Proc.devRef .tc main_arg4) = m ((c : Thread nD τ).loc main_arg4) :=
  Run.W4_of_untouched m c main_arg4 (by decide) (by decide) (by decide) (by decide)
theorem W4_main_arg5 (c : Dev nD) : W4 m c (Proc.devRef .tc main_arg5) = m ((c : Thread nD τ).loc main_arg5) :=
  Run.W4_of_untouched m c main_arg5 (by decide) (by decide) (by decide) (by decide)
theorem W4_main_arg6 (c : Dev nD) : W4 m c (Proc.devRef .tc main_arg6) = m ((c : Thread nD τ).loc main_arg6) :=
  Run.W4_of_untouched m c main_arg6 (by decide) (by decide) (by decide) (by decide)
theorem W4_main_arg7 (c : Dev nD) : W4 m c (Proc.devRef .tc main_arg7) = m ((c : Thread nD τ).loc main_arg7) :=
  Run.W4_of_untouched m c main_arg7 (by decide) (by decide) (by decide) (by decide)
theorem W4_main_arg8 (c : Dev nD) : W4 m c (Proc.devRef .tc main_arg8) = m ((c : Thread nD τ).loc main_arg8) :=
  Run.W4_of_untouched m c main_arg8 (by decide) (by decide) (by decide) (by decide)

namespace Run

/-! ## The proof data of the two pipelines and the state a core holds between items -/

/-- Each pipeline's proof data at the contents its region is entered from: the first region's at W1, the second's at W3. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c

/-- No variant of a kernel is selected. -/
abbrev 𝒱₀ : Variants := Variants.none
/-- No semaphore carries a level: no core ever owes another anything. -/
abbrev L : GSem nD τ sig → Finset Unit := fun _ => ∅
abbrev lv : GSem nD τ sig → Unit → ℕ := fun _ _ => 0

/-- What a core holds beside its buffers between two items: its generator register at some state, and nothing owed. -/
abbrev R (c : Dev nD) : sProp 𝕄 :=
  iprop((∃ r, prngReg c r) ∗ ∃ W, owes (c : Thread nD τ) (0 : CellTallies nD τ sig Unit) W)

/-- Every unscoped buffer of core c whole at the valuation Wc, beside R: the state between two items. -/
abbrev between (Wc : Dev nD → Valuation τ sig (Elt F)) (c : Dev nD) : sProp 𝕄 :=
  iprop(StableHlo.held (c : Thread nD τ) (Pipeline.ucRefs τ sig) (Wc c) ∗ R c)

/-- A stretch of host operations as a segment: from the unscoped buffers at Wc to the same buffers at the
    operations' fold over Wc, R untouched. -/
abbrev stretch (ops : List (HloOp τ sig (Elt F))) (hsub : ops.Forall fun op => op.bufs ⊆ StableHlo.tcRefs τ sig)
    (hfresh : ops.Forall fun op => op.fresh = ∅) (Wc : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) Wc R

/-- A reference of the core that is not scoped is one of the buffers held between items. -/
theorem mem_uc (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

/-- The last state without what is owed: every unscoped buffer at W4, the generator register at some state. -/
abbrev Tlast (c : Dev nD) : sProp 𝕄 :=
  iprop(StableHlo.held (c : Thread nD τ) (Pipeline.ucRefs τ sig) (W4 m c) ∗ ∃ r, prngReg c r)

/-! ## The regions as segments

Entering a region, its four arrays are taken out of the unscoped buffers (they hold what the proof data call
the arrays' entry contents, since those are read off the same valuation); the generator register goes into the
region's invariant together with the scoped buffers no window stages. Leaving it, the invariant gives them back,
and the arrays, at what the write-backs leave, rejoin the other buffers: the valuation is then the next of the fold. -/

/-- The generator register and the scoped buffers no window of the first region stages make that region's class invariant. -/
theorem toΦA0 (c : Dev nD) :
    iprop((∃ r, prngReg c r) ∗ Pipeline.prefHeld (pcfgs (F := F) 0).pre c (fun _ => fullShare) (adm (F := F) 0).1
      ∗ Pipeline.scopedRest (Pipeline.pin (pcfgs (F := F)) adm 0).spec c) ⊢ (Pipeline.ΦA spec0 c : sProp 𝕄) := by
  unfold Pipeline.ΦA
  iintro ⟨Hg, -, Hs⟩
  isplitl [Hs]
  · iexact Hs
  · iexact Hg

set_option backward.isDefEq.respectTransparency.types false in
/-- The first region: entered from the buffers at W1, left at W2. Its invariant is the running sum's, so the class
    invariant is turned into it at the first point (hin0) and recovered from it after the last (hout0). -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre := between (W1 m)
  post := between (W2 m)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    have htake := Pipeline.arrays_of_unscopedBufs (p := 0) (pcfgs (F := F)) adm (pdats m) launch0.win launch0.arr_whole c
      ((pdats m 0 c).share_full fun _ => rfl) (V1 m c) fun _ => rfl
    rw [Pipeline.unscopedBufs_held] at htake
    rw [Pipeline.ownSems0_none]
    iintro ⟨⟨Hbufs, Hgen, Howe⟩, -, -⟩
    ihave Hsplit := htake $$ Hbufs
    icases Hsplit with ⟨Harr, Hother⟩
    imodintro
    isplitl [Harr]
    · iexact Harr
    isplitr
    · unfold Pipeline.prefHeld
      rw [show (Finset.univ : Finset (Fin 0)) = ∅ from rfl, BI.bigSep_empty]
      iempintro
    isplitl [Howe]
    · unfold Pipeline.Dat.owesAt Pipeline.owesWithin
      icases Howe with ⟨%Wd, Howe⟩
      iexists Wd
      isplitr
      · ipureintro; exact fun _ _ => Or.inl trivial
      · iexact Howe
    isplitl [Hgen]
    · iexact Hgen
    · iexact Hother
  hin c := (toΦA0 c).trans (hin0 (V1 m) c)
  hout c := (hout0 (V1 m) c).trans (by
    rw [Pipeline.ownSems0_none]
    unfold Pipeline.ΦA
    iintro ⟨Hs, Hg⟩
    isplitl [Hg]
    · iexact Hg
    isplitr
    · iempintro
    · iexact Hs)
  hexit c := by
    have hput := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hput
    iintro ⟨Harr, Howe, Hgen, Hother⟩
    imodintro
    isplitl [Harr Hother]
    · iapply hput
      isplitl [Harr]
      · iexact Harr
      · iexact Hother
    isplitl [Hgen]
    · iexact Hgen
    unfold Pipeline.Dat.owesAt Pipeline.owesWithin
    icases Howe with ⟨%Wd, -, Howe⟩
    iexists Wd
    iexact Howe

/-- The generator register and the scoped buffers no window of the second region stages make that region's class invariant. -/
theorem toΦA1 (c : Dev nD) :
    iprop((∃ r, prngReg c r) ∗ Pipeline.prefHeld (pcfgs (F := F) 1).pre c (fun _ => fullShare) (adm (F := F) 1).1
      ∗ Pipeline.scopedRest (Pipeline.pin (pcfgs (F := F)) adm 1).spec c) ⊢ (Pipeline.ΦA spec1 c : sProp 𝕄) := by
  unfold Pipeline.ΦA
  iintro ⟨Hg, -, Hs⟩
  isplitl [Hs]
  · iexact Hs
  · iexact Hg

set_option backward.isDefEq.respectTransparency.types false in
/-- The second region: entered from the buffers at W3, left at W4. Its invariant is the class invariant throughout. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre := between (W3 m)
  post c := iprop(Tlast m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    have htake := Pipeline.arrays_of_unscopedBufs (p := 1) (pcfgs (F := F)) adm (pdats m) launch1.win launch1.arr_whole c
      ((pdats m 1 c).share_full fun _ => rfl) (V3 m c) fun _ => rfl
    rw [Pipeline.unscopedBufs_held] at htake
    rw [Pipeline.ownSems0_none]
    iintro ⟨⟨Hbufs, Hgen, Howe⟩, -, -⟩
    ihave Hsplit := htake $$ Hbufs
    icases Hsplit with ⟨Harr, Hother⟩
    imodintro
    isplitl [Harr]
    · iexact Harr
    isplitr
    · unfold Pipeline.prefHeld
      rw [show (Finset.univ : Finset (Fin 0)) = ∅ from rfl, BI.bigSep_empty]
      iempintro
    isplitl [Howe]
    · unfold Pipeline.Dat.owesAt Pipeline.owesWithin
      icases Howe with ⟨%Wd, Howe⟩
      iexists Wd
      isplitr
      · ipureintro; exact fun _ _ => Or.inl trivial
      · iexact Howe
    isplitl [Hgen]
    · iexact Hgen
    · iexact Hother
  hin c := toΦA1 c
  hout c := by
    rw [Pipeline.ownSems0_none, show (pdats m 1 c).Φ (Fin.last _) = Pipeline.ΦA spec1 c from rfl]
    unfold Pipeline.ΦA
    iintro ⟨Hs, Hg⟩
    isplitl [Hg]
    · iexact Hg
    isplitr
    · iempintro
    · iexact Hs
  hexit c := by
    have hput := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hput
    iintro ⟨Harr, Howe, Hgen, Hother⟩
    imodintro
    isplitl [Harr Hother Hgen]
    · isplitl [Harr Hother]
      · iapply hput
        isplitl [Harr]
        · iexact Harr
        · iexact Hother
      · iexact Hgen
    unfold Pipeline.Dat.owesAt Pipeline.owesWithin
    icases Howe with ⟨%Wd, -, Howe⟩
    iexists Wd
    iexact Howe

/-! ## The program as its four segments, and the launch -/

/-- The program's items in order: stretch, region, stretch, region, each entered from the valuation the one before leaves. -/
abbrev segs : List (Pipeline.Seg (pcfgs (F := F)) adm (pdats m) () defs₀ 𝒱₀ L lv) :=
  [ .host (stretch hostOps0 hostOps0_sub hostOps0_fresh (W0 m)),
    .region (reg0 m),
    .host (stretch hostOps1 hostOps1_sub hostOps1_fresh (W2 m)),
    .region (reg1 m) ]

/-- The program is the run of those segments. -/
theorem main_run (c : Dev nD) : main (F := F) c = Pipeline.Seg.run (segs m) := (main_chain c).trans (by chain_rfl)

end Run

set_option backward.isDefEq.respectTransparency.types false in
/-- From any memory with zero counters every weakly fair execution of the program on the cores terminates without
    fault, and in every final memory each unscoped buffer of each core holds W4 there. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W4 m c b) :=
  Pipeline.θ_run_regions_kit (pcfgs (F := F)) adm (Run.pdats m) () cellOf_inj emb₁ defs₀ Run.𝒱₀ Run.L Run.lv m ρ main (Run.segs m)
    (fun c Q => by rw [Run.main_run m c])
    (by simp only [Run.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu
      imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      · iapply (show (BI.emp : sProp 𝕄) ⊢ bigSep Finset.univ (fun _ : Dev nD => (BI.emp : sProp 𝕄)) from by
          rw [BI.bigSep_emp_const])
        iempintro)
    (T₀ := Run.between (W0 m)) (Tₙ := Run.Tlast m)
    (hch := ⟨fun _ => .rfl, fun _ => .rfl, fun _ => .rfl, fun _ => .rfl, fun _ => .rfl⟩)
    (hinit := by
      refine Pipeline.initEach Run.L Run.lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hbufs, -, Howe, -, Hgen, -⟩, -⟩
      imodintro
      isplitl [Hbufs]
      · iexact Hbufs
      isplitl [Hgen]
      · iexists _; iexact Hgen
      · iexists ∅; iexact Howe)
    (QY := fun c s => ∀ b ∈ Pipeline.ucRefs τ sig, s.mem (((c : Thread nD τ)).1, b) = W4 m c b)
    (hfin := fun c s' => by
      iintro ⟨⟨Hbufs, -⟩, Hst⟩
      unfold StableHlo.held
      imodintro
      iapply (pointsTo_read_all (Pipeline.ucRefs τ sig) (fun b => (((c : Thread nD τ)).1, b)) (W4 m c) s')
      isplitl [Hbufs]
      · iexact Hbufs
      · iexact Hst)
    (hQ := fun s h => h)

/-! ## The two readings of the run -/

namespace Run

/-- The final memory at an argument array, given that every unscoped buffer ends at W4. -/
theorem arg_end {s : MemSt nD τ sig (Elt F)} (c : Dev nD)
    (h : ∀ b ∈ Pipeline.ucRefs τ sig, s.mem (((c : Thread nD τ)).1, b) = W4 m c b) :
    s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8) :=
  ⟨(h _ (mem_uc main_arg0 (by decide))).trans (W4_main_arg0 m c),
   (h _ (mem_uc main_arg1 (by decide))).trans (W4_main_arg1 m c),
   (h _ (mem_uc main_arg2 (by decide))).trans (W4_main_arg2 m c),
   (h _ (mem_uc main_arg3 (by decide))).trans (W4_main_arg3 m c),
   (h _ (mem_uc main_arg4 (by decide))).trans (W4_main_arg4 m c),
   (h _ (mem_uc main_arg5 (by decide))).trans (W4_main_arg5 m c),
   (h _ (mem_uc main_arg6 (by decide))).trans (W4_main_arg6 m c),
   (h _ (mem_uc main_arg7 (by decide))).trans (W4_main_arg7 m c),
   (h _ (mem_uc main_arg8 (by decide))).trans (W4_main_arg8 m c)⟩

end Run

/-- The frame claim: the program runs and every argument array ends holding what the launch memory held. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => Run.arg_end m c (h c)) (run_all m ρ)

/-- The result's value: the program runs, the result's buffer ends at W4 there, and the arguments end as launched. -/
theorem result : θ_run defs (onTc (τ := τ) (main (F := F))) ⟨m, fun _ => 0, ρ⟩ (fun r => ∀ c : Dev nD,
      r.2.mem ((c.tc : Thread nD τ).loc main_v13) = W4 m c (Proc.devRef .tc main_v13)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨h c _ (Run.mem_uc main_v13 (by decide)), Run.arg_end m c (h c)⟩) (run_all m ρ)

end Cert.KernelIdeal.Hand

end
-- ==== Proof.Spec.lean ====
/-
  What both programs compute, index by index, over the extended reals.
  A batch row `b` of the last time step is the row `z b` of 1536 numbers: the 1024 entries of the initial hidden
  state followed by the 512 features of `data` at time 511. The four gate weight matrices stand side by side as one
  matrix `wall` of 1536 rows and 4096 columns. The gate pre-activations are the products `z · wall`; the new hidden
  state is `σ(o) · tanh(σ(f) · c0 + σ(i) · tanh(g))` with the four gates read off the four quarters of the columns;
  the logits are the hidden state against the rows of the output weight matrix plus the bias. (The final relu and
  log-softmax are one and the same chain of operations in both programs and are carried as a function of the logits.)
-/
import Idealize.ShloMosaic.PureOps.Ideal
import Idealize.ShloMosaic.Lib.ValueIdx

noncomputable section

namespace Cert.Spec

open Idealize.ShloMosaic Idealize.ShloMosaic.ValueIdx

abbrev Sdata : Shape := ⟨3, ![32, 512, 512]⟩
abbrev Svec : Shape := ⟨1, ![1024]⟩
abbrev Swt : Shape := ⟨2, ![1536, 1024]⟩
abbrev Sfcw : Shape := ⟨2, ![1000, 1024]⟩
abbrev Sfcb : Shape := ⟨1, ![1000]⟩

variable (data : FVec Ideal Sdata .f32) (h0 c0 : FVec Ideal Svec .f32)
  (wf wi wc wo : FVec Ideal Swt .f32) (fcw : FVec Ideal Sfcw .f32) (fcb : FVec Ideal Sfcb .f32)

/-- Row `b` of the last time step: the initial hidden state, then the features at time 511. -/
def z (b : Fin 32) (k : Fin 1536) : EReal :=
  if h : k.val < 1024 then h0 (ix1 (⟨k.val, h⟩ : Fin 1024))
  else data (ix3 b (⟨511, by decide⟩ : Fin 512) (⟨k.val - 1024, by have := k.isLt; omega⟩ : Fin 512))

/-- The four gate weight matrices side by side: column `n` lies in quarter `n / 1024`. -/
def wall (k : Fin 1536) (n : Fin 4096) : EReal :=
  if h1 : n.val < 1024 then wf (ix2 k (⟨n.val, h1⟩ : Fin 1024))
  else if h2 : n.val < 2048 then wi (ix2 k (⟨n.val - 1024, by omega⟩ : Fin 1024))
  else if h3 : n.val < 3072 then wc (ix2 k (⟨n.val - 2048, by omega⟩ : Fin 1024))
  else wo (ix2 k (⟨n.val - 3072, by have := n.isLt; omega⟩ : Fin 1024))

/-- The gate pre-activations of row `b`. -/
def gate (b : Fin 32) (n : Fin 4096) : EReal := ∑ k : Fin 1536, z data h0 b k * wall wf wi wc wo k n

/-- Column `j` of quarter `q`. -/
abbrev col (q : Fin 4) (j : Fin 1024) : Fin 4096 := ⟨q.val * 1024 + j.val, by have := q.isLt; have := j.isLt; omega⟩

/-- The new hidden state of row `b`. -/
def hid (b : Fin 32) (j : Fin 1024) : EReal :=
  Ideal.logistic (gate data h0 wf wi wc wo b (col 3 j))
    * Ideal.tanh (Ideal.logistic (gate data h0 wf wi wc wo b (col 0 j)) * c0 (ix1 j)
        + Ideal.logistic (gate data h0 wf wi wc wo b (col 1 j)) * Ideal.tanh (gate data h0 wf wi wc wo b (col 2 j)))

/-- The logits before the relu. -/
def lin (b : Fin 32) (n : Fin 1000) : EReal :=
  (∑ j : Fin 1024, hid data h0 c0 wf wi wc wo b j * fcw (ix2 n j)) + fcb (ix1 n)

end Cert.Spec

end
-- ==== Proof.LibDotT.lean ====
/-
  A matrix product against a transposed right operand, read at an entry. For the dimension numbers "contract the left
  operand's columns with the right operand's columns, no batch axis", the vector unit's product into a zero
  accumulator is, at entry (r, c) and over the extended reals, the sum over k of x(r, k) · w(c, k).
-/
import Idealize.ShloMosaic.PureOps.Ideal
import Idealize.ShloMosaic.PureOps.Ideal.Laws
import Idealize.ShloMosaic.Lib.ValueIdx

noncomputable section

open scoped BigOperators

namespace Cert.LibDotT

open Idealize.ShloMosaic Idealize.ShloMosaic.ValueIdx

/-! ## The four coordinates of the operand indices

  With the left operand's rows the only free left axis, the right operand's rows the only free right axis and one
  shared axis (each operand's columns), the left operand is read at (row of the entry, shared coordinate) and the
  right operand at (column of the entry, shared coordinate). Each of the four coordinates is its own statement, at
  the literal axis. -/

section Axes

variable {R K C : Nat} (d : DotDims ⟨2, ![R, K]⟩ ⟨2, ![C, K]⟩ ⟨2, ![R, C]⟩)

/-- One shared axis. -/
theorem rank_contr_one (hl : d.lhsContracting = [1]) : d.contr.rank = 1 := by
  rw [d.rank_contr, hl]; rfl

/-- The shared axis has the left operand's column count. -/
theorem size_contr_zero (hl : d.lhsContracting = [1]) :
    d.contr.size ⟨0, by rw [rank_contr_one d hl]; exact Nat.one_pos⟩ = K := by
  have h := d.size_contr 0 (by rw [hl]; exact Nat.one_pos)
  rw [h]
  have h1 : d.lhsContracting[0]'(by rw [hl]; exact Nat.one_pos) = (1 : Fin 2) := by simp [hl]
  rw [h1]; rfl

/-- The left operand's row coordinate is the entry's row. -/
theorem lhs_axis0 (hln : d.lhsNonContracting = [0]) (hlb : d.lhsBatch = [])
    (j : (⟨2, ![R, C]⟩ : Shape).Idx) (k : d.contr.Idx) : (d.lhsIdx j k 0 : ℕ) = (j 0 : ℕ) := by
  unfold DotDims.lhsIdx
  rw [dif_neg (by rw [hlb]; exact List.not_mem_nil), dif_pos (by rw [hln]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The left operand's column coordinate is the shared coordinate. -/
theorem lhs_axis1 (hl : d.lhsContracting = [1]) (j : (⟨2, ![R, C]⟩ : Shape).Idx) (k : d.contr.Idx) :
    (d.lhsIdx j k 1 : ℕ) = (k ⟨0, by rw [rank_contr_one d hl]; exact Nat.one_pos⟩ : ℕ) :=
  d.lhsIdx_val_of_single hl j k

/-- The right operand's row coordinate is the entry's column. -/
theorem rhs_axis0 (hln : d.lhsNonContracting = [0]) (hrn : d.rhsNonContracting = [0]) (hlb : d.lhsBatch = [])
    (hrb : d.rhsBatch = []) (j : (⟨2, ![R, C]⟩ : Shape).Idx) (k : d.contr.Idx) : (d.rhsIdx j k 0 : ℕ) = (j 1 : ℕ) := by
  unfold DotDims.rhsIdx
  rw [dif_neg (by rw [hrb]; exact List.not_mem_nil), dif_pos (by rw [hrn]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

/-- The right operand's column coordinate is the shared coordinate. -/
theorem rhs_axis1 (hl : d.lhsContracting = [1]) (hr : d.rhsContracting = [1]) (j : (⟨2, ![R, C]⟩ : Shape).Idx)
    (k : d.contr.Idx) : (d.rhsIdx j k 1 : ℕ) = (k ⟨0, by rw [rank_contr_one d hl]; exact Nat.one_pos⟩ : ℕ) :=
  d.rhsIdx_val_of_single hr j k

end Axes

/-- The contraction sum of a product against a transposed right operand, re-indexed by the shared axis's
    coordinate: the left operand is read at (r, k), the right one at (c, k). -/
theorem contr_sum_T {R K C : Nat} {φ₁ φ₂ : FTy} (d : DotDims ⟨2, ![R, K]⟩ ⟨2, ![C, K]⟩ ⟨2, ![R, C]⟩)
    (hl : d.lhsContracting = [1]) (hr : d.rhsContracting = [1]) (hln : d.lhsNonContracting = [0])
    (hrn : d.rhsNonContracting = [0]) (hlb : d.lhsBatch = []) (hrb : d.rhsBatch = [])
    (x : FVec Ideal ⟨2, ![R, K]⟩ φ₁) (w : FVec Ideal ⟨2, ![C, K]⟩ φ₂) (r : Fin R) (c : Fin C) :
    (∑ k : d.contr.Idx, x (d.lhsIdx (ix2 r c) k) * w (d.rhsIdx (ix2 r c) k)) = ∑ k : Fin K, x (ix2 r k) * w (ix2 c k) := by
  rw [← Equiv.sum_comp (contrEquiv1 d K (rank_contr_one d hl) (size_contr_zero d hl)).symm]
  refine Finset.sum_congr rfl fun k _ => ?_
  have hk := contrEquiv1_symm_val d K (rank_contr_one d hl) (size_contr_zero d hl) k
  have hx : d.lhsIdx (ix2 r c) ((contrEquiv1 d K (rank_contr_one d hl) (size_contr_zero d hl)).symm k) = ix2 r k := by
    funext a
    match a with
    | ⟨0, _⟩ => exact Fin.ext (lhs_axis0 d hln hlb _ _)
    | ⟨1, _⟩ => exact Fin.ext ((lhs_axis1 d hl _ _).trans hk)
  have hw : d.rhsIdx (ix2 r c) ((contrEquiv1 d K (rank_contr_one d hl) (size_contr_zero d hl)).symm k) = ix2 c k := by
    funext a
    match a with
    | ⟨0, _⟩ => exact Fin.ext (rhs_axis0 d hln hrn hlb hrb _ _)
    | ⟨1, _⟩ => exact Fin.ext ((rhs_axis1 d hl hr _ _).trans hk)
  rw [hx, hw]

/-- The vector unit's product against a transposed right operand into the zero accumulator, at entry (r, c). -/
theorem matmul_zero_at_T {R K C : Nat} {φ₁ φ₂ : FTy} (d : DotDims ⟨2, ![R, K]⟩ ⟨2, ![C, K]⟩ ⟨2, ![R, C]⟩)
    (hl : d.lhsContracting = [1]) (hr : d.rhsContracting = [1]) (hln : d.lhsNonContracting = [0])
    (hrn : d.rhsNonContracting = [0]) (hlb : d.lhsBatch = []) (hrb : d.rhsBatch = [])
    (prec : Option ContractPrecision) (x : FVec Ideal ⟨2, ![R, K]⟩ φ₁) (w : FVec Ideal ⟨2, ![C, K]⟩ φ₂) (r : Fin R) (c : Fin C) :
    FloatOps.matmul d prec x w (constant ⟨2, ![R, C]⟩ .f32 0x00000000#32) (ix2 r c) = ∑ k : Fin K, x (ix2 r k) * w (ix2 c k) := by
  rw [Ideal.matmul_constant_zero_apply]
  exact contr_sum_T d hl hr hln hrn hlb hrb x w r c

end Cert.LibDotT

end
-- ==== Proof.KI.KVal.lean ====
/-
  Reading the last valuation of the run back to the argument arrays: which term of the launch contents each
  buffer of a core holds at the boundaries of the program's four items. No arithmetic is done here; every
  statement only names the term a buffer holds.

  The first stretch of host operations leaves in the first region's three input arrays the rounded concatenation
  of the broadcast initial hidden state with the last time step of the input sequence, the rounded concatenation
  of the four weight matrices, and the broadcast initial cell state. The first region's output array is written
  back once, at the last of its three points, through a block that is the whole array, so it ends at what the
  body left there: the gates and the cell update of the running sum after the third partial product. The second
  stretch rounds that array and the last layer's weights and broadcasts the bias; the second region has one
  point and whole-array blocks, so its output array ends at the payload of its three input arrays.
-/
import proofs.«157235_j5179730559367_1_alg».proof.Proof.Gen.KernelIdeal.Launch
import proofs.«157235_j5179730559367_1_alg».proof.Proof.Gen.KernelIdeal.Skeleton
import proofs.«157235_j5179730559367_1_alg».proof.Proof.Gen.KernelIdeal.Points
import proofs.«157235_j5179730559367_1_alg».proof.Proof.Gen.KernelIdeal.Regions
import proofs.«157235_j5179730559367_1_alg».proof.Proof.KI.FcDefs
import proofs.«157235_j5179730559367_1_alg».proof.Proof.KI.GateDefs
import proofs.«157235_j5179730559367_1_alg».proof.Proof.KI.RunDefs
import proofs.«157235_j5179730559367_1_alg».proof.Proof.KI.FcObl
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ)

/-! ## What the first stretch of host operations leaves -/

/-- The broadcast initial cell state. -/
theorem v8_val (c : Dev nD) : V1 m c main_v8 = broadcastInDim S1x1024 ![1] bcast_S1024_S1x1024_1 (m ((c : Thread nD τ).loc main_arg2)) := by
  show StableHlo.after hostOps0 (W0 m c) (Proc.devRef .tc main_v8) = _
  after_results

/-- The four weight matrices side by side, rounded. -/
theorem v7_val (c : Dev nD) : V1 m c main_v7 = truncf .bf16 (concatenate S1536x4096 1 [⟨S1536x1024, m ((c : Thread nD τ).loc main_arg3)⟩, ⟨S1536x1024, m ((c : Thread nD τ).loc main_arg4)⟩, ⟨S1536x1024, m ((c : Thread nD τ).loc main_arg5)⟩, ⟨S1536x1024, m ((c : Thread nD τ).loc main_arg6)⟩] concatenates_S1536x1024_S1536x1024_S1536x1024_S1536x1024_S1536x4096_d1) bitsLt_bf16_f32 := by
  show StableHlo.after hostOps0 (W0 m c) (Proc.devRef .tc main_v7) = _
  after_results
  rfl

/-- The broadcast initial hidden state beside the last time step of the input, rounded. -/
theorem v6_val (c : Dev nD) : V1 m c main_v6 = truncf .bf16 (concatenate S32x1536 1 [⟨S32x1024, broadcastInDim S32x1024 ![0, 1] bcast_S1x1024_S32x1024_0_1 (broadcastInDim S1x1024 ![1] bcast_S1024_S1x1024_1 (m ((c : Thread nD τ).loc main_arg1)))⟩, ⟨S32x512, shapeCast _ (extractStridedSlice S32x1x512 ![0, 511, 0] (m ((c : Thread nD τ).loc main_arg0)) slices_S32x512x512_S32x1x512_0_511_0) shapeCasts_S32x1x512_S32x512⟩] concatenates_S32x1024_S32x512_S32x1536_d1) bitsLt_bf16_f32 := by
  show StableHlo.after hostOps0 (W0 m c) (Proc.devRef .tc main_v6) = _
  after_results
  rfl

/-! ## The first region's input blocks -/

/-- The first input's block at a point, read off the rounded concatenation of hidden state and input. -/
theorem blk0_val (c : Dev nD) (t : Fin cfg0.N) : iblk0 (V1 m) c 0 t = ((cfg0.win 0).blk t).view.read (Elt F) (V1 m c main_v6) := rfl

/-- The second input's block at a point, read off the rounded concatenation of the weights. -/
theorem blk1_val (c : Dev nD) (t : Fin cfg0.N) : iblk0 (V1 m) c 1 t = ((cfg0.win 1).blk t).view.read (Elt F) (V1 m c main_v7) := rfl

/-! ## What the second stretch of host operations leaves -/

/-- No window of the first region sits on an argument array, and the first stretch writes none. -/
theorem arg7_kept (c : Dev nD) : W2 m c (Proc.devRef .tc main_arg7) = m ((c : Thread nD τ).loc main_arg7) :=
  (W2_of_ne m c main_arg7 (by decide)).trans (Cert.KernelIdeal.Gen.V1_of m c main_arg7 (by decide))
theorem arg8_kept (c : Dev nD) : W2 m c (Proc.devRef .tc main_arg8) = m ((c : Thread nD τ).loc main_arg8) :=
  (W2_of_ne m c main_arg8 (by decide)).trans (Cert.KernelIdeal.Gen.V1_of m c main_arg8 (by decide))

/-- The new hidden state, rounded. -/
theorem v10_val (c : Dev nD) : V3 m c main_v10 = truncf .bf16 (V2 m c main_v9) bitsLt_bf16_f32 := by
  show StableHlo.after hostOps1 (W2 m c) (Proc.devRef .tc main_v10) = _
  after_results

/-- The last layer's weights, rounded. -/
theorem v11_val (c : Dev nD) : V3 m c main_v11 = truncf .bf16 (m ((c : Thread nD τ).loc main_arg7)) bitsLt_bf16_f32 := by
  show StableHlo.after hostOps1 (W2 m c) (Proc.devRef .tc main_v11) = _
  after_results
  rw [arg7_kept]

/-- The last layer's bias as a row. -/
theorem v12_val (c : Dev nD) : V3 m c main_v12 = broadcastInDim S1x1000 ![1] bcast_S1000_S1x1000_1 (m ((c : Thread nD τ).loc main_arg8)) := by
  show StableHlo.after hostOps1 (W2 m c) (Proc.devRef .tc main_v12) = _
  after_results
  rw [arg8_kept]

/-! ## The regions' output arrays

A window whose block is the whole array has block index zero on every axis at every point, so reading the array
through the block gives the array, the block covers every index, and a write-back through it leaves exactly what
the body left in the staging buffer. -/

/-- The block indices of the first region's whole-array windows, decided over its three points. -/
theorem whole_idx0 : ∀ t : Fin cfg0.N, (∀ a : Fin 2, win0_2.index t a = 0) ∧ (∀ a : Fin 2, win0_3.index t a = 0) :=
  (by decide +kernel : ∀ t : Fin grid0.N, _)

/-- The block indices of the second region's windows, decided over its one point. -/
theorem whole_idx1 : ∀ t : Fin cfg1.N, (∀ a : Fin 2, win1_0.index t a = 0) ∧ (∀ a : Fin 2, win1_1.index t a = 0)
    ∧ (∀ a : Fin 2, win1_2.index t a = 0) ∧ (∀ a : Fin 2, win1_3.index t a = 0) :=
  (by decide +kernel : ∀ t : Fin grid1.N, _)

section Arrays

variable (V : (c : Dev nD) → (b : Ref sig .tc) → Buf (Elt F) ((c : Thread nD τ).loc b))

/-- The last point of the first region. -/
abbrev lastPt : Fin cfg0.N := ⟨2, by rw [show cfg0.N = 3 from N_0]; decide⟩

/-- The third input's block of the first region, at any point, is the whole array. -/
theorem iblk0_whole (c : Dev nD) (t : Fin cfg0.N) : iblk0 V c 2 t = V c main_v8 := by
  have hz : (fun a => win0_2.index t a * main_v8.ty.shape.size a) = fun _ => 0 :=
    funext fun a => by rw [(whole_idx0 t).1 a, Nat.zero_mul]
  exact Memref.read_access_unit_zero (Elt F) main_v8 hz (fun a => by rw [congrFun hz a, Nat.zero_add]) (V c main_v8)

/-- The first region's output array after its write-backs: what the body left at the last point. -/
theorem out0_arr (c : Dev nD) :
    (dat0 V c).arrAt 3 cfg0.N = gateOut (accAt V c 2 (by rw [show cfg0.N = 3 from N_0]; decide)) (V c main_v8) := by
  refine (dat0 V c).arrAt_eq_of_cover 3 _ (fun t hf => ?_) (fun i => ⟨lastPt, (flush0_3 lastPt).mpr rfl, ?_⟩)
  · have h2 : t.val = 2 := by
      have h := (flush0_3 t).mp hf; have hlt := t.isLt; have hN : cfg0.grid.N = 3 := N_0; omega
    obtain rfl : t = lastPt := Fin.ext h2
    show (cfg0.win 3).cut (grid0.coords lastPt) ((dat0 V c).after 3 lastPt) = _
    rw [after0_3, iblk0_whole]
    have hz : (fun a => win0_3.index lastPt a * main_v9.ty.shape.size a) = fun _ => 0 :=
      funext fun a => by rw [(whole_idx0 lastPt).2 a, Nat.zero_mul]
    exact (Memref.read_access_unit_zero (Elt F) main_v9 hz (fun a => by rw [congrFun hz a, Nat.zero_add]) _).symm
  · show i ∈ ((View.whole main_v9).slice (win0_3.rect lastPt)).set
    rw [View.set_slice_whole]
    have hz : (fun a => win0_3.index lastPt a * win0_3.size a) = fun _ => 0 :=
      funext fun a => by rw [(whole_idx0 lastPt).2 a, Nat.zero_mul]
    exact View.mem_set_unit_zero (S := main_v9.ty.shape) hz _ i
end Arrays

/-- The first region's output array at its exit: the gates and the cell update of the whole running sum. -/
theorem v9_val (c : Dev nD) : V2 m c main_v9 = gateOut (accAt (V1 m) c 2 (by rw [show cfg0.N = 3 from N_0]; decide)) (V1 m c main_v8) :=
  (W2_arr m c 3).trans (out0_arr (V1 m) c)

section Arrays1

variable (V : (c : Dev nD) → (b : Ref sig .tc) → Buf (Elt F) ((c : Thread nD τ).loc b))

/-- Each input block of the second region, at its one point, is the whole array. -/
theorem iblk1_whole0 (c : Dev nD) (t : Fin cfg1.N) : iblk1 V c 0 t = V c main_v10 := by
  have hz : (fun a => win1_0.index t a * main_v10.ty.shape.size a) = fun _ => 0 :=
    funext fun a => by rw [(whole_idx1 t).1 a, Nat.zero_mul]
  exact Memref.read_access_unit_zero (Elt F) main_v10 hz (fun a => by rw [congrFun hz a, Nat.zero_add]) (V c main_v10)
theorem iblk1_whole1 (c : Dev nD) (t : Fin cfg1.N) : iblk1 V c 1 t = V c main_v11 := by
  have hz : (fun a => win1_1.index t a * main_v11.ty.shape.size a) = fun _ => 0 :=
    funext fun a => by rw [(whole_idx1 t).2.1 a, Nat.zero_mul]
  exact Memref.read_access_unit_zero (Elt F) main_v11 hz (fun a => by rw [congrFun hz a, Nat.zero_add]) (V c main_v11)
theorem iblk1_whole2 (c : Dev nD) (t : Fin cfg1.N) : iblk1 V c 2 t = V c main_v12 := by
  have hz : (fun a => win1_2.index t a * main_v12.ty.shape.size a) = fun _ => 0 :=
    funext fun a => by rw [(whole_idx1 t).2.2.1 a, Nat.zero_mul]
  exact Memref.read_access_unit_zero (Elt F) main_v12 hz (fun a => by rw [congrFun hz a, Nat.zero_add]) (V c main_v12)

/-- The second region's output array after its one write-back: the payload of the three input arrays. -/
theorem out1_arr (c : Dev nD) :
    (dat1 V c).arrAt 3 cfg1.N = k1_pay1 (V c main_v10) (V c main_v11) (V c main_v12) := by
  refine (dat1 V c).arrAt_eq_of_cover 3 _ (fun t hf => ?_) (fun i => ⟨t1_0, flush1_3 t1_0, ?_⟩)
  · show (cfg1.win 3).cut (grid1.coords t) ((dat1 V c).after 3 t) = _
    rw [after1_3, iblk1_whole0, iblk1_whole1, iblk1_whole2, fcOut_eq]
    have hz : (fun a => win1_3.index t a * main_v13.ty.shape.size a) = fun _ => 0 :=
      funext fun a => by rw [(whole_idx1 t).2.2.2 a, Nat.zero_mul]
    exact (Memref.read_access_unit_zero (Elt F) main_v13 hz (fun a => by rw [congrFun hz a, Nat.zero_add]) _).symm
  · show i ∈ ((View.whole main_v13).slice (win1_3.rect t1_0)).set
    rw [View.set_slice_whole]
    have hz : (fun a => win1_3.index t1_0 a * win1_3.size a) = fun _ => 0 :=
      funext fun a => by rw [(whole_idx1 t1_0).2.2.2 a, Nat.zero_mul]
    exact View.mem_set_unit_zero (S := main_v13.ty.shape) hz _ i

end Arrays1

/-- The result array at the end of the run: the last layer's payload of the second stretch's three arrays. -/
theorem out_val (c : Dev nD) : W4 m c (Proc.devRef .tc main_v13) = k1_pay1 (V3 m c main_v10) (V3 m c main_v11) (V3 m c main_v12) :=
  (W4_arr m c 3).trans (out1_arr (V3 m) c)

end Cert.KernelIdeal.Hand

end
-- ==== Proof.KI.BridgeZW.lean ====
/-
  The kernel's three staged arrays read at an index, over the extended reals.
  The staged row array is the initial hidden state laid along every batch row and followed by the features of the
  last time step; the staged weight array is the four gate weight matrices side by side; the staged cell row is the
  initial cell state as a one-row matrix. A change of float format is the identity over the extended reals, a
  concatenation along the columns picks its piece by the column, a broadcast forgets the broadcast coordinates, and
  the slice at time 511 followed by the removal of the unit axis reads the features at time 511.
-/
import proofs.«157235_j5179730559367_1_alg».proof.Proof.Gen.KernelIdeal.Launch
import proofs.«157235_j5179730559367_1_alg».proof.Proof.Gen.KernelIdeal.Skeleton
import proofs.«157235_j5179730559367_1_alg».proof.Proof.Gen.KernelIdeal.Points
import proofs.«157235_j5179730559367_1_alg».proof.Proof.KI.FcDefs
import proofs.«157235_j5179730559367_1_alg».proof.Proof.KI.GateDefs
import proofs.«157235_j5179730559367_1_alg».proof.Proof.KI.RunDefs
import proofs.«157235_j5179730559367_1_alg».proof.Proof.KI.KVal
import proofs.«157235_j5179730559367_1_alg».proof.Proof.Spec
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.ValueLayout
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable (m : (ℓ : Loc nD τ sig) → Buf (Elt Ideal) ℓ) (c : Dev nD)

/-- A vector laid along a new leading unit axis, read at an entry. -/
theorem row_of_vec_apply {n : Nat} (h : (⟨1, ![n]⟩ : Shape).BroadcastsInDim ⟨2, ![1, n]⟩ (![1] : Fin 1 → Fin 2))
    (x : (⟨1, ![n]⟩ : Shape).Idx → EReal) (r : Fin 1) (j : Fin n) :
    broadcastInDim (⟨2, ![1, n]⟩ : Shape) ![1] h x (ix2 r j) = x (ix1 j) := by
  refine broadcastInDim_apply _ h x (ix2 r j) (ix1 j) ?_
  intro a
  match a with
  | ⟨0, _⟩ =>
    show j.val = if n = 1 then 0 else j.val
    by_cases hn : n = 1
    · rw [if_pos hn]; have := j.isLt; omega
    · rw [if_neg hn]

/-- A one-row matrix laid along every row of a taller one, read at an entry. -/
theorem rows_of_row_apply {a n : Nat} (h : (⟨2, ![1, n]⟩ : Shape).BroadcastsInDim ⟨2, ![a, n]⟩ (![0, 1] : Fin 2 → Fin 2))
    (x : (⟨2, ![1, n]⟩ : Shape).Idx → EReal) (b : Fin a) (j : Fin n) :
    broadcastInDim (⟨2, ![a, n]⟩ : Shape) ![0, 1] h x (ix2 b j) = x (ix2 0 j) := by
  refine broadcastInDim_apply _ h x (ix2 b j) (ix2 0 j) ?_
  intro q
  match q with
  | ⟨0, _⟩ => rfl
  | ⟨1, _⟩ =>
    show j.val = if n = 1 then 0 else j.val
    by_cases hn : n = 1
    · rw [if_pos hn]; have := j.isLt; omega
    · rw [if_neg hn]

/-- Four matrices of one width `K` side by side, read at an entry: column `q * K + j` is column `j` of piece `q`. -/
theorem four_side_by_side_apply {R K N : Nat}
    (h : Shape.Concatenates [(⟨2, ![R, K]⟩ : Shape), ⟨2, ![R, K]⟩, ⟨2, ![R, K]⟩, ⟨2, ![R, K]⟩] (⟨2, ![R, N]⟩ : Shape) (1 : Fin 2))
    (x0 x1 x2 x3 : (⟨2, ![R, K]⟩ : Shape).Idx → EReal) (r : Fin R) (n : Fin N) (q : Fin 4) (j : Fin K)
    (hq : n.val = q.val * K + j.val) :
    concatenate (⟨2, ![R, N]⟩ : Shape) (1 : Fin 2) [⟨(⟨2, ![R, K]⟩ : Shape), x0⟩, ⟨(⟨2, ![R, K]⟩ : Shape), x1⟩, ⟨(⟨2, ![R, K]⟩ : Shape), x2⟩, ⟨(⟨2, ![R, K]⟩ : Shape), x3⟩] h (ix2 r n)
      = (![x0, x1, x2, x3] q) (ix2 r j) := by
  have hK : 0 < K := Nat.lt_of_le_of_lt (Nat.zero_le _) j.isLt
  refine concatenate_ofFn_apply (t := (⟨2, ![R, N]⟩ : Shape)) (s₁ := (⟨2, ![R, K]⟩ : Shape)) (1 : Fin 2) (fun p : Fin 4 => ![x0, x1, x2, x3] p) h rfl K rfl (ix2 r n) q ?_ (ix2 r j) ?_ ?_
  · show n.val / K = q.val
    rw [hq, Nat.add_comm, Nat.add_mul_div_right _ _ hK, Nat.div_eq_of_lt j.isLt, Nat.zero_add]
  · show j.val = n.val % K
    rw [hq, Nat.add_comm, Nat.add_mul_mod_self_right, Nat.mod_eq_of_lt j.isLt]
  · intro a ha
    match a, ha with
    | ⟨0, _⟩, _ => rfl
    | ⟨1, _⟩, ha => exact absurd rfl ha

theorem Z_apply (b : Fin 32) (k : Fin 1536) : V1 m c main_v6 (ix2 b k) = Cert.Spec.z (m ((c : Thread nD τ).loc main_arg0)) (m ((c : Thread nD τ).loc main_arg1)) b k := by
  rw [v6_val m c]
  unfold Cert.Spec.z
  by_cases hk : k.val < 1024
  · rw [dif_pos hk]
    refine (concatenate_pair_apply_left (t := S32x1536) (s₁ := S32x1024) (s₂ := S32x512) (1 : Fin 2) _ _ concatenates_S32x1024_S32x512_S32x1536_d1 (ix2 b k) rfl (ix2 b (⟨k.val, hk⟩ : Fin 1024)) ?_).trans ?_
    · intro q
      match q with
      | ⟨0, _⟩ => rfl
      | ⟨1, _⟩ => rfl
    · rw [rows_of_row_apply, row_of_vec_apply]
  · rw [dif_neg hk]
    have hk' : k.val - 1024 < 512 := by have := k.isLt; omega
    refine (concatenate_pair_apply_right (t := S32x1536) (s₁ := S32x1024) (s₂ := S32x512) (1 : Fin 2) _ _ concatenates_S32x1024_S32x512_S32x1536_d1 (ix2 b k) rfl rfl (ix2 b (⟨k.val - 1024, hk'⟩ : Fin 512)) ?_ ?_).trans ?_
    · intro q hq
      match q, hq with
      | ⟨0, _⟩, _ => rfl
      | ⟨1, _⟩, hq => exact absurd rfl hq
    · show (k.val - 1024) + 1024 = k.val
      omega
    · refine (shapeCast_apply _ shapeCasts_S32x1x512_S32x512 (ix2 b (⟨k.val - 1024, hk'⟩ : Fin 512)) (ix3 b (0 : Fin 1) (⟨k.val - 1024, hk'⟩ : Fin 512)) ?_).trans ?_
      · rw [Shape.rowMajor_val_three, Shape.rowMajor_val_two]
        show (b.val * 1 + 0) * 512 + (k.val - 1024) = b.val * 512 + (k.val - 1024)
        omega
      · exact slice3_axis1_apply 511 _ slices_S32x512x512_S32x1x512_0_511_0 b (0 : Fin 1) ⟨k.val - 1024, hk'⟩ (⟨511, by decide⟩ : Fin 512) rfl

theorem W_apply (k : Fin 1536) (n : Fin 4096) : V1 m c main_v7 (ix2 k n) = Cert.Spec.wall (m ((c : Thread nD τ).loc main_arg3)) (m ((c : Thread nD τ).loc main_arg4)) (m ((c : Thread nD τ).loc main_arg5)) (m ((c : Thread nD τ).loc main_arg6)) k n := by
  rw [v7_val m c]
  unfold Cert.Spec.wall
  by_cases h1 : n.val < 1024
  · rw [dif_pos h1]
    exact four_side_by_side_apply (R := 1536) (K := 1024) (N := 4096) concatenates_S1536x1024_S1536x1024_S1536x1024_S1536x1024_S1536x4096_d1 _ _ _ _ k n (0 : Fin 4) ⟨n.val, h1⟩ (by show n.val = 0 * 1024 + n.val; omega)
  · rw [dif_neg h1]
    by_cases h2 : n.val < 2048
    · rw [dif_pos h2]
      exact four_side_by_side_apply (R := 1536) (K := 1024) (N := 4096) concatenates_S1536x1024_S1536x1024_S1536x1024_S1536x1024_S1536x4096_d1 _ _ _ _ k n (1 : Fin 4) ⟨n.val - 1024, by omega⟩ (by show n.val = 1 * 1024 + (n.val - 1024); omega)
    · rw [dif_neg h2]
      by_cases h3 : n.val < 3072
      · rw [dif_pos h3]
        exact four_side_by_side_apply (R := 1536) (K := 1024) (N := 4096) concatenates_S1536x1024_S1536x1024_S1536x1024_S1536x1024_S1536x4096_d1 _ _ _ _ k n (2 : Fin 4) ⟨n.val - 2048, by omega⟩ (by show n.val = 2 * 1024 + (n.val - 2048); omega)
      · rw [dif_neg h3]
        exact four_side_by_side_apply (R := 1536) (K := 1024) (N := 4096) concatenates_S1536x1024_S1536x1024_S1536x1024_S1536x1024_S1536x4096_d1 _ _ _ _ k n (3 : Fin 4) ⟨n.val - 3072, by have := n.isLt; omega⟩ (by show n.val = 3 * 1024 + (n.val - 3072); have := n.isLt; omega)

theorem C_apply (r : Fin 1) (j : Fin 1024) : V1 m c main_v8 (ix2 r j) = m ((c : Thread nD τ).loc main_arg2) (ix1 j) := by
  rw [v8_val m c]
  exact row_of_vec_apply bcast_S1024_S1x1024_1 _ r j

end Cert.KernelIdeal.Hand

end
-- ==== Proof.LibDot.lean ====
/-
  A plain matrix product read at an entry. For the dimension numbers "contract the left operand's columns with the
  right operand's rows, no batch axis", both the vector unit's product into a zero accumulator and the host's
  product are, at entry (r, c) and over the extended reals, the sum over k of x(r, k) · w(k, c).
-/
import Idealize.ShloMosaic.PureOps.Ideal
import Idealize.ShloMosaic.PureOps.Ideal.Laws
import Idealize.ShloMosaic.Lib.ValueIdx

noncomputable section

open scoped BigOperators

namespace Cert.LibDot

open Idealize.ShloMosaic Idealize.ShloMosaic.ValueIdx

/-! ## The four coordinates of the operand indices

  With the left operand's rows the only free left axis, the right operand's columns the only free right axis and
  one shared axis, the left operand is read at (row of the entry, shared coordinate) and the right operand at
  (shared coordinate, column of the entry). Each of the four coordinates is its own statement, at the literal axis. -/

section Axes

variable {R K C : Nat} (d : DotDims ⟨2, ![R, K]⟩ ⟨2, ![K, C]⟩ ⟨2, ![R, C]⟩)

/-- One shared axis. -/
theorem rank_contr_one (hl : d.lhsContracting = [1]) : d.contr.rank = 1 := by
  rw [d.rank_contr, hl]; rfl

/-- The shared axis has the left operand's column count. -/
theorem size_contr_zero (hl : d.lhsContracting = [1]) :
    d.contr.size ⟨0, by rw [rank_contr_one d hl]; exact Nat.one_pos⟩ = K := by
  have h := d.size_contr 0 (by rw [hl]; exact Nat.one_pos)
  rw [h]
  have h1 : d.lhsContracting[0]'(by rw [hl]; exact Nat.one_pos) = (1 : Fin 2) := by simp [hl]
  rw [h1]; rfl

/-- The left operand's row coordinate is the entry's row. -/
theorem lhs_axis0 (hln : d.lhsNonContracting = [0]) (hlb : d.lhsBatch = [])
    (j : (⟨2, ![R, C]⟩ : Shape).Idx) (k : d.contr.Idx) : (d.lhsIdx j k 0 : ℕ) = (j 0 : ℕ) := by
  unfold DotDims.lhsIdx
  rw [dif_neg (by rw [hlb]; exact List.not_mem_nil), dif_pos (by rw [hln]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The left operand's column coordinate is the shared coordinate. -/
theorem lhs_axis1 (hl : d.lhsContracting = [1]) (j : (⟨2, ![R, C]⟩ : Shape).Idx) (k : d.contr.Idx) :
    (d.lhsIdx j k 1 : ℕ) = (k ⟨0, by rw [rank_contr_one d hl]; exact Nat.one_pos⟩ : ℕ) :=
  d.lhsIdx_val_of_single hl j k

/-- The right operand's row coordinate is the shared coordinate. -/
theorem rhs_axis0 (hl : d.lhsContracting = [1]) (hr : d.rhsContracting = [0]) (j : (⟨2, ![R, C]⟩ : Shape).Idx)
    (k : d.contr.Idx) : (d.rhsIdx j k 0 : ℕ) = (k ⟨0, by rw [rank_contr_one d hl]; exact Nat.one_pos⟩ : ℕ) :=
  d.rhsIdx_val_of_single hr j k

/-- The right operand's column coordinate is the entry's column. -/
theorem rhs_axis1 (hln : d.lhsNonContracting = [0]) (hrn : d.rhsNonContracting = [1]) (hlb : d.lhsBatch = [])
    (hrb : d.rhsBatch = []) (j : (⟨2, ![R, C]⟩ : Shape).Idx) (k : d.contr.Idx) : (d.rhsIdx j k 1 : ℕ) = (j 1 : ℕ) := by
  unfold DotDims.rhsIdx
  rw [dif_neg (by rw [hrb]; exact List.not_mem_nil), dif_pos (by rw [hrn]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

end Axes

/-- The contraction sum of a plain product, re-indexed by the shared axis's coordinate: the left operand is read
    at (r, k), the right one at (k, c). -/
theorem contr_sum_plain {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (x : FVec Ideal ⟨2, ![R, K]⟩ φ₁) (w : FVec Ideal ⟨2, ![K, C]⟩ φ₂) (r : Fin R) (c : Fin C) :
    (∑ k : d.contr.Idx, x (d.lhsIdx (ix2 r c) k) * w (d.rhsIdx (ix2 r c) k)) = ∑ k : Fin K, x (ix2 r k) * w (ix2 k c) := by
  rw [← Equiv.sum_comp (contrEquiv1 d K (rank_contr_one d hl) (size_contr_zero d hl)).symm]
  refine Finset.sum_congr rfl fun k _ => ?_
  have hk := contrEquiv1_symm_val d K (rank_contr_one d hl) (size_contr_zero d hl) k
  have hx : d.lhsIdx (ix2 r c) ((contrEquiv1 d K (rank_contr_one d hl) (size_contr_zero d hl)).symm k) = ix2 r k := by
    funext a
    match a with
    | ⟨0, _⟩ => exact Fin.ext (lhs_axis0 d hln hlb _ _)
    | ⟨1, _⟩ => exact Fin.ext ((lhs_axis1 d hl _ _).trans hk)
  have hw : d.rhsIdx (ix2 r c) ((contrEquiv1 d K (rank_contr_one d hl) (size_contr_zero d hl)).symm k) = ix2 k c := by
    funext a
    match a with
    | ⟨0, _⟩ => exact Fin.ext ((rhs_axis0 d hl hr _ _).trans hk)
    | ⟨1, _⟩ => exact Fin.ext (rhs_axis1 d hln hrn hlb hrb _ _)
  rw [hx, hw]

/-- The vector unit's product into the zero accumulator, at entry (r, c). -/
theorem matmul_zero_at {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (prec : Option ContractPrecision) (x : FVec Ideal ⟨2, ![R, K]⟩ φ₁) (w : FVec Ideal ⟨2, ![K, C]⟩ φ₂) (r : Fin R) (c : Fin C) :
    FloatOps.matmul d prec x w (constant ⟨2, ![R, C]⟩ .f32 0x00000000#32) (ix2 r c) = ∑ k : Fin K, x (ix2 r k) * w (ix2 k c) := by
  rw [Ideal.matmul_constant_zero_apply]
  exact contr_sum_plain d hl hr hln hrn hlb hrb x w r c

/-- The host's product, at entry (r, c). -/
theorem dotGeneral_at {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (prec : Option ContractPrecision) (sched : HostSchedule) (x : FVec Ideal ⟨2, ![R, K]⟩ φ₁) (w : FVec Ideal ⟨2, ![K, C]⟩ φ₂)
    (r : Fin R) (c : Fin C) :
    FloatOps.dotGeneral d prec sched x w (ix2 r c) = ∑ k : Fin K, x (ix2 r k) * w (ix2 k c) := by
  rw [Ideal.dotGeneral_apply]
  exact contr_sum_plain d hl hr hln hrn hlb hrb x w r c

end Cert.LibDot

end
-- ==== Proof.KI.BridgeAcc.lean ====
/-
  The gate kernel's running sum, read at an entry, over the extended reals.
  The grid has three points, one per block of 512 along the contracted axis of length 1536. The first point clears
  the scratch and adds the product of the first blocks, each later point adds the product of its blocks to what the
  point before left. Each partial product at entry (b, n) is the sum over 512 positions of a row block of the left
  array against a column block of the right one; a block's entry is the array's entry at (block number × 512 + the
  position inside the block). Addition in the extended reals is associative with neutral element zero, so the three
  partial sums regroup into the one sum over the 1536 positions of the contracted axis.
-/
import proofs.«157235_j5179730559367_1_alg».proof.Proof.Gen.KernelIdeal.Launch
import proofs.«157235_j5179730559367_1_alg».proof.Proof.Gen.KernelIdeal.Skeleton
import proofs.«157235_j5179730559367_1_alg».proof.Proof.Gen.KernelIdeal.Points
import proofs.«157235_j5179730559367_1_alg».proof.Proof.KI.FcDefs
import proofs.«157235_j5179730559367_1_alg».proof.Proof.KI.GateDefs
import proofs.«157235_j5179730559367_1_alg».proof.Proof.KI.RunDefs
import proofs.«157235_j5179730559367_1_alg».proof.Proof.KI.KVal
import proofs.«157235_j5179730559367_1_alg».proof.Proof.Spec
import proofs.«157235_j5179730559367_1_alg».proof.Proof.LibDot
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.PureOps.Ideal.Laws
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

/-! ## A sum over 1536 positions is the sum of its three stretches of 512 -/

section Split

theorem sum_three_blocks {M : Type*} [AddCommMonoid M] (f : Fin 1536 → M) :
    ∑ k : Fin 1536, f k
      = (∑ k : Fin 512, f ⟨k.val, by have := k.isLt; omega⟩) + (∑ k : Fin 512, f ⟨512 + k.val, by have := k.isLt; omega⟩)
        + ∑ k : Fin 512, f ⟨1024 + k.val, by have := k.isLt; omega⟩ := by
  show ∑ k : Fin (512 + 512 + 512), f k = _
  rw [Fin.sum_univ_add, Fin.sum_univ_add]
  rfl

end Split

/-! ## One point's step at an entry -/

section Step

/-- A later point: the entry of what the point before left, plus the 512 products of the point's blocks. -/
theorem accB_apply (xs : FVec Ideal S32x4096 .f32) (z : FVec Ideal S32x512 .bf16) (w : FVec Ideal S512x4096 .bf16)
    (b : Fin 32) (n : Fin 4096) :
    accB (F := Ideal) xs z w (ix2 b n) = xs (ix2 b n) + ∑ k : Fin 512, z (ix2 b k) * w (ix2 k n) := by
  unfold accB k0_pay2
  simp only [shapeCast_self]
  rw [addf_apply]
  congr 1
  exact Cert.LibDot.matmul_zero_at dot_S32x512_S512x4096_S32x4096_1_0_0_1_n_n rfl rfl rfl rfl rfl rfl none z w b n

/-- The first point: the scratch is cleared first, so the entry is the 512 products of the first blocks. -/
theorem accA_apply (z : FVec Ideal S32x512 .bf16) (w : FVec Ideal S512x4096 .bf16) (b : Fin 32) (n : Fin 4096) :
    accA (F := Ideal) z w (ix2 b n) = ∑ k : Fin 512, z (ix2 b k) * w (ix2 k n) := by
  unfold accA
  refine (accB_apply (k0_pay1 (F := Ideal)) z w b n).trans ?_
  have h0 : (k0_pay1 (F := Ideal)) (ix2 b n) = 0 := by
    unfold k0_pay1
    simp only [shapeCast_self]
    rw [broadcast_apply]
    exact Ideal.ofBits_zero_f32
  rw [h0, zero_add]

end Step

/-! ## A block's entry is the array's entry at block number × 512 + the position inside the block -/

section Blocks

variable (m : (ℓ : Loc nD τ sig) → Buf (Elt Ideal) ℓ) (c : Dev nD)

/-- The windows' block indices at each grid point: the left window walks along the columns, the right one along the rows. -/
theorem idx_facts : ∀ t : Fin cfg0.N, win0_0.index t (0 : Fin 2) = 0 ∧ win0_0.index t (1 : Fin 2) = t.val
    ∧ win0_1.index t (0 : Fin 2) = t.val ∧ win0_1.index t (1 : Fin 2) = 0 :=
  (by decide +kernel : ∀ t : Fin grid0.N, win0_0.index t (0 : Fin 2) = 0 ∧ win0_0.index t (1 : Fin 2) = t.val
    ∧ win0_1.index t (0 : Fin 2) = t.val ∧ win0_1.index t (1 : Fin 2) = 0)

/-- Block `t` of the left array: its column `k` is the array's column `512·t + k`. -/
theorem zblk_apply (t : Fin cfg0.N) (b : Fin 32) (k : Fin 512) (j : Fin 1536) (hj : j.val = 512 * t.val + k.val) :
    (iblk0 (V1 m) c 0 t : FVec Ideal S32x512 .bf16) (ix2 b k) = V1 m c main_v6 (ix2 b j) := by
  rw [blk0_val m c t]
  show V1 m c main_v6 (((cfg0.win 0).blk t).view.emb (ix2 b k)) = _
  obtain ⟨e0, e1, -, -⟩ := idx_facts t
  congr 1
  funext a; apply Fin.ext
  match a with
  | ⟨0, _⟩ => show win0_0.index t (0 : Fin 2) * 32 + 1 * b.val = b.val; omega
  | ⟨1, _⟩ => show win0_0.index t (1 : Fin 2) * 512 + 1 * k.val = j.val; omega

/-- Block `t` of the right array: its row `k` is the array's row `512·t + k`. -/
theorem wblk_apply (t : Fin cfg0.N) (k : Fin 512) (n : Fin 4096) (j : Fin 1536) (hj : j.val = 512 * t.val + k.val) :
    (iblk0 (V1 m) c 1 t : FVec Ideal S512x4096 .bf16) (ix2 k n) = V1 m c main_v7 (ix2 j n) := by
  rw [blk1_val m c t]
  show V1 m c main_v7 (((cfg0.win 1).blk t).view.emb (ix2 k n)) = _
  obtain ⟨-, -, e0, e1⟩ := idx_facts t
  congr 1
  funext a; apply Fin.ext
  match a with
  | ⟨0, _⟩ => show win0_1.index t (0 : Fin 2) * 512 + 1 * k.val = j.val; omega
  | ⟨1, _⟩ => show win0_1.index t (1 : Fin 2) * 4096 + 1 * n.val = n.val; omega

/-- A point's partial product at an entry, over the arrays: the 512 products of the point's stretch. -/
theorem part_apply (t : Fin cfg0.N) (b : Fin 32) (n : Fin 4096) (j : Fin 512 → Fin 1536)
    (hj : ∀ k : Fin 512, (j k).val = 512 * t.val + k.val) :
    (∑ k : Fin 512, HMul.hMul (α := EReal) (β := EReal) (γ := EReal) (iblk0 (V1 m) c 0 t (ix2 b k)) (iblk0 (V1 m) c 1 t (ix2 k n)))
      = ∑ k : Fin 512, HMul.hMul (α := EReal) (β := EReal) (γ := EReal) (V1 m c main_v6 (ix2 b (j k))) (V1 m c main_v7 (ix2 (j k) n)) :=
  Finset.sum_congr rfl fun k _ => by
    rw [zblk_apply m c t b k (j k) (hj k), wblk_apply m c t k n (j k) (hj k)]

end Blocks

/-! ## The scratch after the last point -/

section Whole

variable (m : (ℓ : Loc nD τ sig) → Buf (Elt Ideal) ℓ) (c : Dev nD)

theorem acc_apply (b : Fin 32) (n : Fin 4096) :
    accAt (V1 m) c 2 (by rw [show cfg0.N = 3 from N_0]; decide) (ix2 b n) = ∑ k : Fin 1536, HMul.hMul (α := EReal) (β := EReal) (γ := EReal) (V1 m c main_v6 (ix2 b k)) (V1 m c main_v7 (ix2 k n)) := by
  have q0 := part_apply m c ⟨0, by rw [show cfg0.N = 3 from N_0]; decide⟩ b n (fun k => ⟨k.val, by have := k.isLt; omega⟩)
    (fun k => by show k.val = 512 * 0 + k.val; omega)
  have q1 := part_apply m c ⟨1, by rw [show cfg0.N = 3 from N_0]; decide⟩ b n (fun k => ⟨512 + k.val, by have := k.isLt; omega⟩)
    (fun k => by show 512 + k.val = 512 * 1 + k.val; omega)
  have q2 := part_apply m c ⟨2, by rw [show cfg0.N = 3 from N_0]; decide⟩ b n (fun k => ⟨1024 + k.val, by have := k.isLt; omega⟩)
    (fun k => by show 1024 + k.val = 512 * 2 + k.val; omega)
  rw [sum_three_blocks]
  show accB (accB (accA (iblk0 (V1 m) c 0 ⟨0, _⟩) (iblk0 (V1 m) c 1 ⟨0, _⟩)) (iblk0 (V1 m) c 0 ⟨1, _⟩) (iblk0 (V1 m) c 1 ⟨1, _⟩))
    (iblk0 (V1 m) c 0 ⟨2, _⟩) (iblk0 (V1 m) c 1 ⟨2, _⟩) (ix2 b n) = _
  rw [accB_apply, accB_apply, accA_apply]
  exact congrArg₂ (· + ·) (congrArg₂ (· + ·) q0 q1) q2

end Whole

end Cert.KernelIdeal.Hand

end
-- ==== Proof.LibRowRead.lean ====
/-
  Reading row-wise operations of an R × C matrix at one index, over the extended reals.

  A reduction over the column axis, read at row r, ranges over the entries (r, c), c < C: with a maximum body it is
  the fold of max from the initial value over them, with an add body the initial value plus their sum. A vector with
  one entry per row, made a column and spread along the rows, reads at (r, c) the vector's entry r; a vector with one
  entry per column, made a row and spread down the columns, reads at (r, c) the vector's entry c.
-/
import Idealize.ShloMosaic.PureOps.Reduce
import Idealize.ShloMosaic.PureOps.Ideal
import Idealize.ShloMosaic.PureOps.Ideal.Laws
import Idealize.ShloMosaic.Lib.ValueIdx
import Idealize.ShloMosaic.Lib.IdealHost
import Idealize.ShloMosaic.Lib.Pipeline.Value

noncomputable section

open scoped BigOperators

namespace Cert.LibRowRead

open Idealize.ShloMosaic Idealize.ShloMosaic.ValueIdx

/-- The row index r with the column coordinate k put back is (r, k). -/
theorem lift_row {R C : Nat} (h : (⟨2, ![R, C]⟩ : Shape).Reduces [1] (⟨1, ![R]⟩ : Shape)) (r : Fin R)
    (k : Fin ((⟨2, ![R, C]⟩ : Shape).size 1)) : h.lift (ix1 r) k = ix2 r (⟨k.val, k.isLt⟩ : Fin C) := by
  funext c; apply Fin.ext
  match c with
  | ⟨0, _⟩ => rfl
  | ⟨1, _⟩ => rfl

/-- The host's reduce with a maximum body over the columns, at row r: the fold of max over the row from the initial value. -/
theorem hostReduceMax_row {R C : Nat} (x : FVec Ideal ⟨2, ![R, C]⟩ .f32) (b : BitVec 32)
    (h' : (⟨2, ![R, C]⟩ : Shape).ReducesTo [1] (⟨1, ![R]⟩ : Shape)) (h : (⟨2, ![R, C]⟩ : Shape).Reduces [1] (⟨1, ![R]⟩ : Shape))
    (hu : 0 < (⟨0, ![]⟩ : Shape).numel) (r : Fin R) :
    Host.reduce FloatOps.maximumf x (constant (F := Ideal) (⟨0, ![]⟩ : Shape) .f32 b) h' hu (ix1 r)
      = (Finset.univ : Finset (Fin C)).fold max (Ideal.ofBits .f32 b) (fun c => x (ix2 r c)) := by
  rw [Host.reduce_eq_fold_single FloatOps.maximumf x _ h' h hu]
  have hf : (x ∘ h.lift (ix1 r)) = fun k : Fin C => x (ix2 r k) := funext fun k => congrArg x (lift_row h r k)
  exact congrArg (fun f => Finset.fold max (Ideal.ofBits .f32 b) f (Finset.univ : Finset (Fin C))) hf

/-- The host's reduce with an add body over the columns, at row r: the initial value plus the row's sum. -/
theorem hostReduceAdd_row {R C : Nat} {φ : FTy} (x : FVec Ideal ⟨2, ![R, C]⟩ φ) (init : (⟨0, ![]⟩ : Shape).Idx → Ideal φ)
    (h' : (⟨2, ![R, C]⟩ : Shape).ReducesTo [1] (⟨1, ![R]⟩ : Shape)) (h : (⟨2, ![R, C]⟩ : Shape).Reduces [1] (⟨1, ![R]⟩ : Shape))
    (hu : 0 < (⟨0, ![]⟩ : Shape).numel) (r : Fin R) :
    Host.reduceAdd x init h' hu (ix1 r) = init (Shape.Idx.first hu) + ∑ c : Fin C, x (ix2 r c) := by
  rw [hostReduceAdd_apply, Ideal.hostReduceAdd_single h' h]
  refine congrArg (fun s => init (Shape.Idx.first hu) + s) ?_
  exact Finset.sum_congr rfl fun k _ => congrArg x (lift_row h r k)

/-- A vector of n entries made an n × 1 column reads, at (e, 0), its entry e. -/
theorem bcast_column_apply {α : Type} {n : Nat} (h : (⟨1, ![n]⟩ : Shape).BroadcastsInDim (⟨2, ![n, 1]⟩ : Shape) ![0])
    (v : (⟨1, ![n]⟩ : Shape).Idx → α) (e : Fin n) (z : Fin 1) :
    broadcastInDim (⟨2, ![n, 1]⟩ : Shape) ![0] h v (ix2 e z) = v (ix1 e) := by
  refine broadcastInDim_apply _ h v _ (ix1 e) fun a => ?_
  match a with
  | ⟨0, _⟩ =>
    show e.val = if n = 1 then 0 else e.val
    split
    · have := e.isLt; omega
    · rfl

/-- An R × 1 column spread along the rows reads, at (r, c), the column's entry r. -/
theorem bcast_alongRows_apply {α : Type} {R C : Nat} (h2 : (⟨2, ![R, 1]⟩ : Shape).BroadcastsInDim (⟨2, ![R, C]⟩ : Shape) ![0, 1])
    (w : (⟨2, ![R, 1]⟩ : Shape).Idx → α) (r : Fin R) (c : Fin C) :
    broadcastInDim (⟨2, ![R, C]⟩ : Shape) ![0, 1] h2 w (ix2 r c) = w (ix2 r (0 : Fin 1)) := by
  refine broadcastInDim_apply _ h2 w _ (ix2 r (0 : Fin 1)) fun a => ?_
  match a with
  | ⟨0, _⟩ =>
    show r.val = if R = 1 then 0 else r.val
    split
    · have := r.isLt; omega
    · rfl
  | ⟨1, _⟩ => rfl

/-- A vector with one entry per row, made a column and spread along the rows, reads at (r, c) its entry r. -/
theorem bcast_perRow_apply {α : Type} {R C : Nat} (h1 : (⟨1, ![R]⟩ : Shape).BroadcastsInDim (⟨2, ![R, 1]⟩ : Shape) ![0])
    (h2 : (⟨2, ![R, 1]⟩ : Shape).BroadcastsInDim (⟨2, ![R, C]⟩ : Shape) ![0, 1])
    (v : (⟨1, ![R]⟩ : Shape).Idx → α) (r : Fin R) (c : Fin C) :
    broadcastInDim (⟨2, ![R, C]⟩ : Shape) ![0, 1] h2 (broadcastInDim (⟨2, ![R, 1]⟩ : Shape) ![0] h1 v) (ix2 r c) = v (ix1 r) := by
  exact (bcast_alongRows_apply h2 _ r c).trans (bcast_column_apply h1 v r 0)

/-- A vector with one entry per column, made a row and spread down the columns, reads at (r, c) its entry c. -/
theorem bcast_perCol_apply {α : Type} {R C : Nat} (h1 : (⟨1, ![C]⟩ : Shape).BroadcastsInDim (⟨2, ![1, C]⟩ : Shape) ![1])
    (h2 : (⟨2, ![1, C]⟩ : Shape).BroadcastsInDim (⟨2, ![R, C]⟩ : Shape) ![0, 1])
    (v : (⟨1, ![C]⟩ : Shape).Idx → α) (r : Fin R) (c : Fin C) :
    broadcastInDim (⟨2, ![R, C]⟩ : Shape) ![0, 1] h2 (broadcastInDim (⟨2, ![1, C]⟩ : Shape) ![1] h1 v) (ix2 r c) = v (ix1 c) := by
  have hc : ∀ m : Nat, ∀ c : Fin C, c.val = if C = 1 then 0 else c.val := fun _ c => by
    split
    · have := c.isLt; omega
    · rfl
  refine (broadcastInDim_apply _ h2 _ _ (ix2 (0 : Fin 1) c) fun a => ?_).trans
    (broadcastInDim_apply _ h1 v _ (ix1 c) fun a => ?_)
  · match a with
    | ⟨0, _⟩ => rfl
    | ⟨1, _⟩ => exact hc 0 c
  · match a with
    | ⟨0, _⟩ => exact hc 0 c

end Cert.LibRowRead

end
-- ==== Proof.LibKeepdims.lean ====
/-
  Layout operations on a COLUMN of per-row values, read at an index given by coordinates — what a body that
  reduces along the last axis with the axis kept (`keepdims`) applies to the reduced vector:
  • an `[a]` vector cast to the column `[a, 1]` reads, at `(p, u)`, the operand at `p`;
  • a column `[a, 1]` broadcast along its unit axis to `[a, b]` reads, at `(p, q)`, the column at `(p, 0)`;
  • a `[1, 1]` array's one element taken at position `(0, 0)` is the array at `(0, 0)`;
  • the vector exponential read at an index is the exponential of the operand's entry (on the extended reals);
  • a sum along the last axis of a matrix, read at row `p`, is the sum over the columns of row `p`'s entries
    (on the extended reals, where the lane reduction is the exact sum).
  Each is the library's general read-at-an-index lemma with the coordinate arithmetic discharged.
-/
import Idealize.ShloMosaic.Lib.Pipeline.Value
import Idealize.ShloMosaic.Lib.ValueIdx
import Idealize.ShloMosaic.PureOps.Ideal.Laws

namespace Idealize.ShloMosaic.ValueIdx

open Idealize.ShloMosaic
open scoped BigOperators

variable {α : Type}

/-- An `[a]` vector cast to the column `[a, 1]` reads, at `(p, u)`, the operand at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, q)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The one element of a `[1, 1]` array taken at position `(0, 0)`. -/
theorem extractAt_11 (v : (⟨2, ![1, 1]⟩ : Shape).Idx → α) (h : ∀ a, (![0, 0] : Fin 2 → Nat) a < (⟨2, ![1, 1]⟩ : Shape).size a) :
    extractAt ![0, 0] v h = v (ix2 (0 : Fin 1) (0 : Fin 1)) := by
  unfold extractAt
  refine congrArg v (funext fun a => Fin.ext ?_)
  match a with
  | ⟨0, _⟩ => rfl
  | ⟨1, _⟩ => rfl

/-- On the extended reals the vector exponential, read at an index, is the exponential of the operand's entry there. -/
theorem exp_apply {s : Shape} {φ : FTy} (x : FVec Ideal s φ) (i : s.Idx) : exp x i = Ideal.exp (x i) := rfl

/-- On the extended reals, the sum along the last axis of an `[a, b]` matrix read at row `p`: the sum over the columns. -/
theorem multiReduction_add_rows_apply {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.add.neutral .f32 hφ) (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src (funext fun ax => Fin.ext ?_)
  match ax with
  | ⟨0, _⟩ => rfl
  | ⟨1, _⟩ => rfl

end Idealize.ShloMosaic.ValueIdx
-- ==== Proof.Tail.lean ====
/-
  The last stretch of both programs: a rectified-linear clamp followed by a log-softmax along the rows of a
  32 × 1000 matrix, over the extended reals.

  Index by index both spellings compute, with r(b, n) = max (x(b, n), 0) and M b = max (−∞, the maximum of row b
  of r taken from −∞),
      y(b, n) = (r(b, n) − M b) − log (Σ_n' exp (r(b, n') − M b)).
  One spelling reduces along the lanes, turns the per-row vector into a column and spreads the column along the
  rows; the other reduces with a binary body from an initial scalar, and spreads by naming the kept axes. Read
  at an index the two agree term by term: the row maximum is the same fold of max, the row sum the same finite
  sum (the second spelling adds an initial zero), and the exponential and the logarithm are the same functions.
-/
import proofs.«157235_j5179730559367_1_alg».proof.Proof.Gen.KernelIdeal
import proofs.«157235_j5179730559367_1_alg».proof.Proof.Gen.KernelIdeal.Skeleton
import proofs.«157235_j5179730559367_1_alg».proof.Proof.Gen.ReferenceIdeal
import proofs.«157235_j5179730559367_1_alg».proof.Proof.LibRowRead
import proofs.«157235_j5179730559367_1_alg».proof.Proof.LibKeepdims
import Idealize.ShloMosaic.PureOps.Ideal.Laws
import Idealize.ShloMosaic.Lib.ValueIdx
import Idealize.ShloMosaic.Lib.IdealHost
import Idealize.ShloMosaic.Lib.Pipeline.Value

noncomputable section

open scoped BigOperators

namespace Cert.Tail

open Idealize.ShloMosaic Idealize.ShloMosaic.ValueIdx

variable [Cert.KernelIdeal.Facts] [Cert.ReferenceIdeal.Facts]

/-! ## The two spellings -/

/-- the kernel's chain from the value it calls %8 (the logits before the relu) to what it stores: lines %9 … %22 of
    the payload `Cert.KernelIdeal.Gen.k1_pay1` in proof/Proof/Gen/KernelIdeal/Skeleton.lean, copied with %8 a variable -/
def tailK (x : FVec Ideal Cert.KernelIdeal.S32x1000 .f32) : FVec Ideal Cert.KernelIdeal.S32x1000 .f32 :=
  have cst_5 : Ideal .f32 := Scalar.ofBits .f32 0x00000000#32
  have v9 : FVec Ideal Cert.KernelIdeal.S32x1000 .f32 := broadcast Cert.KernelIdeal.S32x1000 cst_5
  have v10 : FVec Ideal Cert.KernelIdeal.S32x1000 .f32 := maximumf x v9
  have v11 : FVec Ideal Cert.KernelIdeal.S32 .f32 := multiReduction .maximumf [1] Cert.KernelIdeal.S32 v10 0xFF800000#32 Cert.KernelIdeal.Facts₀.reduces_S32x1000_S32 (.inl rfl) rfl
  have cst_7 : Ideal .f32 := Scalar.ofBits .f32 0xFF800000#32
  have v12 : FVec Ideal Cert.KernelIdeal.S32 .f32 := broadcast Cert.KernelIdeal.S32 cst_7
  have v13 : FVec Ideal Cert.KernelIdeal.S32 .f32 := maximumf v12 v11
  have v14 : FVec Ideal Cert.KernelIdeal.S32x1 .f32 := shapeCast Cert.KernelIdeal.S32x1 v13 Cert.KernelIdeal.Facts₀.shapeCasts_S32_S32x1
  have v15 : FVec Ideal Cert.KernelIdeal.S32x1000 .f32 := broadcastTo Cert.KernelIdeal.S32x1000 v14 Cert.KernelIdeal.Facts₀.broadcasts_S32x1_S32x1000
  have v16 : FVec Ideal Cert.KernelIdeal.S32x1000 .f32 := subf v10 v15
  have v17 : FVec Ideal Cert.KernelIdeal.S32x1000 .f32 := exp v16
  have v18 : FVec Ideal Cert.KernelIdeal.S32 .f32 := multiReduction .add [1] Cert.KernelIdeal.S32 v17 0x00000000#32 Cert.KernelIdeal.Facts₀.reduces_S32x1000_S32 (.inl rfl) rfl
  have v19 : FVec Ideal Cert.KernelIdeal.S32x1 .f32 := shapeCast Cert.KernelIdeal.S32x1 v18 Cert.KernelIdeal.Facts₀.shapeCasts_S32_S32x1
  have v20 : FVec Ideal Cert.KernelIdeal.S32x1 .f32 := log v19
  have v21 : FVec Ideal Cert.KernelIdeal.S32x1000 .f32 := broadcastTo Cert.KernelIdeal.S32x1000 v20 Cert.KernelIdeal.Facts₀.broadcasts_S32x1_S32x1000
  have v22 : FVec Ideal Cert.KernelIdeal.S32x1000 .f32 := subf v16 v21
  v22

/-- the payload IS tailK of its logits (the payload's own first lines, %1 … %8) -/
theorem k1_pay1_eq (v0 : Vec Ideal Cert.KernelIdeal.S32x1024 .bf16) (v2 : Vec Ideal Cert.KernelIdeal.S1000x1024 .bf16) (v5 : Vec Ideal Cert.KernelIdeal.S1x1000 .f32) :
    Cert.KernelIdeal.Gen.k1_pay1 (F := Ideal) v0 v2 v5 = tailK (addf (matmul Cert.KernelIdeal.dot_S32x1024_S1000x1024_S32x1000_1_1_0_0_n_n none (shapeCast Cert.KernelIdeal.S32x1024 v0 Cert.KernelIdeal.Facts₀.shapeCasts_S32x1024_S32x1024 : FVec Ideal Cert.KernelIdeal.S32x1024 .bf16) (shapeCast Cert.KernelIdeal.S1000x1024 v2 Cert.KernelIdeal.Facts₀.shapeCasts_S1000x1024_S1000x1024 : FVec Ideal Cert.KernelIdeal.S1000x1024 .bf16) (constant Cert.KernelIdeal.S32x1000 .f32 0x00000000#32)) (broadcastTo Cert.KernelIdeal.S32x1000 (shapeCast Cert.KernelIdeal.S1x1000 v5 Cert.KernelIdeal.Facts₀.shapeCasts_S1x1000_S1x1000) Cert.KernelIdeal.Facts₀.broadcasts_S1x1000_S32x1000)) := rfl

/-- the reference's chain from its %40 (the logits before the relu) to its result %42: the bodies of @relu and
    @log_softmax, as the pure term the reference's reading composes operation by operation, with %40 a variable -/
def tailR (x : FVec Ideal Cert.ReferenceIdeal.S32x1000 .f32) : FVec Ideal Cert.ReferenceIdeal.S32x1000 .f32 :=
  have call0_cst : FVec Ideal Cert.ReferenceIdeal.S_ .f32 := constant (F := Ideal) Cert.ReferenceIdeal.S_ .f32 0x00000000#32
  have call0_v0 : FVec Ideal Cert.ReferenceIdeal.S32x1000 .f32 := broadcastInDim Cert.ReferenceIdeal.S32x1000 ![] Cert.ReferenceIdeal.Facts₀.bcast_S_S32x1000 call0_cst
  have v41 : FVec Ideal Cert.ReferenceIdeal.S32x1000 .f32 := maximumf x call0_v0
  have call1_cst : FVec Ideal Cert.ReferenceIdeal.S_ .f32 := constant (F := Ideal) Cert.ReferenceIdeal.S_ .f32 0xFF800000#32
  have call1_v0 : FVec Ideal Cert.ReferenceIdeal.S32 .f32 := Host.reduce FloatOps.maximumf v41 call1_cst Cert.ReferenceIdeal.Facts₀.reducesTo_S32x1000_S32_d1 Cert.ReferenceIdeal.Facts₀.h_S_
  have call1_cst_0 : FVec Ideal Cert.ReferenceIdeal.S_ .f32 := constant (F := Ideal) Cert.ReferenceIdeal.S_ .f32 0xFF800000#32
  have call1_v1 : FVec Ideal Cert.ReferenceIdeal.S32 .f32 := broadcastInDim Cert.ReferenceIdeal.S32 ![] Cert.ReferenceIdeal.Facts₀.bcast_S_S32 call1_cst_0
  have call1_v2 : FVec Ideal Cert.ReferenceIdeal.S32 .f32 := maximumf call1_v1 call1_v0
  have call1_v3 : FVec Ideal Cert.ReferenceIdeal.S32x1 .f32 := broadcastInDim Cert.ReferenceIdeal.S32x1 ![0] Cert.ReferenceIdeal.Facts₀.bcast_S32_S32x1_0 call1_v2
  have call1_v4 : FVec Ideal Cert.ReferenceIdeal.S32x1000 .f32 := broadcastInDim Cert.ReferenceIdeal.S32x1000 ![0, 1] Cert.ReferenceIdeal.Facts₀.bcast_S32x1_S32x1000_0_1 call1_v3
  have call1_v5 : FVec Ideal Cert.ReferenceIdeal.S32x1000 .f32 := subf v41 call1_v4
  have call1_v6 : FVec Ideal Cert.ReferenceIdeal.S32x1000 .f32 := Host.exp call1_v5
  have call1_cst_1 : FVec Ideal Cert.ReferenceIdeal.S_ .f32 := constant (F := Ideal) Cert.ReferenceIdeal.S_ .f32 0x00000000#32
  have call1_v7 : FVec Ideal Cert.ReferenceIdeal.S32 .f32 := Host.reduceAdd call1_v6 call1_cst_1 Cert.ReferenceIdeal.Facts₀.reducesTo_S32x1000_S32_d1 Cert.ReferenceIdeal.Facts₀.h_S_
  have call1_v8 : FVec Ideal Cert.ReferenceIdeal.S32x1 .f32 := broadcastInDim Cert.ReferenceIdeal.S32x1 ![0] Cert.ReferenceIdeal.Facts₀.bcast_S32_S32x1_0 call1_v7
  have call1_v9 : FVec Ideal Cert.ReferenceIdeal.S32x1 .f32 := Host.log call1_v8
  have call1_v10 : FVec Ideal Cert.ReferenceIdeal.S32x1000 .f32 := broadcastInDim Cert.ReferenceIdeal.S32x1000 ![0, 1] Cert.ReferenceIdeal.Facts₀.bcast_S32x1_S32x1000_0_1 call1_v9
  have v42 : FVec Ideal Cert.ReferenceIdeal.S32x1000 .f32 := subf call1_v5 call1_v10
  v42

/-! ## What both compute, index by index -/

/-- The clamp at zero, entry (r, c). -/
def relu0 (x : (⟨2, ![32, 1000]⟩ : Shape).Idx → EReal) (r : Fin 32) (c : Fin 1000) : EReal :=
  max (x (ix2 r c)) (Ideal.ofBits .f32 0x00000000#32)

/-- The shift of row r: the row's maximum taken from −∞, then once more against −∞. -/
def rowTop (y : Fin 32 → Fin 1000 → EReal) (r : Fin 32) : EReal :=
  max (Ideal.ofBits .f32 0xFF800000#32)
    ((Finset.univ : Finset (Fin 1000)).fold max (Ideal.ofBits .f32 0xFF800000#32) (y r))

/-- The log-softmax of the rows of y, entry (r, c): the shifted entry minus the logarithm of the row's sum of
    exponentials of shifted entries. -/
def lsm (y : Fin 32 → Fin 1000 → EReal) (r : Fin 32) (c : Fin 1000) : EReal :=
  (y r c - rowTop y r) - Ideal.log (∑ k : Fin 1000, Ideal.exp (y r k - rowTop y r))

/-- A matrix given on indices, as a function of its two coordinates. -/
abbrev ent (y : (⟨2, ![32, 1000]⟩ : Shape).Idx → EReal) : Fin 32 → Fin 1000 → EReal := fun r c => y (ix2 r c)

/-! ## The first spelling, piece by piece -/

/-- A lane maximum along the last axis of an R × C matrix, read at row r: the fold of max from the accumulator's
    value over the row's entries. -/
theorem laneMax_row {R C : Nat} (src : FVec Ideal ⟨2, ![R, C]⟩ .f32) (acc : BitVec 32)
    (h : (⟨2, ![R, C]⟩ : Shape).Reduces [1] ⟨1, ![R]⟩) (hφ : FKind.Formats FTy.f32)
    (hacc : acc = FKind.maximumf.neutral .f32 hφ) (r : Fin R) :
    multiReduction .maximumf [1] ⟨1, ![R]⟩ src acc h hφ hacc (ix1 r)
      = (Finset.univ : Finset (Fin C)).fold max (Ideal.ofBits .f32 acc) (fun k => src (ix2 r k)) := by
  refine (Ideal.multiReduction_maximumf_single src acc h hφ hacc (ix1 r)).trans ?_
  have hrow : (src ∘ h.lift (ix1 r)) = fun k : Fin C => src (ix2 r k) :=
    funext fun k => congrArg src (Cert.LibRowRead.lift_row h r k)
  exact congrArg (fun f => Finset.fold max (Ideal.ofBits .f32 acc) f (Finset.univ : Finset (Fin C))) hrow

/-- the clamp, as the first spelling writes it -/
def reluK (x : FVec Ideal Cert.KernelIdeal.S32x1000 .f32) : FVec Ideal Cert.KernelIdeal.S32x1000 .f32 :=
  maximumf x (broadcast Cert.KernelIdeal.S32x1000 (Scalar.ofBits .f32 0x00000000#32))

theorem reluK_apply (x : FVec Ideal Cert.KernelIdeal.S32x1000 .f32) (r : Fin 32) (c : Fin 1000) :
    reluK x (ix2 r c) = relu0 x r c := rfl

/-- the per-row shift, as the first spelling writes it -/
def topK (y : FVec Ideal Cert.KernelIdeal.S32x1000 .f32) : FVec Ideal Cert.KernelIdeal.S32 .f32 :=
  maximumf (broadcast Cert.KernelIdeal.S32 (Scalar.ofBits .f32 0xFF800000#32))
    (multiReduction .maximumf [1] Cert.KernelIdeal.S32 y 0xFF800000#32 Cert.KernelIdeal.Facts₀.reduces_S32x1000_S32 (.inl rfl) rfl)

theorem topK_apply (y : FVec Ideal Cert.KernelIdeal.S32x1000 .f32) (r : Fin 32) :
    topK y (ix1 r) = rowTop (ent y) r := by
  show max (Ideal.ofBits .f32 0xFF800000#32) _ = max (Ideal.ofBits .f32 0xFF800000#32) _
  exact congrArg (max (Ideal.ofBits .f32 0xFF800000#32))
    (laneMax_row y 0xFF800000#32 Cert.KernelIdeal.Facts₀.reduces_S32x1000_S32 (.inl rfl) rfl r)

/-- a per-row vector made a column and spread along the rows, as the first spelling writes it -/
def colK (v : FVec Ideal Cert.KernelIdeal.S32 .f32) : FVec Ideal Cert.KernelIdeal.S32x1000 .f32 :=
  broadcastTo Cert.KernelIdeal.S32x1000 (shapeCast Cert.KernelIdeal.S32x1 v Cert.KernelIdeal.Facts₀.shapeCasts_S32_S32x1)
    Cert.KernelIdeal.Facts₀.broadcasts_S32x1_S32x1000

theorem colK_apply (v : FVec Ideal Cert.KernelIdeal.S32 .f32) (r : Fin 32) (c : Fin 1000) :
    colK v (ix2 r c) = v (ix1 r) :=
  (broadcastTo_a1_ab_apply _ Cert.KernelIdeal.Facts₀.broadcasts_S32x1_S32x1000 r c).trans
    (shapeCast_a_a1_apply v Cert.KernelIdeal.Facts₀.shapeCasts_S32_S32x1 r 0)

/-- the shifted entries, as the first spelling writes them -/
def shiftK (y : FVec Ideal Cert.KernelIdeal.S32x1000 .f32) : FVec Ideal Cert.KernelIdeal.S32x1000 .f32 :=
  subf y (colK (topK y))

theorem shiftK_apply (y : FVec Ideal Cert.KernelIdeal.S32x1000 .f32) (r : Fin 32) (c : Fin 1000) :
    shiftK y (ix2 r c) = y (ix2 r c) - rowTop (ent y) r := by
  show y (ix2 r c) - colK (topK y) (ix2 r c) = _
  rw [colK_apply, topK_apply]

/-- the logarithm of the row sums of exponentials, spread along the rows, as the first spelling writes it -/
def lseK (s : FVec Ideal Cert.KernelIdeal.S32x1000 .f32) : FVec Ideal Cert.KernelIdeal.S32x1000 .f32 :=
  broadcastTo Cert.KernelIdeal.S32x1000
    (log (shapeCast Cert.KernelIdeal.S32x1
      (multiReduction .add [1] Cert.KernelIdeal.S32 (exp s) 0x00000000#32 Cert.KernelIdeal.Facts₀.reduces_S32x1000_S32 (.inl rfl) rfl)
      Cert.KernelIdeal.Facts₀.shapeCasts_S32_S32x1))
    Cert.KernelIdeal.Facts₀.broadcasts_S32x1_S32x1000

theorem lseK_apply (s : FVec Ideal Cert.KernelIdeal.S32x1000 .f32) (r : Fin 32) (c : Fin 1000) :
    lseK s (ix2 r c) = Ideal.log (∑ k : Fin 1000, Ideal.exp (s (ix2 r k))) := by
  refine (broadcastTo_a1_ab_apply _ Cert.KernelIdeal.Facts₀.broadcasts_S32x1_S32x1000 r c).trans ?_
  show Ideal.log _ = _
  refine congrArg Ideal.log ((shapeCast_a_a1_apply _ Cert.KernelIdeal.Facts₀.shapeCasts_S32_S32x1 r 0).trans ?_)
  exact multiReduction_add_rows_apply (exp s) 0x00000000#32 Cert.KernelIdeal.Facts₀.reduces_S32x1000_S32 (.inl rfl) rfl r

theorem tailK_eq (x : FVec Ideal Cert.KernelIdeal.S32x1000 .f32) :
    tailK x = subf (shiftK (reluK x)) (lseK (shiftK (reluK x))) := rfl

/-- The first spelling at entry (r, c). -/
theorem tailK_apply (x : FVec Ideal Cert.KernelIdeal.S32x1000 .f32) (r : Fin 32) (c : Fin 1000) :
    tailK x (ix2 r c) = lsm (relu0 x) r c := by
  rw [tailK_eq]
  show shiftK (reluK x) (ix2 r c) - lseK (shiftK (reluK x)) (ix2 r c) = _
  rw [lseK_apply, shiftK_apply]
  simp only [shiftK_apply]
  rfl

/-! ## The second spelling, piece by piece -/

/-- the clamp, as the second spelling writes it -/
def reluR (x : FVec Ideal Cert.ReferenceIdeal.S32x1000 .f32) : FVec Ideal Cert.ReferenceIdeal.S32x1000 .f32 :=
  maximumf x (broadcastInDim Cert.ReferenceIdeal.S32x1000 ![] Cert.ReferenceIdeal.Facts₀.bcast_S_S32x1000
    (constant (F := Ideal) Cert.ReferenceIdeal.S_ .f32 0x00000000#32))

theorem reluR_apply (x : FVec Ideal Cert.ReferenceIdeal.S32x1000 .f32) (r : Fin 32) (c : Fin 1000) :
    reluR x (ix2 r c) = relu0 x r c := rfl

/-- the per-row shift, as the second spelling writes it -/
def topR (y : FVec Ideal Cert.ReferenceIdeal.S32x1000 .f32) : FVec Ideal Cert.ReferenceIdeal.S32 .f32 :=
  maximumf (broadcastInDim Cert.ReferenceIdeal.S32 ![] Cert.ReferenceIdeal.Facts₀.bcast_S_S32
      (constant (F := Ideal) Cert.ReferenceIdeal.S_ .f32 0xFF800000#32))
    (Host.reduce FloatOps.maximumf y (constant (F := Ideal) Cert.ReferenceIdeal.S_ .f32 0xFF800000#32)
      Cert.ReferenceIdeal.Facts₀.reducesTo_S32x1000_S32_d1 Cert.ReferenceIdeal.Facts₀.h_S_)

theorem topR_apply (y : FVec Ideal Cert.ReferenceIdeal.S32x1000 .f32) (r : Fin 32) :
    topR y (ix1 r) = rowTop (ent y) r := by
  show max (Ideal.ofBits .f32 0xFF800000#32) _ = max (Ideal.ofBits .f32 0xFF800000#32) _
  exact congrArg (max (Ideal.ofBits .f32 0xFF800000#32))
    (Cert.LibRowRead.hostReduceMax_row y 0xFF800000#32 Cert.ReferenceIdeal.Facts₀.reducesTo_S32x1000_S32_d1
      Cert.KernelIdeal.Facts₀.reduces_S32x1000_S32 Cert.ReferenceIdeal.Facts₀.h_S_ r)

/-- a per-row vector made a column and spread along the rows, as the second spelling writes it -/
def colR (v : FVec Ideal Cert.ReferenceIdeal.S32 .f32) : FVec Ideal Cert.ReferenceIdeal.S32x1000 .f32 :=
  broadcastInDim Cert.ReferenceIdeal.S32x1000 ![0, 1] Cert.ReferenceIdeal.Facts₀.bcast_S32x1_S32x1000_0_1
    (broadcastInDim Cert.ReferenceIdeal.S32x1 ![0] Cert.ReferenceIdeal.Facts₀.bcast_S32_S32x1_0 v)

theorem colR_apply (v : FVec Ideal Cert.ReferenceIdeal.S32 .f32) (r : Fin 32) (c : Fin 1000) :
    colR v (ix2 r c) = v (ix1 r) :=
  Cert.LibRowRead.bcast_perRow_apply Cert.ReferenceIdeal.Facts₀.bcast_S32_S32x1_0
    Cert.ReferenceIdeal.Facts₀.bcast_S32x1_S32x1000_0_1 v r c

/-- the shifted entries, as the second spelling writes them -/
def shiftR (y : FVec Ideal Cert.ReferenceIdeal.S32x1000 .f32) : FVec Ideal Cert.ReferenceIdeal.S32x1000 .f32 :=
  subf y (colR (topR y))

theorem shiftR_apply (y : FVec Ideal Cert.ReferenceIdeal.S32x1000 .f32) (r : Fin 32) (c : Fin 1000) :
    shiftR y (ix2 r c) = y (ix2 r c) - rowTop (ent y) r := by
  show y (ix2 r c) - colR (topR y) (ix2 r c) = _
  rw [colR_apply, topR_apply]

/-- the logarithm of the row sums of exponentials, spread along the rows, as the second spelling writes it -/
def lseR (s : FVec Ideal Cert.ReferenceIdeal.S32x1000 .f32) : FVec Ideal Cert.ReferenceIdeal.S32x1000 .f32 :=
  broadcastInDim Cert.ReferenceIdeal.S32x1000 ![0, 1] Cert.ReferenceIdeal.Facts₀.bcast_S32x1_S32x1000_0_1
    (Host.log (broadcastInDim Cert.ReferenceIdeal.S32x1 ![0] Cert.ReferenceIdeal.Facts₀.bcast_S32_S32x1_0
      (Host.reduceAdd (Host.exp s) (constant (F := Ideal) Cert.ReferenceIdeal.S_ .f32 0x00000000#32)
        Cert.ReferenceIdeal.Facts₀.reducesTo_S32x1000_S32_d1 Cert.ReferenceIdeal.Facts₀.h_S_)))

theorem lseR_apply (s : FVec Ideal Cert.ReferenceIdeal.S32x1000 .f32) (r : Fin 32) (c : Fin 1000) :
    lseR s (ix2 r c) = Ideal.log (∑ k : Fin 1000, Ideal.exp (s (ix2 r k))) := by
  refine (Cert.LibRowRead.bcast_alongRows_apply Cert.ReferenceIdeal.Facts₀.bcast_S32x1_S32x1000_0_1 _ r c).trans ?_
  show Ideal.log _ = _
  refine congrArg Ideal.log ((Cert.LibRowRead.bcast_column_apply Cert.ReferenceIdeal.Facts₀.bcast_S32_S32x1_0 _ r 0).trans ?_)
  refine (Cert.LibRowRead.hostReduceAdd_row (Host.exp s) _ Cert.ReferenceIdeal.Facts₀.reducesTo_S32x1000_S32_d1
    Cert.KernelIdeal.Facts₀.reduces_S32x1000_S32 Cert.ReferenceIdeal.Facts₀.h_S_ r).trans ?_
  show Ideal.ofBits .f32 0x00000000#32 + (∑ k : Fin 1000, Ideal.exp (s (ix2 r k))) = _
  rw [Ideal.ofBits_zero_f32, zero_add]

theorem tailR_eq (x : FVec Ideal Cert.ReferenceIdeal.S32x1000 .f32) :
    tailR x = subf (shiftR (reluR x)) (lseR (shiftR (reluR x))) := rfl

/-- The second spelling at entry (r, c). -/
theorem tailR_apply (x : FVec Ideal Cert.ReferenceIdeal.S32x1000 .f32) (r : Fin 32) (c : Fin 1000) :
    tailR x (ix2 r c) = lsm (relu0 x) r c := by
  rw [tailR_eq]
  show shiftR (reluR x) (ix2 r c) - lseR (shiftR (reluR x)) (ix2 r c) = _
  rw [lseR_apply, shiftR_apply]
  simp only [shiftR_apply]
  rfl

/-! ## The two spellings are one function -/

theorem tailK_eq_tailR (x : FVec Ideal Cert.KernelIdeal.S32x1000 .f32) : tailK x = tailR x := by
  funext j
  obtain ⟨r, c, rfl⟩ : ∃ (r : Fin 32) (c : Fin 1000), j = ix2 r c := ⟨j 0, j 1, eq_ix2 j⟩
  exact (tailK_apply x r c).trans (tailR_apply x r c).symm

end Cert.Tail

end
-- ==== Proof.KI.BridgeOut.lean ====
/-
  The kernel's result is the specification's logits under the kernel's own last stretch of operations.
  The running sum the first region leaves is the gate pre-activations: under the sum its operands are the
  specification's rows and weight columns. The first region's output is the new hidden state: the four quarters
  of the sum's columns are read as four unit-stride slices, the logistic and the hyperbolic tangent act entry by
  entry, the initial cell state is one row spread over the batch. The second region's payload is its last stretch
  applied to the second product plus the bias: the product contracts the columns of the hidden state with the
  columns of the output weights, a change of float format is the identity over the extended reals, and the bias is
  one row spread over the batch.
-/
import proofs.«157235_j5179730559367_1_alg».proof.Proof.Gen.KernelIdeal.Launch
import proofs.«157235_j5179730559367_1_alg».proof.Proof.Gen.KernelIdeal.Skeleton
import proofs.«157235_j5179730559367_1_alg».proof.Proof.Gen.KernelIdeal.Points
import proofs.«157235_j5179730559367_1_alg».proof.Proof.KI.FcDefs
import proofs.«157235_j5179730559367_1_alg».proof.Proof.KI.GateDefs
import proofs.«157235_j5179730559367_1_alg».proof.Proof.KI.RunDefs
import proofs.«157235_j5179730559367_1_alg».proof.Proof.Spec
import proofs.«157235_j5179730559367_1_alg».proof.Proof.LibDotT
import proofs.«157235_j5179730559367_1_alg».proof.Proof.KI.KVal
import proofs.«157235_j5179730559367_1_alg».proof.Proof.KI.BridgeZW
import proofs.«157235_j5179730559367_1_alg».proof.Proof.KI.BridgeAcc
import proofs.«157235_j5179730559367_1_alg».proof.Proof.Tail
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable (m : (ℓ : Loc nD τ sig) → Buf (Elt Ideal) ℓ) (c : Dev nD)

/-! ## The gate pre-activations -/

/-- The running sum after the last point is the specification's gate pre-activation: under the sum the left operand's
    entry is the specification's row entry and the right operand's its weight entry. -/
theorem gate_apply (b : Fin 32) (n : Fin 4096) :
    accAt (V1 m) c 2 (by rw [show cfg0.N = 3 from N_0]; decide) (ix2 b n)
      = Cert.Spec.gate (m ((c : Thread nD τ).loc main_arg0)) (m ((c : Thread nD τ).loc main_arg1))
          (m ((c : Thread nD τ).loc main_arg3)) (m ((c : Thread nD τ).loc main_arg4))
          (m ((c : Thread nD τ).loc main_arg5)) (m ((c : Thread nD τ).loc main_arg6)) b n := by
  rw [acc_apply m c b n]
  unfold Cert.Spec.gate
  exact Finset.sum_congr rfl fun k _ => congrArg₂ (fun x y : EReal => x * y) (Z_apply m c b k) (W_apply m c k n)

/-! ## The new hidden state -/

/-- A unit-stride slice of 1024 columns at column offset `q · 1024` reads, at column `j`, column `j` of quarter `q`. -/
theorem out_quarter_apply (X : FVec Ideal S32x4096 .f32) (o : Nat) (h : S32x4096.Slices ![0, o] S32x1024)
    (q : Fin 4) (hq : o = q.val * 1024) (b : Fin 32) (j : Fin 1024) :
    extractStridedSlice S32x1024 ![0, o] X h (ix2 b j) = X (ix2 b (Cert.Spec.col q j)) :=
  slice2_axis1_apply o X h b j (Cert.Spec.col q j) (by subst hq; rfl)

/-- The first region's output is the specification's new hidden state. -/
theorem hid_apply (b : Fin 32) (j : Fin 1024) :
    V2 m c main_v9 (ix2 b j)
      = Cert.Spec.hid (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) b j := by
  rw [v9_val m c]
  unfold gateOut k0_pay3
  simp only [mulf_apply, addf_apply, logistic, tanh, Ideal.logistic_def, Ideal.tanh_def, shapeCast_self,
    broadcastTo_1b_ab_apply]
  rw [out_quarter_apply _ 0 _ 0 rfl, out_quarter_apply _ 1024 _ 1 rfl, out_quarter_apply _ 2048 _ 2 rfl,
    out_quarter_apply _ 3072 _ 3 rfl]
  rw [gate_apply m c b (Cert.Spec.col 0 j), gate_apply m c b (Cert.Spec.col 1 j),
    gate_apply m c b (Cert.Spec.col 2 j), gate_apply m c b (Cert.Spec.col 3 j), C_apply m c 0 j]
  rfl

/-! ## The logits -/

/-- A vector of `n` entries made a one-row matrix reads, at `(0, j)`, its entry `j`. -/
theorem out_bias_row_apply {n : Nat} (h : (⟨1, ![n]⟩ : Shape).BroadcastsInDim (⟨2, ![1, n]⟩ : Shape) ![1])
    (v : FVec Ideal ⟨1, ![n]⟩ .f32) (r : Fin 1) (j : Fin n) :
    broadcastInDim (⟨2, ![1, n]⟩ : Shape) ![1] h v (ix2 r j) = v (ix1 j) := by
  refine broadcastInDim_apply _ h v _ (ix1 j) fun a => ?_
  match a with
  | ⟨0, _⟩ =>
    show j.val = if n = 1 then 0 else j.val
    split
    · have := j.isLt; omega
    · rfl

/-- The second product plus the bias, entry by entry, is the specification's logit. -/
theorem out_lin_apply (p : Fin 32) (q : Fin 1000) :
    addf (matmul dot_S32x1024_S1000x1024_S32x1000_1_1_0_0_n_n none
          (shapeCast S32x1024 (truncf .bf16 (V2 m c main_v9 : FVec Ideal S32x1024 .f32) bitsLt_bf16_f32 : FVec Ideal S32x1024 .bf16) shapeCasts_S32x1024_S32x1024 : FVec Ideal S32x1024 .bf16)
          (shapeCast S1000x1024 (truncf .bf16 (m ((c : Thread nD τ).loc main_arg7) : FVec Ideal S1000x1024 .f32) bitsLt_bf16_f32 : FVec Ideal S1000x1024 .bf16) shapeCasts_S1000x1024_S1000x1024 : FVec Ideal S1000x1024 .bf16)
          (constant S32x1000 .f32 0x00000000#32))
        (broadcastTo S32x1000 (shapeCast S1x1000 (broadcastInDim S1x1000 ![1] bcast_S1000_S1x1000_1 (m ((c : Thread nD τ).loc main_arg8)) : FVec Ideal S1x1000 .f32) shapeCasts_S1x1000_S1x1000 : FVec Ideal S1x1000 .f32) broadcasts_S1x1000_S32x1000)
        (ix2 p q)
      = Cert.Spec.lin (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) (m ((c : Thread nD τ).loc main_arg7))
          (m ((c : Thread nD τ).loc main_arg8)) p q := by
  rw [addf_apply]
  simp only [matmul]
  rw [Cert.LibDotT.matmul_zero_at_T dot_S32x1024_S1000x1024_S32x1000_1_1_0_0_n_n rfl rfl rfl rfl rfl rfl]
  rw [broadcastTo_1b_ab_apply]
  simp only [shapeCast_self, truncf_apply]
  rw [out_bias_row_apply]
  unfold Cert.Spec.lin
  congr 1
  exact Finset.sum_congr rfl fun k _ => by rw [hid_apply m c p k]

/-- The kernel's result is its last stretch applied to the specification's logits. -/
theorem kernel_is_spec [Cert.ReferenceIdeal.Facts] :
    W4 m c (Proc.devRef .tc main_v13)
      = Cert.Tail.tailK (fun i => Cert.Spec.lin (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) (m ((c : Thread nD τ).loc main_arg7))
          (m ((c : Thread nD τ).loc main_arg8)) (i 0) (i 1)) := by
  rw [out_val m c, v10_val m c, v11_val m c, v12_val m c, Cert.Tail.k1_pay1_eq]
  refine congrArg Cert.Tail.tailK (funext fun i => ?_)
  obtain ⟨p, q, rfl⟩ : ∃ p q, i = ix2 p q := ⟨i 0, i 1, eq_ix2 i⟩
  exact out_lin_apply m c p q

end Cert.KernelIdeal.Hand

end
-- ==== Proof.RefFrame.lean ====
/-
  The reference program has no kernel: its run is a straight line of host operations, so it terminates,
  faults nowhere and writes none of its argument arrays. The frame of the reference is that run with the
  result's value dropped.
-/
import proofs.«157235_j5179730559367_1_alg».proof.Defs
import proofs.«157235_j5179730559367_1_alg».proof.Proof.Gen.ReferenceIdeal
import proofs.«157235_j5179730559367_1_alg».proof.Proof.RefRunP

noncomputable section

open Idealize.ShloMosaic Idealize.ShloMosaic.TcCoe Idealize.SL.Sem

namespace Cert.Proof.RefFrame

theorem frame_ri [Cert.Pre_finite_inputs.Facts] : Cert.frame_ReferenceIdeal := fun m ρ _ =>
  (θ_run Cert.ReferenceIdeal.defs _ _).mono (fun _ h c => (h c).2) (Cert.ReferenceIdeal.ValueP.run (F := Ideal) m ρ)

end Cert.Proof.RefFrame

end
-- ==== Proof.RefSpec.lean ====
/-
  The reference program's result is the last stretch (the clamp at zero and the log-softmax along the rows) applied
  to the specification's logits.

  Read at an index, stage by stage: the row that enters the first product is the initial hidden state followed by the
  features, and at the last time step it is the specification's row; the four weight matrices laid side by side are
  the specification's wide matrix, column n being column n mod 1024 of matrix n div 1024; the first product at the
  last time step is therefore the specification's gate pre-activation; the quotient 1 / (1 + exp (−x)) is the logistic
  function; the four gates are read off the four quarters of the columns, so the new hidden state at the last time
  step is the specification's; cutting out the last time step and dropping its axis keeps the entries; and the second
  product, against the transposed output weights, plus the bias spread along the rows, is the specification's logits.
-/
import proofs.«157235_j5179730559367_1_alg».proof.Proof.RefReadP
import proofs.«157235_j5179730559367_1_alg».proof.Proof.Spec
import proofs.«157235_j5179730559367_1_alg».proof.Proof.Tail
import Idealize.ShloMosaic.PureOps.Ideal.Laws
import Idealize.ShloMosaic.Lib.ValueIdx
import Idealize.ShloMosaic.Lib.Pipeline.Value

noncomputable section

namespace Cert.RefSpec

open Cert.ReferenceIdeal Cert.ReferenceIdeal.Gen Idealize.ShloMosaic Idealize.ShloMosaic.TcCoe Idealize.ShloMosaic.ValueIdx

/-- The last time step. -/
abbrev tl : Fin 512 := ⟨511, by decide⟩

/-! ### The two joined arrays read at an index -/

/-- The joined row: below 1024 the initial hidden state (the same for every batch row and time step), from 1024 on the
    features of that batch row and time step. -/
theorem v1_apply (x0 : (⟨S32x512x512, .f32⟩ : BufTy).Contents (Elt Ideal)) (x1 : (⟨S1024, .f32⟩ : BufTy).Contents (Elt Ideal))
    (b : Fin 32) (t : Fin 512) (k : Fin 1536) :
    ReadP.val_main_v1 (F := Ideal) x0 x1 (ix3 b t k) =
      if h : k.val < 1024 then x1 (ix1 (⟨k.val, h⟩ : Fin 1024))
      else x0 (ix3 b t (⟨k.val - 1024, by have := k.isLt; omega⟩ : Fin 512)) := by
  unfold ReadP.val_main_v1
  by_cases h : k.val < 1024
  · rw [dif_pos h]
    refine (concatenate_pair_apply_left (t := S32x512x1536) (s₁ := S32x512x1024) (s₂ := S32x512x512) _ _ _ _
      (ix3 b t k) rfl (ix3 b t (⟨k.val, h⟩ : Fin 1024))
      (fun a => by match a with | ⟨0, _⟩ => rfl | ⟨1, _⟩ => rfl | ⟨2, _⟩ => rfl)).trans ?_
    rw [ReadP.val_main_v0_apply]
    exact congrArg x1 (funext fun a => Fin.ext (by match a with | ⟨0, _⟩ => rfl))
  · rw [dif_neg h]
    exact concatenate_pair_apply_right (t := S32x512x1536) (s₁ := S32x512x1024) (s₂ := S32x512x512) _ _ _ _
      (ix3 b t k) rfl rfl
      (ix3 b t (⟨k.val - 1024, by have := k.isLt; omega⟩ : Fin 512))
      (fun a hne => by match a with | ⟨0, _⟩ => rfl | ⟨1, _⟩ => rfl | ⟨2, _⟩ => exact absurd rfl hne)
      (by show (k.val - 1024) + 1024 = k.val; omega)

/-- At the last time step the joined row is the specification's row. -/
theorem v1_last (x0 : (⟨S32x512x512, .f32⟩ : BufTy).Contents (Elt Ideal)) (x1 : (⟨S1024, .f32⟩ : BufTy).Contents (Elt Ideal))
    (b : Fin 32) (k : Fin 1536) :
    ReadP.val_main_v1 (F := Ideal) x0 x1 (ix3 b tl k) = Cert.Spec.z x0 x1 b k := by
  rw [v1_apply]; rfl

/-- The four weight matrices side by side: column `n` is column `n % 1024` of matrix `n / 1024`. -/
theorem v2_apply (x3 x4 x5 x6 : (⟨S1536x1024, .f32⟩ : BufTy).Contents (Elt Ideal)) (k : Fin 1536) (n : Fin 4096) :
    ReadP.val_main_v2 (F := Ideal) x3 x4 x5 x6 (ix2 k n) = Cert.Spec.wall x3 x4 x5 x6 k n := by
  unfold ReadP.val_main_v2 Cert.Spec.wall
  by_cases h1 : n.val < 1024
  · rw [dif_pos h1]
    exact concatenate_apply_piece _ _ _ (ix2 k n) 0 (by simp) S1536x1024 x3 rfl rfl 0 rfl
      (ix2 k (⟨n.val, h1⟩ : Fin 1024))
      (fun a hne => by match a with | ⟨0, _⟩ => rfl | ⟨1, _⟩ => exact absurd rfl hne)
      (by show 0 + n.val = n.val; omega)
  · rw [dif_neg h1]
    by_cases h2 : n.val < 2048
    · rw [dif_pos h2]
      exact concatenate_apply_piece _ _ _ (ix2 k n) 1 (by simp) S1536x1024 x4 rfl rfl 1024 rfl
        (ix2 k (⟨n.val - 1024, by omega⟩ : Fin 1024))
        (fun a hne => by match a with | ⟨0, _⟩ => rfl | ⟨1, _⟩ => exact absurd rfl hne)
        (by show 1024 + (n.val - 1024) = n.val; omega)
    · rw [dif_neg h2]
      by_cases h3 : n.val < 3072
      · rw [dif_pos h3]
        exact concatenate_apply_piece _ _ _ (ix2 k n) 2 (by simp) S1536x1024 x5 rfl rfl 2048 rfl
          (ix2 k (⟨n.val - 2048, by omega⟩ : Fin 1024))
          (fun a hne => by match a with | ⟨0, _⟩ => rfl | ⟨1, _⟩ => exact absurd rfl hne)
          (by show 2048 + (n.val - 2048) = n.val; omega)
      · rw [dif_neg h3]
        exact concatenate_apply_piece _ _ _ (ix2 k n) 3 (by simp) S1536x1024 x6 rfl rfl 3072 rfl
          (ix2 k (⟨n.val - 3072, by have := n.isLt; omega⟩ : Fin 1024))
          (fun a hne => by match a with | ⟨0, _⟩ => rfl | ⟨1, _⟩ => exact absurd rfl hne)
          (by show 3072 + (n.val - 3072) = n.val; have := n.isLt; omega)

/-! ### The gate pre-activations -/

/-- The first product at the last time step is the specification's gate pre-activation. -/
theorem v3_last (x0 : (⟨S32x512x512, .f32⟩ : BufTy).Contents (Elt Ideal)) (x1 : (⟨S1024, .f32⟩ : BufTy).Contents (Elt Ideal)) (x3 x4 x5 x6 : (⟨S1536x1024, .f32⟩ : BufTy).Contents (Elt Ideal)) (b : Fin 32) (n : Fin 4096) :
    ReadP.val_main_v3 (F := Ideal) x0 x1 x3 x4 x5 x6 (ix3 b tl n) = Cert.Spec.gate x0 x1 x3 x4 x5 x6 b n := by
  rw [ReadP.val_main_v3_apply]
  unfold Cert.Spec.gate
  refine Finset.sum_congr rfl fun k _ => ?_
  have e1 : ReadP.lidx_main_v3 (ix3 b tl n) k = ix3 b tl k :=
    funext fun a => Fin.ext (by match a with | ⟨0, _⟩ => rfl | ⟨1, _⟩ => rfl | ⟨2, _⟩ => rfl)
  have e2 : ReadP.ridx_main_v3 (ix3 b tl n) k = ix2 k n :=
    funext fun a => Fin.ext (by match a with | ⟨0, _⟩ => rfl | ⟨1, _⟩ => rfl)
  rw [e1, e2, v1_last, v2_apply]

/-! ### One, and the quotient spelling of the logistic function -/

/-- The word `0x3F800000` is the number one. -/
theorem one_eq : Ideal.ofBits .f32 0x3F800000#32 = 1 := by
  simp [Ideal.ofBits, Ideal.ieee]
  rw [← EReal.coe_mul, ← EReal.coe_one]
  congr 1
  norm_num

/-- `1 / (1 + exp (-x))` is the logistic function. -/
theorem sig_eq (x : Ideal .f32) :
    FloatOps.hostDivf (FloatOps.ofBits (F := Ideal) .f32 0x3F800000#32)
      (FloatOps.addf (FloatOps.ofBits (F := Ideal) .f32 0x3F800000#32) (FloatOps.hostUnary .exp (FloatOps.hostNegf x)))
      = Ideal.logistic x := by
  simp only [Ideal.hostDivf_def, Ideal.ofBits_def, Ideal.addf_def, Ideal.hostUnary_exp_def, Ideal.hostNegf_def,
    Ideal.negf_def, one_eq]
  rfl

/-! ### The four gates at the last time step -/

theorem v13_last (x0 : (⟨S32x512x512, .f32⟩ : BufTy).Contents (Elt Ideal)) (x1 : (⟨S1024, .f32⟩ : BufTy).Contents (Elt Ideal)) (x3 x4 x5 x6 : (⟨S1536x1024, .f32⟩ : BufTy).Contents (Elt Ideal)) (b : Fin 32) (j : Fin 1024) :
    ReadP.val_main_v13 (F := Ideal) x0 x1 x3 x4 x5 x6 (ix3 b tl j)
      = Ideal.logistic (Cert.Spec.gate x0 x1 x3 x4 x5 x6 b (Cert.Spec.col 0 j)) := by
  have e : ReadP.idx_main_v4 (ix3 b tl j) = ix3 b tl (Cert.Spec.col 0 j) :=
    funext fun a => Fin.ext (by
      match a with
      | ⟨0, _⟩ => rfl
      | ⟨1, _⟩ => rfl
      | ⟨2, _⟩ => show j.val = 0 * 1024 + j.val; omega)
  rw [ReadP.val_main_v13_apply, ReadP.val_main_v12_apply, ReadP.val_main_cst_0_apply, ReadP.val_main_v11_apply,
    ReadP.val_main_v10_apply, ReadP.val_main_cst_apply, ReadP.val_main_v9_apply, ReadP.val_main_v8_apply,
    ReadP.val_main_v4_apply, e, v3_last]
  exact sig_eq _

theorem v19_last (x0 : (⟨S32x512x512, .f32⟩ : BufTy).Contents (Elt Ideal)) (x1 : (⟨S1024, .f32⟩ : BufTy).Contents (Elt Ideal)) (x3 x4 x5 x6 : (⟨S1536x1024, .f32⟩ : BufTy).Contents (Elt Ideal)) (b : Fin 32) (j : Fin 1024) :
    ReadP.val_main_v19 (F := Ideal) x0 x1 x3 x4 x5 x6 (ix3 b tl j)
      = Ideal.logistic (Cert.Spec.gate x0 x1 x3 x4 x5 x6 b (Cert.Spec.col 1 j)) := by
  have e : ReadP.idx_main_v5 (ix3 b tl j) = ix3 b tl (Cert.Spec.col 1 j) :=
    funext fun a => Fin.ext (by
      match a with
      | ⟨0, _⟩ => rfl
      | ⟨1, _⟩ => rfl
      | ⟨2, _⟩ => show 1024 + j.val = 1 * 1024 + j.val; omega)
  rw [ReadP.val_main_v19_apply, ReadP.val_main_v18_apply, ReadP.val_main_cst_2_apply, ReadP.val_main_v17_apply,
    ReadP.val_main_v16_apply, ReadP.val_main_cst_1_apply, ReadP.val_main_v15_apply, ReadP.val_main_v14_apply,
    ReadP.val_main_v5_apply, e, v3_last]
  exact sig_eq _

theorem v20_last (x0 : (⟨S32x512x512, .f32⟩ : BufTy).Contents (Elt Ideal)) (x1 : (⟨S1024, .f32⟩ : BufTy).Contents (Elt Ideal)) (x3 x4 x5 x6 : (⟨S1536x1024, .f32⟩ : BufTy).Contents (Elt Ideal)) (b : Fin 32) (j : Fin 1024) :
    ReadP.val_main_v20 (F := Ideal) x0 x1 x3 x4 x5 x6 (ix3 b tl j)
      = Ideal.tanh (Cert.Spec.gate x0 x1 x3 x4 x5 x6 b (Cert.Spec.col 2 j)) := by
  have e : ReadP.idx_main_v6 (ix3 b tl j) = ix3 b tl (Cert.Spec.col 2 j) :=
    funext fun a => Fin.ext (by
      match a with
      | ⟨0, _⟩ => rfl
      | ⟨1, _⟩ => rfl
      | ⟨2, _⟩ => show 2048 + j.val = 2 * 1024 + j.val; omega)
  rw [ReadP.val_main_v20_apply, ReadP.val_main_v6_apply, e, v3_last]
  rfl

theorem v26_last (x0 : (⟨S32x512x512, .f32⟩ : BufTy).Contents (Elt Ideal)) (x1 : (⟨S1024, .f32⟩ : BufTy).Contents (Elt Ideal)) (x3 x4 x5 x6 : (⟨S1536x1024, .f32⟩ : BufTy).Contents (Elt Ideal)) (b : Fin 32) (j : Fin 1024) :
    ReadP.val_main_v26 (F := Ideal) x0 x1 x3 x4 x5 x6 (ix3 b tl j)
      = Ideal.logistic (Cert.Spec.gate x0 x1 x3 x4 x5 x6 b (Cert.Spec.col 3 j)) := by
  have e : ReadP.idx_main_v7 (ix3 b tl j) = ix3 b tl (Cert.Spec.col 3 j) :=
    funext fun a => Fin.ext (by
      match a with
      | ⟨0, _⟩ => rfl
      | ⟨1, _⟩ => rfl
      | ⟨2, _⟩ => show 3072 + j.val = 3 * 1024 + j.val; omega)
  rw [ReadP.val_main_v26_apply, ReadP.val_main_v25_apply, ReadP.val_main_cst_4_apply, ReadP.val_main_v24_apply,
    ReadP.val_main_v23_apply, ReadP.val_main_cst_3_apply, ReadP.val_main_v22_apply, ReadP.val_main_v21_apply,
    ReadP.val_main_v7_apply, e, v3_last]
  exact sig_eq _

/-- The initial cell state, spread over batch rows and time steps. -/
theorem v28_apply (x2 : (⟨S1024, .f32⟩ : BufTy).Contents (Elt Ideal)) (b : Fin 32) (t : Fin 512) (j : Fin 1024) :
    ReadP.val_main_v28 (F := Ideal) x2 (ix3 b t j) = x2 (ix1 j) := by
  rw [ReadP.val_main_v28_apply, ReadP.val_main_v27_apply]
  exact congrArg x2 (funext fun a => Fin.ext (by match a with | ⟨0, _⟩ => rfl))

/-! ### The new hidden state and the logits -/

/-- The new hidden state at the last time step is the specification's. -/
theorem v33_last (x0 : (⟨S32x512x512, .f32⟩ : BufTy).Contents (Elt Ideal)) (x1 x2 : (⟨S1024, .f32⟩ : BufTy).Contents (Elt Ideal)) (x3 x4 x5 x6 : (⟨S1536x1024, .f32⟩ : BufTy).Contents (Elt Ideal)) (b : Fin 32) (j : Fin 1024) :
    ReadP.val_main_v33 (F := Ideal) x0 x1 x2 x3 x4 x5 x6 (ix3 b tl j) = Cert.Spec.hid x0 x1 x2 x3 x4 x5 x6 b j := by
  rw [ReadP.val_main_v33_apply, ReadP.val_main_v32_apply, ReadP.val_main_v31_apply, ReadP.val_main_v29_apply,
    ReadP.val_main_v30_apply, v26_last, v13_last, v19_last, v20_last, v28_apply]
  rfl

/-- The last time step's hidden state, as a matrix of batch rows. -/
theorem v35_apply (x0 : (⟨S32x512x512, .f32⟩ : BufTy).Contents (Elt Ideal)) (x1 x2 : (⟨S1024, .f32⟩ : BufTy).Contents (Elt Ideal)) (x3 x4 x5 x6 : (⟨S1536x1024, .f32⟩ : BufTy).Contents (Elt Ideal)) (b : Fin 32) (j : Fin 1024) :
    ReadP.val_main_v35 (F := Ideal) x0 x1 x2 x3 x4 x5 x6 (ix2 b j) = Cert.Spec.hid x0 x1 x2 x3 x4 x5 x6 b j := by
  have e : ReadP.idx_main_v34 (ReadP.idx_main_v35 (ix2 b j)) = ix3 b tl j :=
    funext fun a => Fin.ext (by
      have hb := b.isLt; have hj := j.isLt
      match a with
      | ⟨0, _⟩ => show (b.val * 1024 + j.val) / 1024 = b.val; omega
      | ⟨1, _⟩ => rfl
      | ⟨2, _⟩ => show (b.val * 1024 + j.val) % 1024 = j.val; omega)
  rw [ReadP.val_main_v35_apply, ReadP.val_main_v34_apply, e, v33_last]

theorem lin_apply (x0 : (⟨S32x512x512, .f32⟩ : BufTy).Contents (Elt Ideal)) (x1 x2 : (⟨S1024, .f32⟩ : BufTy).Contents (Elt Ideal)) (x3 x4 x5 x6 : (⟨S1536x1024, .f32⟩ : BufTy).Contents (Elt Ideal)) (x7 : (⟨S1000x1024, .f32⟩ : BufTy).Contents (Elt Ideal)) (x8 : (⟨S1000, .f32⟩ : BufTy).Contents (Elt Ideal)) (b : Fin 32) (n : Fin 1000) :
    Cert.ReferenceIdeal.ReadP.val_main_v40 (F := Ideal) x0 x1 x2 x3 x4 x5 x6 x7 x8 (ix2 b n) = Cert.Spec.lin x0 x1 x2 x3 x4 x5 x6 x7 x8 b n := by
  have e8 : ReadP.idx_main_v38 (ReadP.idx_main_v39 (ix2 b n)) = ix1 n :=
    funext fun a => Fin.ext (by match a with | ⟨0, _⟩ => rfl)
  rw [ReadP.val_main_v40_apply, ReadP.val_main_v39_apply, ReadP.val_main_v38_apply, e8, ReadP.val_main_v37_apply]
  unfold Cert.Spec.lin
  refine congrArg (· + x8 (ix1 n)) (Finset.sum_congr rfl fun j _ => ?_)
  have el : ReadP.lidx_main_v37 (ix2 b n) j = ix2 b j :=
    funext fun a => Fin.ext (by match a with | ⟨0, _⟩ => rfl | ⟨1, _⟩ => rfl)
  have er : ReadP.idx_main_v36 (ReadP.ridx_main_v37 (ix2 b n) j) = ix2 n j :=
    funext fun a => Fin.ext (by match a with | ⟨0, _⟩ => rfl | ⟨1, _⟩ => rfl)
  rw [el, v35_apply, ReadP.val_main_v36_apply, er]

/-- The last stretch is a function of the logits alone. -/
theorem v42_eq_tail [Cert.KernelIdeal.Facts] (x0 : (⟨S32x512x512, .f32⟩ : BufTy).Contents (Elt Ideal)) (x1 x2 : (⟨S1024, .f32⟩ : BufTy).Contents (Elt Ideal)) (x3 x4 x5 x6 : (⟨S1536x1024, .f32⟩ : BufTy).Contents (Elt Ideal)) (x7 : (⟨S1000x1024, .f32⟩ : BufTy).Contents (Elt Ideal)) (x8 : (⟨S1000, .f32⟩ : BufTy).Contents (Elt Ideal)) :
    ReadP.val_main_v42 (F := Ideal) x0 x1 x2 x3 x4 x5 x6 x7 x8 = Cert.Tail.tailR (ReadP.val_main_v40 (F := Ideal) x0 x1 x2 x3 x4 x5 x6 x7 x8) := by
  unfold ReadP.val_main_v42 ReadP.val_main_call1_v10 ReadP.val_main_call1_v9 ReadP.val_main_call1_v8 ReadP.val_main_call1_v7
    ReadP.val_main_call1_v6 ReadP.val_main_call1_v5 ReadP.val_main_call1_v4 ReadP.val_main_call1_v3 ReadP.val_main_call1_v2
    ReadP.val_main_call1_v0 ReadP.val_main_v41 Cert.Tail.tailR
  rfl

/-- The logits as an array are the specification's. -/
theorem v40_eq (x0 : (⟨S32x512x512, .f32⟩ : BufTy).Contents (Elt Ideal)) (x1 x2 : (⟨S1024, .f32⟩ : BufTy).Contents (Elt Ideal)) (x3 x4 x5 x6 : (⟨S1536x1024, .f32⟩ : BufTy).Contents (Elt Ideal)) (x7 : (⟨S1000x1024, .f32⟩ : BufTy).Contents (Elt Ideal)) (x8 : (⟨S1000, .f32⟩ : BufTy).Contents (Elt Ideal)) :
    ReadP.val_main_v40 (F := Ideal) x0 x1 x2 x3 x4 x5 x6 x7 x8 = fun i => Cert.Spec.lin x0 x1 x2 x3 x4 x5 x6 x7 x8 (i 0) (i 1) := by
  funext i
  obtain ⟨p, q, rfl⟩ : ∃ p q, i = ix2 p q := ⟨i 0, i 1, eq_ix2 i⟩
  exact lin_apply x0 x1 x2 x3 x4 x5 x6 x7 x8 p q

theorem ref_is_spec [Cert.KernelIdeal.Facts] (m : (ℓ : Loc nD τ sig) → Buf (Elt Ideal) ℓ) (c : Dev nD) :
    Cert.ReferenceIdeal.ValueP.res_main_v42 m c = Cert.Tail.tailR (fun i => Cert.Spec.lin (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (i 0) (i 1)) := by
  rw [ReadP.val_main_v42_eq, v42_eq_tail, v40_eq]

end Cert.RefSpec

end
-- ==== Proof.lean ====
/-
  The certificate's five claims.
  Both kernel programs (the word-level one and its idealization, the same printed text) run as four items in order: a
  stretch of host operations (the last time step sliced out, the hidden state broadcast and joined to it, the four gate
  weight matrices joined side by side, the changes of float format), a first kernel region that accumulates the gate
  product over three blocks of the contracted axis in a scratch buffer and at the last block applies the gates and the
  cell update, a second stretch of host operations, and a second kernel region for the output layer, the relu and the
  log-softmax. Each region's body is run on its staging buffers point by point; the launch theorem for a list of
  segments composes the four items, and reading every unscoped buffer at the end gives both the frame (the argument
  arrays end as launched) and the result array's contents as a term of the arguments.
  The reference is a straight line of host operations; its run and its frame are its generated run.
  At the ideal instance the two results are one function of the arguments: the blocked accumulation regroups one sum
  over the 1536 contracted entries; the slice of the last time step commutes with every pointwise operation; the
  kernel's logistic is 1 / (1 + exp (−x)), which is how the reference spells it; the second product contracts the
  hidden state against the rows of the output weights on both sides; the relu and the log-softmax are the same chain.
  The idealization rewrote nothing, so `preserves` is trivial.
-/
import proofs.«157235_j5179730559367_1_alg».proof.Defs
import proofs.«157235_j5179730559367_1_alg».proof.Proof.Gen.Kernel
import proofs.«157235_j5179730559367_1_alg».proof.Proof.Gen.KernelIdeal
import proofs.«157235_j5179730559367_1_alg».proof.Proof.Gen.ReferenceIdeal
import proofs.«157235_j5179730559367_1_alg».proof.Proof.Gen.Pre_finite_inputs
import proofs.«157235_j5179730559367_1_alg».proof.Proof.KB.Run
import proofs.«157235_j5179730559367_1_alg».proof.Proof.KI.Run
import proofs.«157235_j5179730559367_1_alg».proof.Proof.KI.BridgeOut
import proofs.«157235_j5179730559367_1_alg».proof.Proof.RefFrame
import proofs.«157235_j5179730559367_1_alg».proof.Proof.RefSpec
import proofs.«157235_j5179730559367_1_alg».proof.Proof.Tail
import Idealize.ShloMosaic.Adequacy
import Idealize.ShloMosaic.Init

noncomputable section

namespace Cert.Proof

open Idealize.ShloMosaic Idealize.ShloMosaic.TcCoe Idealize.SL.Sem

/-- The word-level program runs and leaves its arguments as launched. -/
theorem frame_k : Cert.frame_Kernel := fun m ρ _ => Cert.Kernel.Hand.frame (F := Bits) m ρ

/-- The idealized program runs and leaves its arguments as launched. -/
theorem frame_ki : Cert.frame_KernelIdeal := fun m ρ _ => Cert.KernelIdeal.Hand.frame (F := Ideal) m ρ

/-- From memories that agree on the arguments both idealized programs end with the same result array: the
    specification's logits under the shared last stretch. -/
theorem algebraic : Cert.algebraic_KernelIdeal_ReferenceIdeal := by
  intro m ρ m' ρ' _ hagree
  refine ⟨fun c => Cert.Tail.tailR (fun i => Cert.Spec.lin (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (i 0) (i 1)), ?_, ?_⟩
  · refine (θ_run Cert.KernelIdeal.defs _ _).mono (fun _ h c => ⟨(h c).1.trans ?_, (h c).2⟩) (Cert.KernelIdeal.Hand.result (F := Ideal) m ρ)
    exact (Cert.KernelIdeal.Hand.kernel_is_spec m c).trans (Cert.Tail.tailK_eq_tailR _)
  · refine (θ_run Cert.ReferenceIdeal.defs _ _).mono (fun _ h c => ⟨(h c).1.trans ?_, (h c).2⟩) (Cert.ReferenceIdeal.ValueP.run (F := Ideal) m' ρ')
    rw [Cert.RefSpec.ref_is_spec m' c, (hagree c).1, (hagree c).2.1, (hagree c).2.2.1, (hagree c).2.2.2.1, (hagree c).2.2.2.2.1,
      (hagree c).2.2.2.2.2.1, (hagree c).2.2.2.2.2.2.1, (hagree c).2.2.2.2.2.2.2.1, (hagree c).2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, Cert.Proof.RefFrame.frame_ri, trivial, algebraic⟩

end Cert.Proof

end
